-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S16384x1000 : Shape := ⟨2, ![16384, 1000]⟩
abbrev S16384 : Shape := ⟨1, ![16384]⟩
abbrev S1000x768 : Shape := ⟨2, ![1000, 768]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S16384x1000 : S_.BroadcastsInDim S16384x1000 (![] : Fin 0 → Fin S16384x1000.rank)
  reducesTo_S16384x1000_S_d0_1 : S16384x1000.ReducesTo [0, 1] S_
  bcast_S_S1000x768 : S_.BroadcastsInDim S1000x768 (![] : Fin 0 → Fin S1000x768.rank)
  reducesTo_S1000x768_S_d0_1 : S1000x768.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg2 : IVec S16384 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg2 main_v19
  let main_c_7 : IVec S_ 32 := constantI S_ 32 1000#32
  let main_v21 : IVec S16384 32 := broadcastInDim S16384 ![] bcast_S_S16384 main_c_7
  let main_v22 : IVec S16384 1 := cmpi .slt main_arg2 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  main_v25

def fn {F : FTy → Type} [FloatOps F] (main_arg0 : FVec F S16384x768 .f32) (main_arg1 : FVec F S16384x1000 .f32) (main_arg2 : IVec S16384 32) (main_arg3 : FVec F S1000x768 .f32) (main_arg4 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  let main_v9 : FVec F S1000x768 .f32 := Host.absf main_arg3
  let main_cst_2 : FVec F S_ .f32 := constant S_ .f32 0x7F800000#32
  let main_v10 : FVec F S1000x768 .f32 := broadcastInDim S1000x768 ![] bcast_S_S1000x768 main_cst_2
  let main_v11 : IVec S1000x768 1 := cmpf .olt main_v9 main_v10
  let main_c_3 : IVec S_ 1 := constantI S_ 1 1#1
  let main_v12 : IVec S_ 1 := (fun x v => Host.reduce IntOp.andi x v reducesTo_S1000x768_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_v13 main_v16
-- ==== Kernel.lean ====
abbrev S16384x768 : Shape := ⟨2, ![16384, 768]⟩
abbrev S16384x1000 : Shape := ⟨2, ![16384, 1000]⟩
abbrev S16384 : Shape := ⟨1, ![16384]⟩
abbrev S1000x768 : Shape := ⟨2, ![1000, 768]⟩
abbrev S1 : Shape := ⟨1, ![1]⟩
abbrev S_ : Shape := ⟨0, ![]⟩
abbrev S1000 : Shape := ⟨1, ![1000]⟩
abbrev S1000x1 : Shape := ⟨2, ![1000, 1]⟩
abbrev S768x1000 : Shape := ⟨2, ![768, 1000]⟩
abbrev S16384x1 : Shape := ⟨2, ![16384, 1]⟩
abbrev S1x1 : Shape := ⟨2, ![1, 1]⟩
abbrev S2x1x128 : Shape := ⟨3, ![2, 1, 128]⟩
abbrev S512x768 : Shape := ⟨2, ![512, 768]⟩
abbrev S512x1000 : Shape := ⟨2, ![512, 1000]⟩
abbrev S512x1 : Shape := ⟨2, ![512, 1]⟩
abbrev S1x1x128 : Shape := ⟨3, ![1, 1, 128]⟩
abbrev S512 : Shape := ⟨1, ![512]⟩
abbrev S1x1x1 : Shape := ⟨3, ![1, 1, 1]⟩

abbrev nBuf : Space → Nat
  | .hbm => 26
  | .vmem => 13
  | .smem => 0
  | _ => 0

abbrev bufTy : (tb : Table) → Fin (tcTables nBuf tb) → BufTy
  | .hbm, ⟨0, _⟩ => ⟨S16384x768, .f32⟩
  | .hbm, ⟨1, _⟩ => ⟨S16384x1000, .f32⟩
  | .hbm, ⟨2, _⟩ => ⟨S16384, .i32⟩
  | .hbm, ⟨3, _⟩ => ⟨S1000x768, .f32⟩
  | .hbm, ⟨4, _⟩ => ⟨S1, .f32⟩
  | .hbm, ⟨5, _⟩ => ⟨S1000x768, .f32⟩
  | .hbm, ⟨6, _⟩ => ⟨S_, .f32⟩
  | .hbm, ⟨7, _⟩ => ⟨S1000, .f32⟩
  | .hbm, ⟨8, _⟩ => ⟨S1000x1, .f32⟩
  | .hbm, ⟨9, _⟩ => ⟨S1000x1, .f32⟩
  | .hbm, ⟨10, _⟩ => ⟨S_, .f32⟩
  | .hbm, ⟨11, _⟩ => ⟨S1000x1, .f32⟩
  | .hbm, ⟨12, _⟩ => ⟨S1000x1, .f32⟩
  | .hbm, ⟨13, _⟩ => ⟨S1000x768, .f32⟩
  | .hbm, ⟨14, _⟩ => ⟨S1000x768, .f32⟩
  | .hbm, ⟨15, _⟩ => ⟨S768x1000, .f32⟩
  | .hbm, ⟨16, _⟩ => ⟨S768x1000, .bf16⟩
  | .hbm, ⟨17, _⟩ => ⟨S16384x1, .i32⟩
  | .hbm, ⟨18, _⟩ => ⟨S1x1, .f32⟩
  | .hbm, ⟨19, _⟩ => ⟨S2x1x128, .f32⟩
  | .hbm, ⟨20, _⟩ => ⟨S1x1x1, .f32⟩
  | .hbm, ⟨21, _⟩ => ⟨S_, .f32⟩
  | .hbm, ⟨22, _⟩ => ⟨S1x1x1, .f32⟩
  | .hbm, ⟨23, _⟩ => ⟨S_, .f32⟩
  | .hbm, ⟨24, _⟩ => ⟨S_, .f32⟩
  | .hbm, ⟨25, _⟩ => ⟨S1, .f32⟩
  | .local _ .vmem, ⟨0, _⟩ => ⟨S512x768, .f32⟩
  | .local _ .vmem, ⟨1, _⟩ => ⟨S512x768, .f32⟩
  | .local _ .vmem, ⟨2, _⟩ => ⟨S512x1000, .f32⟩
  | .local _ .vmem, ⟨3, _⟩ => ⟨S512x1000, .f32⟩
  | .local _ .vmem, ⟨4, _⟩ => ⟨S512x1, .i32⟩
  | .local _ .vmem, ⟨5, _⟩ => ⟨S512x1, .i32⟩
  | .local _ .vmem, ⟨6, _⟩ => ⟨S768x1000, .bf16⟩
  | .local _ .vmem, ⟨7, _⟩ => ⟨S1x1, .f32⟩
  | .local _ .vmem, ⟨8, _⟩ => ⟨S1x1x128, .f32⟩
  | .local _ .vmem, ⟨9, _⟩ => ⟨S1x1x128, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v85 : BitVec 1 := Scalar.cmpi .eq arg1 c15_i32
  let v86 : BitVec 32 := Scalar.extui v85
  let c0_i32_37 : BitVec 32 := 0#32
  let v87 : BitVec 1 := Scalar.cmpi .ne v86 c0_i32_37
  v87

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S1000x768_S1000_d1 : S1000x768.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x768_0_1 : S1000x1.BroadcastsInDim S1000x768 (![0, 1] : Fin 2 → Fin S1000x768.rank)
  transposes_S1000x768_S768x1000_1_0 : S1000x768.Transposes [1, 0] S768x1000
  bitsLt_bf16_f32 : FTy.bits .bf16 < FTy.bits .f32
  shapeCasts_S16384_S16384x1 : S16384.ShapeCasts S16384x1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x768_S512x768_0_0 : ∀ a, (![0, 0] : Fin 2 → Nat) a + S512x768.size a ≤ S512x768.size a
  h_S512x768 : 0 < S512x768.numel
  reduces_S512x768_S512 : S512x768.Reduces [1] S512
  shapeCasts_S512_S512x1 : S512.ShapeCasts S512x1
  broadcasts_S512x1_S512x768 : S512x1.Broadcasts S512x768
  inb_S768x1000_S768x1000_0_0 : ∀ a, (![0, 0] : Fin 2 → Nat) a + S768x1000.size a ≤ S768x1000.size a
  h_S768x1000 : 0 < S768x1000.numel
  shapeCasts_S768x1000_S768x1000 : S768x1000.ShapeCasts S768x1000
  reduces_S512x1000_S512 : S512x1000.Reduces [1] S512
  broadcasts_S512x1_S512x1000 : S512x1.Broadcasts S512x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  natLt_1_32 : 1 < 32
  reduces_S512x1_S1 : S512x1.Reduces [0] S1
  inb_S512x1000_S512x1000_0_0 : ∀ a, (![0, 0] : Fin 2 → Nat) a + S512x1000.size a ≤ S512x1000.size a
  h_S512x1000 : 0 < S512x1000.numel
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  shapeCasts_S_S1 : S_.ShapeCasts S1
  dot_S512x768_S768x1000_S512x1000_1_0_0_1_n_n_wf : DotDims.WF S512x768 S768x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S16384x1000.size a
  hwx0_1 : ∀ i : grid0.Coords, EltTy.bits .f32 = 32 ∨ (Rect.block (s := S16384x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1000.size a ≤ S768x1000.size a
  hwx0_3 : ∀ i : grid0.Coords, EltTy.bits .bf16 = 32 ∨ (Rect.block (s := S768x1000) S768x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def dot_S512x768_S768x1000_S512x1000_1_0_0_1_n_n : DotDims S512x768 S768x1000 S512x1000 where
  lhsContracting := [1]
  rhsContracting := [0]
  lhsNonContracting := [0]
  rhsNonContracting := [1]
  lhsBatch := []
  rhsBatch := []
  wf := dot_S512x768_S768x1000_S512x1000_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S768x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x768 : Shape := ⟨2, ![16384, 768]⟩
abbrev S16384x1000 : Shape := ⟨2, ![16384, 1000]⟩
abbrev S16384 : Shape := ⟨1, ![16384]⟩
abbrev S1000x768 : Shape := ⟨2, ![1000, 768]⟩
abbrev S1 : Shape := ⟨1, ![1]⟩
abbrev S_ : Shape := ⟨0, ![]⟩
abbrev S16384x1 : Shape := ⟨2, ![16384, 1]⟩
abbrev S16384x1x1 : Shape := ⟨3, ![16384, 1, 1]⟩
abbrev S1x1x1 : Shape := ⟨3, ![1, 1, 1]⟩
abbrev S1000 : Shape := ⟨1, ![1000]⟩
abbrev S1000x1 : Shape := ⟨2, ![1000, 1]⟩
abbrev S1x1000 : Shape := ⟨2, ![1, 1000]⟩

abbrev nBuf : Space → Nat
  | .hbm => 110
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x1000, .f32⟩
  | .hbm, ⟨2, _⟩ => ⟨S16384, .i32⟩
  | .hbm, ⟨3, _⟩ => ⟨S1000x768, .f32⟩
  | .hbm, ⟨4, _⟩ => ⟨S1, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1, .f32⟩
  | .hbm, ⟨18, _⟩ => ⟨S16384x1000, .f32⟩
  | .hbm, ⟨19, _⟩ => ⟨S16384x1000, .f32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S1, .i32⟩
  | .hbm, ⟨30, _⟩ => ⟨S_, .i32⟩
  | .hbm, ⟨31, _⟩ => ⟨S16384x1x1, .i32⟩
  | .hbm, ⟨32, _⟩ => ⟨S16384x1x1, .i1⟩
  | .hbm, ⟨33, _⟩ => ⟨S1x1x1, .i32⟩
  | .hbm, ⟨34, _⟩ => ⟨S16384x1x1, .i32⟩
  | .hbm, ⟨35, _⟩ => ⟨S16384x1x1, .i1⟩
  | .hbm, ⟨36, _⟩ => ⟨S16384x1x1, .i1⟩
  | .hbm, ⟨37, _⟩ => ⟨S_, .i1⟩
  | .hbm, ⟨38, _⟩ => ⟨S16384x1, .i1⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384x768, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x768, .f32⟩
  | .hbm, ⟨57, _⟩ => ⟨S16384x768, .f32⟩
  | .hbm, ⟨58, _⟩ => ⟨S1000x768, .f32⟩
  | .hbm, ⟨59, _⟩ => ⟨S_, .f32⟩
  | .hbm, ⟨60, _⟩ => ⟨S1000, .f32⟩
  | .hbm, ⟨61, _⟩ => ⟨S1000x1, .f32⟩
  | .hbm, ⟨62, _⟩ => ⟨S1000x1, .f32⟩
  | .hbm, ⟨63, _⟩ => ⟨S_, .f32⟩
  | .hbm, ⟨64, _⟩ => ⟨S1000x1, .f32⟩
  | .hbm, ⟨65, _⟩ => ⟨S1000x1, .f32⟩
  | .hbm, ⟨66, _⟩ => ⟨S1000x768, .f32⟩
  | .hbm, ⟨67, _⟩ => ⟨S1000x768, .f32⟩
  | .hbm, ⟨68, _⟩ => ⟨S16384x1000, .f32⟩
  | .hbm, ⟨69, _⟩ => ⟨S_, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S16384x1, .f32⟩
  | .hbm, ⟨75, _⟩ => ⟨S16384x1000, .f32⟩
  | .hbm, ⟨76, _⟩ => ⟨S16384x1000, .f32⟩
  | .hbm, ⟨77, _⟩ => ⟨S16384x1000, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1000, .f32⟩
  | .hbm, ⟨82, _⟩ => ⟨S16384x1000, .f32⟩
  | .hbm, ⟨83, _⟩ => ⟨S16384x1, .i32⟩
  | .hbm, ⟨84, _⟩ => ⟨S1x1000, .i32⟩
  | .hbm, ⟨85, _⟩ => ⟨S16384x1000, .i32⟩
  | .hbm, ⟨86, _⟩ => ⟨S16384x1000, .i32⟩
  | .hbm, ⟨87, _⟩ => ⟨S16384x1000, .i1⟩
  | .hbm, ⟨88, _⟩ => ⟨S16384x1000, .f32⟩
  | .hbm, ⟨89, _⟩ => ⟨S16384x1000, .f32⟩
  | .hbm, ⟨90, _⟩ => ⟨S_, .f32⟩
  | .hbm, ⟨91, _⟩ => ⟨S16384, .f32⟩
  | .hbm, ⟨92, _⟩ => ⟨S_, .f32⟩
  | .hbm, ⟨93, _⟩ => ⟨S16384, .f32⟩
  | .hbm, ⟨94, _⟩ => ⟨S16384, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1, .f32⟩
  | .hbm, ⟨100, _⟩ => ⟨S1, .f32⟩
  | .hbm, ⟨101, _⟩ => ⟨S16384x1000, .f32⟩
  | .hbm, ⟨102, _⟩ => ⟨S16384x1000, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S1, .f32⟩
  | .hbm, ⟨109, _⟩ => ⟨S1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_call2_v0 : Ref sig .tc := ⟨.hbm, 48, rfl⟩
abbrev main_call2_cst : Ref sig .tc := ⟨.hbm, 49, rfl⟩
abbrev main_call2_v1 : Ref sig .tc := ⟨.hbm, 50, rfl⟩
abbrev main_call2_v2 : Ref sig .tc := ⟨.hbm, 51, rfl⟩
abbrev main_v6 : Ref sig .tc := ⟨.hbm, 52, rfl⟩
abbrev main_cst_1 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_call3_v0 : Ref sig .tc := ⟨.hbm, 58, rfl⟩
abbrev main_call3_cst : Ref sig .tc := ⟨.hbm, 59, rfl⟩
abbrev main_call3_v1 : Ref sig .tc := ⟨.hbm, 60, rfl⟩
abbrev main_call3_v2 : Ref sig .tc := ⟨.hbm, 61, rfl⟩
abbrev main_v11 : Ref sig .tc := ⟨.hbm, 62, rfl⟩
abbrev main_cst_2 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_3 : Ref sig .tc := ⟨.hbm, 69, rfl⟩
abbrev main_v17 : Ref sig .tc := ⟨.hbm, 70, rfl⟩
abbrev main_cst_4 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst_5 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v28 : Ref sig .tc := ⟨.hbm, 88, rfl⟩
abbrev main_v29 : Ref sig .tc := ⟨.hbm, 89, rfl⟩
abbrev main_cst_6 : Ref sig .tc := ⟨.hbm, 90, rfl⟩
abbrev main_v30 : Ref sig .tc := ⟨.hbm, 91, rfl⟩
abbrev main_cst_7 : Ref sig .tc := ⟨.hbm, 92, rfl⟩
abbrev main_v31 : Ref sig .tc := ⟨.hbm, 93, rfl⟩
abbrev main_v32 : Ref sig .tc := ⟨.hbm, 94, rfl⟩
abbrev main_cst_8 : Ref sig .tc := ⟨.hbm, 95, rfl⟩
abbrev main_v33 : Ref sig .tc := ⟨.hbm, 96, rfl⟩
abbrev main_cst_9 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_cst_10 : Ref sig .tc := ⟨.hbm, 103, rfl⟩
abbrev main_v39 : Ref sig .tc := ⟨.hbm, 104, rfl⟩
abbrev main_cst_11 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  reducesTo_S16384x768_S16384_d1 : S16384x768.ReducesTo [1] S16384
  bcast_S16384x1_S16384x768_0_1 : S16384x1.BroadcastsInDim S16384x768 (![0, 1] : Fin 2 → Fin S16384x768.rank)
  reducesTo_S1000x768_S1000_d1 : S1000x768.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x768_0_1 : S1000x1.BroadcastsInDim S1000x768 (![0, 1] : Fin 2 → Fin S1000x768.rank)
  bcast_S1x1000_S16384x1000_0_1 : S1x1000.BroadcastsInDim S16384x1000 (![0, 1] : Fin 2 → Fin S16384x1000.rank)
  reducesTo_S16384_S_d0 : S16384.ReducesTo [0] S_
  bcast_S_S1 : S_.BroadcastsInDim S1 (![] : Fin 0 → Fin S1.rank)
  reducesTo_S16384x1000_S_d0_1 : S16384x1000.ReducesTo [0, 1] S_
  gather_S16384x1000_S16384x1x1_S16384x1_n_1_0_0_1_2_11_wf : GatherDims.WF S16384x1000 S16384x1x1 S16384x1 [] [1] [0] [1] [0] 2 ![1, 1]
  dot_S16384x768_S1000x768_S16384x1000_1_1_0_0_n_n_wf : DotDims.WF S16384x768 S1000x768 S16384x1000 [1] [1] [0] [0] [] []

variable [Facts₀]

def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf
def dot_S16384x768_S1000x768_S16384x1000_1_1_0_0_n_n : DotDims S16384x768 S1000x768 S16384x1000 where
  lhsContracting := [1]
  rhsContracting := [1]
  lhsNonContracting := [0]
  rhsNonContracting := [0]
  lhsBatch := []
  rhsBatch := []
  wf := dot_S16384x768_S1000x768_S16384x1000_1_1_0_0_n_n_wf

class Facts : Prop extends Facts₀ where

variable [Facts]
-- ==== Proof.Spec.lean ====
/-
  The loss both programs compute, written once over the extended reals, row by row.

  For a batch of N = 16384 rows: an embedding row x ∈ ℝ^768, a logit row g ∈ ℝ^1000 and a class label t; and a
  table of 1000 centroid rows. A row divided by max(its Euclidean norm, ε) is `unit`. The similarity row of a
  sample is f c = ⟨unit x, unit (centroid c)⟩; its softmax weights are exp (f c − max f) / Σ exp (f − max f).

  The loss is  mean_n (−log_softmax(g_n)[t_n])  +  mean_{n,c} (onehot(t_n) − softmax(f_n))²_c
             +  mean_n (1 − softmax(f_n)[t_n]) · u.

  Two spellings of each row's contribution are defined here. The `k…` ones keep the softmax's normaliser apart
  (a reciprocal 1/s, multiplied in after the sums over the classes) and use Σ_c onehot² = 1 in the squared
  distance; the `r…` ones divide each weight by s first. `kernelTotal` adds the rows in 2 × 16 blocks of 512
  and normalises each half by the whole batch's size; `refTotal` sums over the whole batch at once.
-/
import Idealize.ShloMosaic.PureOps.Ideal
import Idealize.ShloMosaic.Lib.ValueIdx

noncomputable section

namespace Cert.Loss

open Idealize.ShloMosaic

/-- The norm floor ε (the f32 nearest 1e-8), as both programs print it. -/
def eps : EReal := Ideal.ofBits .f32 0x322BCC77#32
/-- −∞, the value a running maximum starts from. -/
def negInf : EReal := Ideal.ofBits .f32 0xFF800000#32
def one : EReal := Ideal.ofBits .f32 0x3F800000#32
def two : EReal := Ideal.ofBits .f32 0x40000000#32
/-- The batch size 16384 and the number of (row, class) pairs 16384000, as floats. -/
def cN : EReal := Ideal.ofBits .f32 0x46800000#32
def cNC : EReal := Ideal.ofBits .f32 0x4B7A0000#32

/-- A row divided by the larger of its Euclidean norm and ε. -/
def unit (x : Fin 768 → EReal) (d : Fin 768) : EReal :=
  Ideal.div (x d) (max (Ideal.sqrt (∑ k, x k * x k)) eps)

/-- The similarity of a row `x` with each column of a matrix `W` of already normalised centroids. -/
def simW (x : Fin 768 → EReal) (W : Fin 768 → Fin 1000 → EReal) (c : Fin 1000) : EReal :=
  ∑ d, unit x d * W d c

/-- Row `n`'s cosine similarities with the 1000 centroids. -/
def rowSim (E : Fin 16384 → Fin 768 → EReal) (Cn : Fin 1000 → Fin 768 → EReal) (n : Fin 16384) : Fin 1000 → EReal :=
  simW (E n) (fun d c => unit (Cn c) d)

/-- The maximum of a row, as a fold from −∞. -/
def rowmax (f : Fin 1000 → EReal) : EReal := (Finset.univ : Finset (Fin 1000)).fold max negInf f

/-- exp (f c − max f): the unnormalised softmax weight. -/
def ex (f : Fin 1000 → EReal) (c : Fin 1000) : EReal := Ideal.exp (f c - rowmax f)

/-- The one-hot row of a label word: 1 at the class whose number is the word, 0 elsewhere. -/
def hot (t : BitVec 32) (c : Fin 1000) : EReal := if t = BitVec.ofNat 32 c.val then 1 else 0

/-- The class a label word selects when it is read as an index into 1000 classes (clamped into range). -/
def tgtIx (t : BitVec 32) : Fin 1000 := ⟨min t.toInt.toNat 999, by omega⟩

/-! ### A row's contributions, the normaliser kept apart -/

/-- 1 / Σ_c exp (f c − max f). -/
def kInv (f : Fin 1000 → EReal) : EReal := Ideal.div one (∑ c, ex f c)
/-- The softmax weight of the labelled class: (Σ_c e_c · onehot_c) · (1/s). -/
def kStt (f : Fin 1000 → EReal) (t : BitVec 32) : EReal := (∑ c, ex f c * hot t c) * kInv f
def kDisc (f : Fin 1000 → EReal) (t : BitVec 32) : EReal := one - kStt f t
/-- 1 − 2·p_t + Σ_c e_c² · (1/s)²: the squared distance of the softmax row from the one-hot row. -/
def kDist (f : Fin 1000 → EReal) (t : BitVec 32) : EReal :=
  (one - two * kStt f t) + (∑ c, ex f c * ex f c) * (kInv f * kInv f)
/-- −(g_t − logsumexp g). -/
def kCe (g : Fin 1000 → EReal) (t : BitVec 32) : EReal :=
  0 - ((∑ c, g c * hot t c) - (rowmax g + Ideal.log (∑ c, ex g c)))

/-! ### The same, each weight divided by the normaliser first -/

def soft (f : Fin 1000 → EReal) (c : Fin 1000) : EReal := Ideal.div (ex f c) (∑ c', ex f c')
def rDisc (f : Fin 1000 → EReal) (t : BitVec 32) : EReal := one - ∑ c, soft f c * hot t c
def rSq (f : Fin 1000 → EReal) (t : BitVec 32) (c : Fin 1000) : EReal := (hot t c - soft f c) * (hot t c - soft f c)
def logp (g : Fin 1000 → EReal) (c : Fin 1000) : EReal := (g c - rowmax g) - Ideal.log (∑ c', ex g c')

/-! ### The totals -/

/-- Row `j` of block `t` (32 blocks of 512 rows). -/
def rowIx (t : Fin 32) (j : Fin 512) : Fin 16384 := ⟨512 * t.val + j.val, by omega⟩
/-- Block `i` of half `c` (2 halves of 16 blocks). -/
def ptIx (c : Fin 2) (i : Fin 16) : Fin 32 := ⟨16 * c.val + i.val, by omega⟩

/-- The sum of a per-row quantity over the 16 × 512 rows of half `c`, block by block. -/
def coreSum (r : Fin 16384 → EReal) (c : Fin 2) : EReal := ∑ i : Fin 16, ∑ j : Fin 512, r (rowIx (ptIx c i) j)

/-- Half `c`'s share of the loss, already normalised by the whole batch's size. -/
def corePart (E : Fin 16384 → Fin 768 → EReal) (Lg : Fin 16384 → Fin 1000 → EReal) (tg : Fin 16384 → BitVec 32)
    (Cn : Fin 1000 → Fin 768 → EReal) (u : EReal) (c : Fin 2) : EReal :=
  (Ideal.div (coreSum (fun n => kCe (Lg n) (tg n)) c) cN
    + Ideal.div (coreSum (fun n => kDist (rowSim E Cn n) (tg n)) c) cNC)
  + Ideal.div (coreSum (fun n => kDisc (rowSim E Cn n) (tg n)) c) cN * u

/-- The two halves' shares added. -/
def kernelTotal (E : Fin 16384 → Fin 768 → EReal) (Lg : Fin 16384 → Fin 1000 → EReal) (tg : Fin 16384 → BitVec 32)
    (Cn : Fin 1000 → Fin 768 → EReal) (u : EReal) : EReal :=
  corePart E Lg tg Cn u 0 + corePart E Lg tg Cn u 1

/-- The loss summed over the whole batch at once. -/
def refTotal (E : Fin 16384 → Fin 768 → EReal) (Lg : Fin 16384 → Fin 1000 → EReal) (tg : Fin 16384 → BitVec 32)
    (Cn : Fin 1000 → Fin 768 → EReal) (u : EReal) : EReal :=
  (-(Ideal.div (∑ n, logp (Lg n) (tgtIx (tg n))) cN)
    + Ideal.div (∑ n, ∑ c, rSq (rowSim E Cn n) (tg n) c) cNC)
  + Ideal.div (∑ n, rDisc (rowSim E Cn n) (tg n)) cN * u

/-- Every entry is a real number (neither infinity). -/
def IsReal (x : EReal) : Prop := ∃ r : ℝ, x = (r : EReal)

/-- A label word is the number of one of the 1000 classes. -/
def InRange (t : BitVec 32) : Prop := ∃ k : Fin 1000, t = BitVec.ofNat 32 k.val

end Cert.Loss

end
-- ==== Proof.KBlocks.lean ====
/-
  The argument arrays as plain functions of (row, column), and what the kernel's five input windows hold at grid
  point t: rows 512·t … 512·t + 511 of the embeddings, of the logits and of the labels (a column), and — the same at
  every point — the centroid table normalised row by row and transposed, and the scalar u.
-/
import proofs.«429917_j84688165142889_2_alg».proof.Proof.Gen.KernelIdeal.Frame
import proofs.«429917_j84688165142889_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Vals

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The embeddings, the logits, the labels, the centroids and u, read off the memory at launch. -/
def Emb (c : Dev nD) : Fin 16384 → Fin 768 → EReal := fun n d => (m ((c.tc : Thread nD τ).loc main_arg0) : Vec Ideal S16384x768 .f32) (ix2 n d)
def Lgt (c : Dev nD) : Fin 16384 → Fin 1000 → EReal := fun n k => (m ((c.tc : Thread nD τ).loc main_arg1) : Vec Ideal S16384x1000 .f32) (ix2 n k)
def Tgt (c : Dev nD) : Fin 16384 → BitVec 32 := fun n => (m ((c.tc : Thread nD τ).loc main_arg2) : Vec Ideal S16384 .i32) (ix1 n)
def Cen (c : Dev nD) : Fin 1000 → Fin 768 → EReal := fun k d => (m ((c.tc : Thread nD τ).loc main_arg3) : Vec Ideal S1000x768 .f32) (ix2 k d)
def Uu (c : Dev nD) : EReal := (m ((c.tc : Thread nD τ).loc main_arg4) : Vec Ideal S1 .f32) (ix1 0)

/-- A grid point as a number below 32. -/
def pt (t : Fin cfg0.N) : Fin 32 := Fin.cast (N_0 : cfg0.N = 32) t

/-! ## Where each window's block sits: the block index maps, decided once over the 2 × 16 grid -/

/-- Windows 0, 1 and 2 read row block `t` (= 16 · half + step) and the only column block. -/
theorem win0_idx : ∀ t : Fin cfg0.N, win0_0.index t 0 = t.val ∧ win0_0.index t 1 = 0 :=
  (by decide +kernel : ∀ t : Fin grid0.N, win0_0.index t 0 = t.val ∧ win0_0.index t 1 = 0)
theorem win1_idx : ∀ t : Fin cfg0.N, win0_1.index t 0 = t.val ∧ win0_1.index t 1 = 0 :=
  (by decide +kernel : ∀ t : Fin grid0.N, win0_1.index t 0 = t.val ∧ win0_1.index t 1 = 0)
theorem win2_idx : ∀ t : Fin cfg0.N, win0_2.index t 0 = t.val ∧ win0_2.index t 1 = 0 :=
  (by decide +kernel : ∀ t : Fin grid0.N, win0_2.index t 0 = t.val ∧ win0_2.index t 1 = 0)

/-! ## The embeddings and the logits: rows 512·t + r of the argument arrays -/

theorem iblk0_apply (c : Dev nD) (t : Fin cfg0.N) (r : Fin 512) (d : Fin 768) :
    (iblk m c 0 t : Vec Ideal S512x768 .f32) (ix2 r d) = Emb m c (Loss.rowIx (pt t) r) d := by
  have hi := win0_idx t
  unfold iblk
  rw [View.read_apply]
  show V m c main_arg0 _ = _
  rw [V_main_arg0]
  unfold Emb
  refine congrArg (m ((c.tc : Thread nD τ).loc main_arg0) : Vec Ideal S16384x768 .f32) (funext fun a => Fin.ext ?_)
  match a with
  | ⟨0, _⟩ =>
    show win0_0.index t 0 * 512 + 1 * r.val = 512 * t.val + r.val
    rw [hi.1]; omega
  | ⟨1, _⟩ =>
    show win0_0.index t 1 * 768 + 1 * d.val = d.val
    rw [hi.2]; omega

theorem iblk1_apply (c : Dev nD) (t : Fin cfg0.N) (r : Fin 512) (k : Fin 1000) :
    (iblk m c 1 t : Vec Ideal S512x1000 .f32) (ix2 r k) = Lgt m c (Loss.rowIx (pt t) r) k := by
  have hi := win1_idx t
  unfold iblk
  rw [View.read_apply]
  show V m c main_arg1 _ = _
  rw [V_main_arg1]
  unfold Lgt
  refine congrArg (m ((c.tc : Thread nD τ).loc main_arg1) : Vec Ideal S16384x1000 .f32) (funext fun a => Fin.ext ?_)
  match a with
  | ⟨0, _⟩ =>
    show win0_1.index t 0 * 512 + 1 * r.val = 512 * t.val + r.val
    rw [hi.1]; omega
  | ⟨1, _⟩ =>
    show win0_1.index t 1 * 1000 + 1 * k.val = k.val
    rw [hi.2]; omega

/-! ## The labels and u: the arguments viewed with a unit axis added -/

/-- A vector viewed as a one-column matrix reads, at row `i`, its entry `i`. -/
theorem col_apply {n : Nat} {α : Type} (x : (⟨1, ![n]⟩ : Shape).Idx → α) (h : (⟨1, ![n]⟩ : Shape).ShapeCasts ⟨2, ![n, 1]⟩)
    (j : (⟨2, ![n, 1]⟩ : Shape).Idx) (i : Fin n) (hi : i.val = (j 0).val) : shapeCast ⟨2, ![n, 1]⟩ x h j = x (ix1 i) :=
  shapeCast_apply x h j (ix1 i) (by
    have h1 := idx2_lt1 j
    rw [Shape.rowMajor_val_two, Shape.rowMajor_val_one]
    show i.val = (j 0).val * 1 + (j 1).val
    omega)

/-- The label column the region finds is the label vector reshaped [16384] → [16384, 1]. -/
theorem entry_v10 (c : Dev nD) : (V m c main_v10 : Vec Ideal S16384x1 .i32)
    = shapeCast S16384x1 (m ((c.tc : Thread nD τ).loc main_arg2) : Vec Ideal S16384 .i32) shapeCasts_S16384_S16384x1 := by
  show StableHlo.after hostOps0 (fun b => m (c, b)) (Proc.devRef .tc main_v10) = _
  after_results
  rfl

/-- The 1 × 1 array the region finds is u reshaped [1] → [1, 1]. -/
theorem entry_v11 (c : Dev nD) : (V m c main_v11 : Vec Ideal S1x1 .f32)
    = shapeCast S1x1 (m ((c.tc : Thread nD τ).loc main_arg4) : Vec Ideal S1 .f32) shapeCasts_S1_S1x1 := by
  show StableHlo.after hostOps0 (fun b => m (c, b)) (Proc.devRef .tc main_v11) = _
  after_results
  rfl

theorem iblk2_apply (c : Dev nD) (t : Fin cfg0.N) (r : Fin 512) :
    (iblk m c 2 t : Vec Ideal S512x1 .i32) (ix2 r 0) = Tgt m c (Loss.rowIx (pt t) r) := by
  have hi := win2_idx t
  unfold iblk
  rw [View.read_apply]
  show (V m c main_v10 : Vec Ideal S16384x1 .i32) _ = _
  rw [entry_v10]
  unfold Tgt
  refine col_apply (m ((c.tc : Thread nD τ).loc main_arg2) : Vec Ideal S16384 .i32) shapeCasts_S16384_S16384x1 _ _ ?_
  show 512 * t.val + r.val = win0_2.index t 0 * 512 + 1 * r.val
  rw [hi.1]; omega

theorem iblk4_apply (c : Dev nD) (t : Fin cfg0.N) :
    (iblk m c 4 t : Vec Ideal S1x1 .f32) (ix2 0 0) = Uu m c := by
  unfold iblk
  rw [View.read_apply]
  show (V m c main_v11 : Vec Ideal S1x1 .f32) _ = _
  rw [entry_v11]
  unfold Uu
  refine col_apply (m ((c.tc : Thread nD τ).loc main_arg4) : Vec Ideal S1 .f32) shapeCasts_S1_S1x1 _ _ ?_
  show 0 = win0_4.index t 0 * 1 + 1 * 0
  have h0 : win0_4.index t 0 = 0 := rfl
  rw [h0]

/-! ## The centroid table: each row divided by max(‖row‖, ε), then transposed -/

/-- The operations applied to the centroid table `A` before the region: x·x, the row sums from +0.0, their square
    roots, the maximum with ε, the division of each row by it, the transpose, and the narrowing of the element type
    (the identity on extended reals). -/
def cenT (A : Vec Ideal S1000x768 .f32) : Vec Ideal S768x1000 .bf16 :=
  truncf .bf16 (transpose S768x1000 [1, 0]
    (Host.divf A (broadcastInDim S1000x768 ![0, 1] bcast_S1000x1_S1000x768_0_1
      (maximumf (Host.sqrt (broadcastInDim S1000x1 ![0] bcast_S1000_S1000x1_0
          (Host.reduceAdd (mulf A A) (constant (F := Ideal) S_ .f32 0x00000000#32) reducesTo_S1000x768_S1000_d1 h_S_)))
        (broadcastInDim S1000x1 ![] bcast_S_S1000x1 (constant (F := Ideal) S_ .f32 0x322BCC77#32)))))
    transposes_S1000x768_S768x1000_1_0) bitsLt_bf16_f32

/-- The 768 × 1000 array the region finds is that chain applied to the centroid argument. -/
theorem entry_v9 (c : Dev nD) : (V m c main_v9 : Vec Ideal S768x1000 .bf16)
    = cenT (m ((c.tc : Thread nD τ).loc main_arg3) : Vec Ideal S1000x768 .f32) := by
  show StableHlo.after hostOps0 (fun b => m (c, b)) (Proc.devRef .tc main_v9) = _
  after_results
  rfl

/-- The row sum of a 1000 × 768 table started from +0.0, read at row `k`: the sum over the row. -/
theorem rowsum_apply (Y : FVec Ideal S1000x768 .f32) (k : Fin 1000) :
    Host.reduceAdd Y (constant (F := Ideal) S_ .f32 0x00000000#32) reducesTo_S1000x768_S1000_d1 h_S_ (ix1 k)
      = ∑ j : Fin 768, Y (ix2 k j) := by
  simp only [Host.reduceAdd, Ideal.hostReduceAdd_def]
  rw [Ideal.hostReduceAdd_single reducesTo_S1000x768_S1000_d1 (by decide)]
  show Ideal.ofBits .f32 0x00000000#32 + _ = _
  rw [Ideal.ofBits_zero_f32, zero_add]
  refine Finset.sum_congr rfl fun j _ => ?_
  exact congrArg Y (funext fun a => Fin.ext (by match a with | ⟨0, _⟩ => rfl | ⟨1, _⟩ => rfl))

/-- Entry (d, k) of the chain's result: A[k, d] / max(√(Σ_j A[k, j]²), ε). -/
theorem cenT_apply (A : Vec Ideal S1000x768 .f32) (d : Fin 768) (k : Fin 1000) :
    cenT A (ix2 d k) = Ideal.div (A (ix2 k d)) (max (Ideal.sqrt (∑ j : Fin 768, A (ix2 k j) * A (ix2 k j))) Loss.eps) := by
  unfold cenT
  refine (truncf_apply _ bitsLt_bf16_f32 _).trans ?_
  refine (transpose_ix2_apply _ transposes_S1000x768_S768x1000_1_0 d k).trans ?_
  refine congrArg (Ideal.div (A (ix2 k d))) ?_
  refine (broadcastInDim_apply _ bcast_S1000x1_S1000x768_0_1 _ (ix2 k d) (ix2 k (0 : Fin 1)) (fun a => match a with
    | ⟨0, _⟩ => by show k.val = if (1000 : Nat) = 1 then 0 else k.val; rw [if_neg (by decide)]
    | ⟨1, _⟩ => by show 0 = if (1 : Nat) = 1 then 0 else d.val; rw [if_pos rfl])).trans ?_
  refine congrArg₂ max (congrArg Ideal.sqrt ?_) ?_
  · refine (broadcastInDim_apply _ bcast_S1000_S1000x1_0 _ (ix2 k (0 : Fin 1)) (ix1 k) (fun a => match a with
      | ⟨0, _⟩ => by show k.val = if (1000 : Nat) = 1 then 0 else k.val; rw [if_neg (by decide)])).trans ?_
    exact rowsum_apply (mulf A A) k
  · exact broadcastInDim_apply _ bcast_S_S1000x1 _ (ix2 k (0 : Fin 1)) ix0 (fun a => a.elim0)

theorem iblk3_apply (c : Dev nD) (t : Fin cfg0.N) (d : Fin 768) (k : Fin 1000) :
    (iblk m c 3 t : Vec Ideal S768x1000 .bf16) (ix2 d k) = Loss.unit (Cen m c k) d := by
  unfold iblk
  rw [View.read_apply]
  show (V m c main_v9 : Vec Ideal S768x1000 .bf16) _ = _
  rw [entry_v9]
  refine (congrArg (cenT (m ((c.tc : Thread nD τ).loc main_arg3) : Vec Ideal S1000x768 .f32))
    (funext fun a => Fin.ext ?_ : _ = ix2 d k)).trans ?_
  · have h0 : win0_3.index t 0 = 0 := rfl
    have h1 : win0_3.index t 1 = 0 := rfl
    match a with
    | ⟨0, _⟩ =>
      show win0_3.index t 0 * 768 + 1 * d.val = d.val
      rw [h0]; omega
    | ⟨1, _⟩ =>
      show win0_3.index t 1 * 1000 + 1 * k.val = k.val
      rw [h1]; omega
  · rw [cenT_apply]
    rfl

end Cert.KernelIdeal.Vals

end
-- ==== Proof.KPieces.lean ====
/-
  What each control case of the kernel body leaves in its three running sums and, at a half's last block, in
  its output block, as the body's own arithmetic: the cross-entropy sum (first scratch), the squared-distance sum
  (second) and the discount sum (third) each become "previous + this block's sum", the previous being zero at a
  half's first block; the output block is the three sums normalised and combined, broadcast over its 128 lanes.
-/
import proofs.«429917_j84688165142889_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The origin of a rank-2 block, as the constant-zero offset. -/
theorem hz : (![0, 0] : Fin 2 → Nat) = fun _ => 0 := funext fun a => by fin_cases a <;> rfl

/-- The origin of a rank-3 block, as the constant-zero offset. -/
theorem hz3 : (![0, 0, 0] : Fin 3 → Nat) = fun _ => 0 := funext fun a => by fin_cases a <;> rfl

/-- First block of a half: the cross-entropy sum restarts from zero. -/
theorem sA0 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S512x768 .f32) (x1 : Vec F S512x1000 .f32) (x2 : Vec F S512x1 .i32) (x3 : Vec F S768x1000 .bf16) (x4 : Vec F S1x1 .f32) :
    sout0_A_0 c i arg2 harg2 arg3 harg3 arg4 harg4 arg5 harg5 arg6 harg6 arg7 harg7 arg8 harg8 arg9 harg9 arg10 harg10 hc0 hc1 x0 x1 x2 x3 x4 = k0_pay11 (k0_pay8 x2) x1 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg3.read_unread, harg4.read_unread,
    View.ld_unit_zero (S := S512x1000) hz, View.ld_unit_zero (S := S512x1) hz,
    shapeCast_self]

theorem sA1 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S512x768 .f32) (x1 : Vec F S512x1000 .f32) (x2 : Vec F S512x1 .i32) (x3 : Vec F S768x1000 .bf16) (x4 : Vec F S1x1 .f32) :
    sout0_A_1 c i arg2 harg2 arg3 harg3 arg4 harg4 arg5 harg5 arg6 harg6 arg7 harg7 arg8 harg8 arg9 harg9 arg10 harg10 hc0 hc1 x0 x1 x2 x3 x4 = k0_pay12 (k0_pay6 x0 x3) (k0_pay7 x0 x3) (k0_pay9 x0 x3 x2) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg2.read_unread, harg4.read_unread, harg5.read_unread,
    View.ld_unit_zero (S := S512x768) hz, View.ld_unit_zero (S := S512x1) hz, View.ld_unit_zero (S := S768x1000) hz,
    shapeCast_self]

theorem sA2 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S512x768 .f32) (x1 : Vec F S512x1000 .f32) (x2 : Vec F S512x1 .i32) (x3 : Vec F S768x1000 .bf16) (x4 : Vec F S1x1 .f32) :
    sout0_A_2 c i arg2 harg2 arg3 harg3 arg4 harg4 arg5 harg5 arg6 harg6 arg7 harg7 arg8 harg8 arg9 harg9 arg10 harg10 hc0 hc1 x0 x1 x2 x3 x4 = k0_pay1 (k0_pay10 x0 x3 x2) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg2.read_unread, harg4.read_unread, harg5.read_unread,
    View.ld_unit_zero (S := S512x768) hz, View.ld_unit_zero (S := S512x1) hz, View.ld_unit_zero (S := S768x1000) hz,
    shapeCast_self]

/-- A middle block: each sum grows by the block's. -/
theorem sB0 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S512x768 .f32) (x1 : Vec F S512x1000 .f32) (x2 : Vec F S512x1 .i32) (x3 : Vec F S768x1000 .bf16) (x4 : Vec F S1x1 .f32) (xs0 : Vec F S1x1 .f32) (xs1 : Vec F S1x1 .f32) (xs2 : Vec F S1x1 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay11 (k0_pay8 x2) x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg3.read_unread, harg4.read_unread, harg8.read_unread,
    View.ld_unit_zero (S := S512x1000) hz, View.ld_unit_zero (S := S512x1) hz, View.ld_unit_zero (S := S1x1) hz,
    shapeCast_self]

theorem sB1 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S512x768 .f32) (x1 : Vec F S512x1000 .f32) (x2 : Vec F S512x1 .i32) (x3 : Vec F S768x1000 .bf16) (x4 : Vec F S1x1 .f32) (xs0 : Vec F S1x1 .f32) (xs1 : Vec F S1x1 .f32) (xs2 : Vec F S1x1 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay12 (k0_pay6 x0 x3) (k0_pay7 x0 x3) (k0_pay9 x0 x3 x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg4.read_unread, harg5.read_unread, harg9.read_unread,
    View.ld_unit_zero (S := S512x768) hz, View.ld_unit_zero (S := S512x1) hz, View.ld_unit_zero (S := S768x1000) hz, View.ld_unit_zero (S := S1x1) hz,
    shapeCast_self]

theorem sB2 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S512x768 .f32) (x1 : Vec F S512x1000 .f32) (x2 : Vec F S512x1 .i32) (x3 : Vec F S768x1000 .bf16) (x4 : Vec F S1x1 .f32) (xs0 : Vec F S1x1 .f32) (xs1 : Vec F S1x1 .f32) (xs2 : Vec F S1x1 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay10 x0 x3 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg4.read_unread, harg5.read_unread, harg10.read_unread,
    View.ld_unit_zero (S := S512x768) hz, View.ld_unit_zero (S := S512x1) hz, View.ld_unit_zero (S := S768x1000) hz, View.ld_unit_zero (S := S1x1) hz,
    shapeCast_self]

/-- A half's last block: the sums grow as in the middle, and the output block is written from them. -/
theorem sC0 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S512x768 .f32) (x1 : Vec F S512x1000 .f32) (x2 : Vec F S512x1 .i32) (x3 : Vec F S768x1000 .bf16) (x4 : Vec F S1x1 .f32) (xs0 : Vec F S1x1 .f32) (xs1 : Vec F S1x1 .f32) (xs2 : Vec F S1x1 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay11 (k0_pay8 x2) x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg3.read_unread, harg4.read_unread, harg8.read_unread,
    View.ld_unit_zero (S := S512x1000) hz, View.ld_unit_zero (S := S512x1) hz, View.ld_unit_zero (S := S1x1) hz,
    shapeCast_self]

theorem sC1 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S512x768 .f32) (x1 : Vec F S512x1000 .f32) (x2 : Vec F S512x1 .i32) (x3 : Vec F S768x1000 .bf16) (x4 : Vec F S1x1 .f32) (xs0 : Vec F S1x1 .f32) (xs1 : Vec F S1x1 .f32) (xs2 : Vec F S1x1 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay12 (k0_pay6 x0 x3) (k0_pay7 x0 x3) (k0_pay9 x0 x3 x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg4.read_unread, harg5.read_unread, harg9.read_unread,
    View.ld_unit_zero (S := S512x768) hz, View.ld_unit_zero (S := S512x1) hz, View.ld_unit_zero (S := S768x1000) hz, View.ld_unit_zero (S := S1x1) hz,
    shapeCast_self]

theorem sC2 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S512x768 .f32) (x1 : Vec F S512x1000 .f32) (x2 : Vec F S512x1 .i32) (x3 : Vec F S768x1000 .bf16) (x4 : Vec F S1x1 .f32) (xs0 : Vec F S1x1 .f32) (xs1 : Vec F S1x1 .f32) (xs2 : Vec F S1x1 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay10 x0 x3 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg4.read_unread, harg5.read_unread, harg10.read_unread,
    View.ld_unit_zero (S := S512x768) hz, View.ld_unit_zero (S := S512x1) hz, View.ld_unit_zero (S := S768x1000) hz, View.ld_unit_zero (S := S1x1) hz,
    shapeCast_self]

theorem oC5 (c : Dev nD) (i : grid0.Coords) (arg2 : Memref sig .tc .vmem S512x768 .f32) (harg2 : arg2.IsWhole) (arg3 : Memref sig .tc .vmem S512x1000 .f32) (harg3 : arg3.IsWhole) (arg4 : Memref sig .tc .vmem S512x1 .i32) (harg4 : arg4.IsWhole) (arg5 : Memref sig .tc .vmem S768x1000 .bf16) (harg5 : arg5.IsWhole) (arg6 : Memref sig .tc .vmem S1x1 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S512x768 .f32) (x1 : Vec F S512x1000 .f32) (x2 : Vec F S512x1 .i32) (x3 : Vec F S768x1000 .bf16) (x4 : Vec F S1x1 .f32) (xs0 : Vec F S1x1 .f32) (xs1 : Vec F S1x1 .f32) (xs2 : Vec F S1x1 .f32) :
    out0_C_5 c i arg2 harg2 arg3 harg3 arg4 harg4 arg5 harg5 arg6 harg6 arg7 harg7 arg8 harg8 arg9 harg9 arg10 harg10 hc0 hc1 x0 x1 x2 x3 x4 xs0 xs1 xs2
      = k0_pay2 (k0_pay11 (k0_pay8 x2) x1 xs0) (k0_pay12 (k0_pay6 x0 x3) (k0_pay7 x0 x3) (k0_pay9 x0 x3 x2) xs1) (k0_pay1 (k0_pay10 x0 x3 x2) xs2) x4 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg8.read_unread, harg9.read_unread, harg10.read_unread,
    View.ld_unit_zero (S := S512x768) hz, View.ld_unit_zero (S := S512x1000) hz, View.ld_unit_zero (S := S512x1) hz, View.ld_unit_zero (S := S768x1000) hz, View.ld_unit_zero (S := S1x1) hz,
    View.readCov_unit_zero (S := S1x1) _ hz, shapeCast_self]

end Cert.KernelIdeal.Pieces

end
-- ==== Proof.KPay.lean ====
/-
  The kernel body's arithmetic at the exact values, read at an index: each block's three partial sums are sums over
  the block's 512 rows of the row quantities of the specification, and the output block is the normalised
  combination of the three running sums.
-/
import proofs.«429917_j84688165142889_2_alg».proof.Proof.Gen.KernelIdeal.Skeleton
import proofs.«429917_j84688165142889_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.TcCoe Idealize.SL.Sem Idealize.ShloMosaic.ValueIdx
open Cert.KernelIdeal Cert.KernelIdeal.Gen

/-! ### Pointwise functions at an index -/

section Pointwise
variable {s : Shape} {φ : FTy}

theorem exp_apply (a : FVec Ideal s φ) (i : s.Idx) : exp a i = Ideal.exp (a i) := rfl
theorem log_apply (a : FVec Ideal s φ) (i : s.Idx) : log a i = Ideal.log (a i) := rfl
theorem sqrt_apply (a : FVec Ideal s φ) (i : s.Idx) : sqrt a i = Ideal.sqrt (a i) := rfl
theorem cmpi_apply {w : Nat} (p : CmpIPredicate) (a b : IVec s w) (i : s.Idx) : cmpi p a b i = IntOp.cmpi p (a i) (b i) := rfl

end Pointwise

/-! ### Columns, lanes and the sums along them -/

section Layout
variable {α : Type}

/-- A [512] vector cast to a [512,1] column reads, at (r, u), the vector at r. -/
theorem col512_apply (v : S512.Idx → α) (r : Fin 512) (u : Fin 1) :
    shapeCast S512x1 v shapeCasts_S512_S512x1 (ix2 r u) = v (ix1 r) :=
  shapeCast_apply v _ _ _ (by
    have hu : u.val = 0 := by omega
    rw [Shape.rowMajor_val_one, Shape.rowMajor_val_two]
    show r.val = r.val * 1 + u.val
    omega)

/-- A [512,1] column broadcast over 768 lanes reads, at (r, d), the column at r. -/
theorem bc768_apply (v : S512x1.Idx → α) (r : Fin 512) (d : Fin 768) :
    broadcastTo S512x768 v broadcasts_S512x1_S512x768 (ix2 r d) = v (ix2 r 0) :=
  broadcastTo_apply v _ _ _ (fun a => match a with
    | ⟨0, _⟩ => by show r.val = if (512 : Nat) = 1 then 0 else r.val; rw [if_neg (by decide)]
    | ⟨1, _⟩ => by show 0 = if (1 : Nat) = 1 then 0 else d.val; rw [if_pos rfl])

/-- A [512,1] column broadcast over 1000 lanes reads, at (r, k), the column at r. -/
theorem bc1000_apply (v : S512x1.Idx → α) (r : Fin 512) (k : Fin 1000) :
    broadcastTo S512x1000 v broadcasts_S512x1_S512x1000 (ix2 r k) = v (ix2 r 0) :=
  broadcastTo_apply v _ _ _ (fun a => match a with
    | ⟨0, _⟩ => by show r.val = if (512 : Nat) = 1 then 0 else r.val; rw [if_neg (by decide)]
    | ⟨1, _⟩ => by show 0 = if (1 : Nat) = 1 then 0 else k.val; rw [if_pos rfl])

/-- The [1,1] block has one index. -/
theorem idx11_eq (a b : S1x1.Idx) : a = b :=
  funext fun d => Fin.ext (by
    match d with
    | ⟨0, _⟩ =>
      have h1 : (a 0).val < 1 := (a 0).isLt
      have h2 : (b 0).val < 1 := (b 0).isLt
      show (a 0).val = (b 0).val
      omega
    | ⟨1, _⟩ =>
      have h1 : (a 1).val < 1 := (a 1).isLt
      have h2 : (b 1).val < 1 := (b 1).isLt
      show (a 1).val = (b 1).val
      omega)

/-- A [1,1] block cast to [1,1,1] and broadcast over 128 lanes reads its one entry everywhere. -/
theorem lanes_apply (w : S1x1.Idx → α) (y : S1x1x128.Idx) :
    broadcastTo S1x1x128 (shapeCast S1x1x1 w shapeCasts_S1x1_S1x1x1) broadcasts_S1x1x1_S1x1x128 y = w (ix2 0 0) := by
  unfold broadcastTo shapeCast
  exact congrArg w (idx11_eq _ _)

end Layout

/-- The sum over the 768 lanes of row r. -/
theorem rowsum768 (src : FVec Ideal S512x768 .f32) (r : Fin 512) :
    multiReduction (F := Ideal) .add [1] S512 src 0x00000000#32 reduces_S512x768_S512 (.inl rfl) rfl (ix1 r)
      = ∑ d : Fin 768, src (ix2 r d) := by
  refine (Ideal.multiReduction_add_single src 0x00000000#32 reduces_S512x768_S512 (.inl rfl) rfl (ix1 r)).trans ?_
  refine Finset.sum_congr rfl fun d _ => congrArg src ?_
  funext a
  match a with
  | ⟨0, _⟩ => exact Fin.ext rfl
  | ⟨1, _⟩ => exact Fin.ext rfl

/-- The sum of the squares over the 768 lanes of row r. -/
theorem sumsq768 (x : FVec Ideal S512x768 .f32) (r : Fin 512) :
    multiReduction (F := Ideal) .add [1] S512 (mulf x x) 0x00000000#32 reduces_S512x768_S512 (.inl rfl) rfl (ix1 r)
      = ∑ d : Fin 768, x (ix2 r d) * x (ix2 r d) :=
  rowsum768 (mulf x x) r

/-- The sum over the 1000 lanes of row r. -/
theorem rowsum1000 (src : FVec Ideal S512x1000 .f32) (r : Fin 512) :
    multiReduction (F := Ideal) .add [1] S512 src 0x00000000#32 reduces_S512x1000_S512 (.inl rfl) rfl (ix1 r)
      = ∑ k : Fin 1000, src (ix2 r k) := by
  refine (Ideal.multiReduction_add_single src 0x00000000#32 reduces_S512x1000_S512 (.inl rfl) rfl (ix1 r)).trans ?_
  refine Finset.sum_congr rfl fun k _ => congrArg src ?_
  funext a
  match a with
  | ⟨0, _⟩ => exact Fin.ext rfl
  | ⟨1, _⟩ => exact Fin.ext rfl

/-- The sum of the lane-by-lane products of two blocks over the 1000 lanes of row r. -/
theorem rowdot1000 (a b : FVec Ideal S512x1000 .f32) (r : Fin 512) :
    multiReduction (F := Ideal) .add [1] S512 (mulf a b) 0x00000000#32 reduces_S512x1000_S512 (.inl rfl) rfl (ix1 r)
      = ∑ k : Fin 1000, a (ix2 r k) * b (ix2 r k) :=
  rowsum1000 (mulf a b) r

/-- The maximum over the 1000 lanes of row r. -/
theorem rowmax1000 (src : FVec Ideal S512x1000 .f32) (r : Fin 512) :
    multiReduction (F := Ideal) .maximumf [1] S512 src 0xFF800000#32 reduces_S512x1000_S512 (.inl rfl) rfl (ix1 r)
      = Loss.rowmax (fun k => src (ix2 r k)) := by
  refine (Ideal.multiReduction_maximumf_single src 0xFF800000#32 reduces_S512x1000_S512 (.inl rfl) rfl (ix1 r)).trans ?_
  have e : (src ∘ reduces_S512x1000_S512.lift (ix1 r)) = fun k : Fin 1000 => src (ix2 r k) := by
    funext k
    refine congrArg src ?_
    funext a
    match a with
    | ⟨0, _⟩ => exact Fin.ext rfl
    | ⟨1, _⟩ => exact Fin.ext rfl
  unfold Loss.rowmax Loss.negInf
  rw [e]
  rfl

/-- The sum down the 512 rows of a column, cast to the [1,1] block. -/
theorem colsum_apply (src : FVec Ideal S512x1 .f32) (y : S1x1.Idx) :
    shapeCast S1x1 (multiReduction (F := Ideal) .add [0] S1 src 0x00000000#32 reduces_S512x1_S1 (.inl rfl) rfl) shapeCasts_S1_S1x1 y
      = ∑ r : Fin 512, src (ix2 r 0) := by
  rw [eq_ix2 y]
  refine (shapeCast_a_1a_apply _ shapeCasts_S1_S1x1 (y 0) (y 1)).trans ?_
  refine (Ideal.multiReduction_add_single src 0x00000000#32 reduces_S512x1_S1 (.inl rfl) rfl (ix1 (y 1))).trans ?_
  refine Finset.sum_congr rfl fun r _ => congrArg src ?_
  funext a
  match a with
  | ⟨0, _⟩ => exact Fin.ext rfl
  | ⟨1, _⟩ => exact Fin.ext (by show (y 1).val = 0; have h1 : (y 1).val < 1 := (y 1).isLt; omega)

/-! ### The block product -/

theorem lhs_mm_0 (i : S512x1000.Idx) (q : dot_S512x768_S768x1000_S512x1000_1_0_0_1_n_n.contr.Idx) :
    (dot_S512x768_S768x1000_S512x1000_1_0_0_1_n_n.lhsIdx i q 0).val = (i 0).val := by
  unfold DotDims.lhsIdx
  rw [dif_neg (show ¬(0 : Fin S512x768.rank) ∈ dot_S512x768_S768x1000_S512x1000_1_0_0_1_n_n.lhsBatch by decide), dif_pos (show (0 : Fin S512x768.rank) ∈ dot_S512x768_S768x1000_S512x1000_1_0_0_1_n_n.lhsNonContracting by decide)]
  rfl
theorem lhs_mm_1 (i : S512x1000.Idx) (q : dot_S512x768_S768x1000_S512x1000_1_0_0_1_n_n.contr.Idx) :
    (dot_S512x768_S768x1000_S512x1000_1_0_0_1_n_n.lhsIdx i q 1).val = (q ⟨0, by decide⟩).val :=
  dot_S512x768_S768x1000_S512x1000_1_0_0_1_n_n.lhsIdx_val_of_single rfl i q
theorem rhs_mm_0 (i : S512x1000.Idx) (q : dot_S512x768_S768x1000_S512x1000_1_0_0_1_n_n.contr.Idx) :
    (dot_S512x768_S768x1000_S512x1000_1_0_0_1_n_n.rhsIdx i q 0).val = (q ⟨0, by decide⟩).val :=
  dot_S512x768_S768x1000_S512x1000_1_0_0_1_n_n.rhsIdx_val_of_single rfl i q
theorem rhs_mm_1 (i : S512x1000.Idx) (q : dot_S512x768_S768x1000_S512x1000_1_0_0_1_n_n.contr.Idx) :
    (dot_S512x768_S768x1000_S512x1000_1_0_0_1_n_n.rhsIdx i q 1).val = (i 1).val := by
  unfold DotDims.rhsIdx
  rw [dif_neg (show ¬(1 : Fin S768x1000.rank) ∈ dot_S512x768_S768x1000_S512x1000_1_0_0_1_n_n.rhsBatch by decide), dif_pos (show (1 : Fin S768x1000.rank) ∈ dot_S512x768_S768x1000_S512x1000_1_0_0_1_n_n.rhsNonContracting by decide)]
  rfl

/-- The block product into the zero block, at (r, k): the sum over the 768 contraction positions. -/
theorem mm_apply (lhs : FVec Ideal S512x768 .bf16) (rhs : FVec Ideal S768x1000 .bf16) (r : Fin 512) (k : Fin 1000) :
    matmul dot_S512x768_S768x1000_S512x1000_1_0_0_1_n_n none lhs rhs (constant (F := Ideal) S512x1000 .f32 0x00000000#32) (ix2 r k)
      = ∑ d : Fin 768, lhs (ix2 r d) * rhs (ix2 d k) := by
  refine (Ideal.matmul_constant_zero_apply dot_S512x768_S768x1000_S512x1000_1_0_0_1_n_n none lhs rhs (ix2 r k)).trans ?_
  rw [← Equiv.sum_comp (contrEquiv1 dot_S512x768_S768x1000_S512x1000_1_0_0_1_n_n 768 rfl rfl).symm]
  refine Finset.sum_congr rfl fun d _ => ?_
  have hk := contrEquiv1_symm_val dot_S512x768_S768x1000_S512x1000_1_0_0_1_n_n 768 rfl rfl d
  have el : dot_S512x768_S768x1000_S512x1000_1_0_0_1_n_n.lhsIdx (ix2 r k) ((contrEquiv1 dot_S512x768_S768x1000_S512x1000_1_0_0_1_n_n 768 rfl rfl).symm d) = ix2 r d := funext fun a => Fin.ext (by
    match a with
    | ⟨0, _⟩ => exact lhs_mm_0 _ _
    | ⟨1, _⟩ => exact (lhs_mm_1 _ _).trans hk)
  have er : dot_S512x768_S768x1000_S512x1000_1_0_0_1_n_n.rhsIdx (ix2 r k) ((contrEquiv1 dot_S512x768_S768x1000_S512x1000_1_0_0_1_n_n 768 rfl rfl).symm d) = ix2 d k := funext fun a => Fin.ext (by
    match a with
    | ⟨0, _⟩ => exact (rhs_mm_0 _ _).trans hk
    | ⟨1, _⟩ => exact rhs_mm_1 _ _)
  rw [el, er]

/-! ### The one-hot block -/

/-- The 0/1 word of a comparison of two label words, read as a number. -/
theorem bit_toReal (a b : BitVec 32) :
    FloatOps.sitofp (F := Ideal) .f32 ((IntOp.cmpi .eq a b).setWidth 32) = if b = a then 1 else 0 := by
  show ((((IntOp.cmpi .eq a b).setWidth 32).toInt : ℝ) : EReal) = _
  unfold IntOp.cmpi
  by_cases h : b = a
  · subst h
    rw [if_pos rfl]
    have e : (b == b) = true := beq_self_eq_true b
    simp only [e]
    have e2 : ((BitVec.ofBool true).setWidth 32).toInt = 1 := by decide
    rw [e2]; simp
  · rw [if_neg h]
    have e : (a == b) = false := by
      rw [beq_eq_false_iff_ne]; exact fun h' => h h'.symm
    simp only [e]
    have e2 : ((BitVec.ofBool false).setWidth 32).toInt = 0 := by decide
    rw [e2]; simp

/-- The one-hot block at (r, k): 1 where row r's label is the class k, 0 elsewhere. -/
theorem pay8_apply (x2 : Vec Ideal S512x1 .i32) (r : Fin 512) (k : Fin 1000) :
    k0_pay8 (F := Ideal) x2 (ix2 r k) = Loss.hot (x2 (ix2 r 0)) k := by
  unfold k0_pay8
  rw [shapeCast_self, sitofp_apply, extui_apply, cmpi_apply, iota_single_apply, bc1000_apply, bit_toReal]
  rfl

/-! ### The similarity block and the softmax pieces -/

/-- The rows of the block, each divided by the larger of its Euclidean norm and ε. -/
def nrm (x0 : Vec Ideal S512x768 .f32) : FVec Ideal S512x768 .bf16 :=
  truncf .bf16 (divf x0 (broadcastTo S512x768 (maximumf (sqrt (shapeCast S512x1
    (multiReduction (F := Ideal) .add [1] S512 (mulf x0 x0) 0x00000000#32 reduces_S512x768_S512 (.inl rfl) rfl) shapeCasts_S512_S512x1))
    (broadcast S512x1 (Scalar.ofBits .f32 0x322BCC77#32))) broadcasts_S512x1_S512x768)) bitsLt_bf16_f32

/-- The block of similarities: the normalised rows times the centroid matrix. -/
def sim (x0 : Vec Ideal S512x768 .f32) (x3 : Vec Ideal S768x1000 .bf16) : FVec Ideal S512x1000 .f32 :=
  matmul (φ₁ := .bf16) (φ₂ := .bf16) dot_S512x768_S768x1000_S512x1000_1_0_0_1_n_n none (nrm x0) (shapeCast S768x1000 x3 shapeCasts_S768x1000_S768x1000)
    (constant (F := Ideal) S512x1000 .f32 0x00000000#32)

theorem pay6_def (x0 : Vec Ideal S512x768 .f32) (x3 : Vec Ideal S768x1000 .bf16) :
    k0_pay6 x0 x3 = exp (subf (sim x0 x3) (broadcastTo S512x1000 (shapeCast S512x1
      (multiReduction (F := Ideal) .maximumf [1] S512 (sim x0 x3) 0xFF800000#32 reduces_S512x1000_S512 (.inl rfl) rfl)
      shapeCasts_S512_S512x1) broadcasts_S512x1_S512x1000)) := rfl

theorem nrm_apply (x0 : Vec Ideal S512x768 .f32) (r : Fin 512) (d : Fin 768) :
    nrm x0 (ix2 r d) = Loss.unit (fun d => x0 (ix2 r d)) d := by
  unfold nrm
  rw [truncf_apply, divf_apply, bc768_apply, maximumf_apply, sqrt_apply, col512_apply, sumsq768, broadcast_apply,
    Ideal.ofBits_def]
  rfl

theorem sim_apply (x0 : Vec Ideal S512x768 .f32) (x3 : Vec Ideal S768x1000 .bf16) (r : Fin 512) (k : Fin 1000) :
    sim x0 x3 (ix2 r k) = Loss.simW (fun d => x0 (ix2 r d)) (fun d k => x3 (ix2 d k)) k := by
  unfold sim
  rw [mm_apply, shapeCast_self]
  unfold Loss.simW
  exact Finset.sum_congr rfl fun d _ => by rw [nrm_apply]

theorem sim_row (x0 : Vec Ideal S512x768 .f32) (x3 : Vec Ideal S768x1000 .bf16) (r : Fin 512) :
    (fun k => sim x0 x3 (ix2 r k)) = Loss.simW (fun d => x0 (ix2 r d)) (fun d k => x3 (ix2 d k)) :=
  funext fun k => sim_apply x0 x3 r k

/-- exp (g − max g) of a block, at (r, k). -/
theorem expShift_apply (g : FVec Ideal S512x1000 .f32) (r : Fin 512) (k : Fin 1000) :
    exp (subf g (broadcastTo S512x1000 (shapeCast S512x1
      (multiReduction (F := Ideal) .maximumf [1] S512 g 0xFF800000#32 reduces_S512x1000_S512 (.inl rfl) rfl)
      shapeCasts_S512_S512x1) broadcasts_S512x1_S512x1000)) (ix2 r k) = Loss.ex (fun k => g (ix2 r k)) k := by
  rw [exp_apply, subf_apply, bc1000_apply, col512_apply, rowmax1000]
  rfl

/-- The block of unnormalised softmax weights at (r, k). -/
theorem pay6_apply (x0 : Vec Ideal S512x768 .f32) (x3 : Vec Ideal S768x1000 .bf16) (r : Fin 512) (k : Fin 1000) :
    k0_pay6 x0 x3 (ix2 r k) = Loss.ex (Loss.simW (fun d => x0 (ix2 r d)) (fun d k => x3 (ix2 d k))) k := by
  rw [pay6_def, expShift_apply, sim_row]

/-- The column of reciprocal normalisers at row r. -/
theorem pay7_apply (x0 : Vec Ideal S512x768 .f32) (x3 : Vec Ideal S768x1000 .bf16) (r : Fin 512) :
    k0_pay7 x0 x3 (ix2 r 0) = Loss.kInv (Loss.simW (fun d => x0 (ix2 r d)) (fun d k => x3 (ix2 d k))) := by
  unfold k0_pay7
  rw [divf_apply, broadcast_apply, Ideal.ofBits_def, col512_apply, rowsum1000]
  unfold Loss.kInv Loss.one
  exact congrArg (Ideal.div _) (Finset.sum_congr rfl fun k _ => pay6_apply x0 x3 r k)

/-- The column of the labelled class's softmax weight at row r. -/
theorem pay9_apply (x0 : Vec Ideal S512x768 .f32) (x3 : Vec Ideal S768x1000 .bf16) (x2 : Vec Ideal S512x1 .i32) (r : Fin 512) :
    k0_pay9 x0 x3 x2 (ix2 r 0)
      = Loss.kStt (Loss.simW (fun d => x0 (ix2 r d)) (fun d k => x3 (ix2 d k))) (x2 (ix2 r 0)) := by
  unfold k0_pay9
  rw [mulf_apply, col512_apply, rowdot1000, pay7_apply]
  unfold Loss.kStt
  exact congrArg (· * _) (Finset.sum_congr rfl fun k _ => by rw [pay6_apply, pay8_apply])

/-! ### The payloads the body stores -/

/-- The three zero blocks a half's first point stores. -/
theorem pay3_eq (y : S1x1.Idx) : k0_pay3 (F := Ideal) y = 0 := by
  unfold k0_pay3
  rw [shapeCast_self, broadcast_apply, Ideal.ofBits_def, Ideal.ofBits_zero_f32]
theorem pay4_eq (y : S1x1.Idx) : k0_pay4 (F := Ideal) y = 0 := by
  unfold k0_pay4
  rw [shapeCast_self, broadcast_apply, Ideal.ofBits_def, Ideal.ofBits_zero_f32]
theorem pay5_eq (y : S1x1.Idx) : k0_pay5 (F := Ideal) y = 0 := by
  unfold k0_pay5
  rw [shapeCast_self, broadcast_apply, Ideal.ofBits_def, Ideal.ofBits_zero_f32]

/-- The cross-entropy sum grows by the block's 512 rows' −(g_t − logsumexp g). -/
theorem pay11_eq (x1 : Vec Ideal S512x1000 .f32) (x2 : Vec Ideal S512x1 .i32) (prev : Vec Ideal S1x1 .f32) (y : S1x1.Idx) :
    k0_pay11 (k0_pay8 x2) x1 prev y
      = prev y + ∑ r : Fin 512, Loss.kCe (fun k => x1 (ix2 r k)) (x2 (ix2 r 0)) := by
  unfold k0_pay11
  rw [shapeCast_self, addf_apply, colsum_apply]
  refine congrArg (prev y + ·) (Finset.sum_congr rfl fun r _ => ?_)
  rw [subf_apply, subf_apply, addf_apply, log_apply, broadcast_apply, Ideal.ofBits_def, Ideal.ofBits_zero_f32,
    col512_apply, col512_apply, col512_apply, rowdot1000, rowmax1000, rowsum1000]
  unfold Loss.kCe
  refine congrArg₂ (fun a b : EReal => 0 - (a - (Loss.rowmax (fun k => x1 (ix2 r k)) + Ideal.log b))) ?_ ?_
  · exact Finset.sum_congr rfl fun k _ => by rw [pay8_apply]
  · exact Finset.sum_congr rfl fun k _ => expShift_apply x1 r k

/-- The squared-distance sum grows by the block's rows' 1 − 2 p_t + Σ e² (1/s)². -/
theorem pay12_eq (x0 : Vec Ideal S512x768 .f32) (x3 : Vec Ideal S768x1000 .bf16) (x2 : Vec Ideal S512x1 .i32)
    (prev : Vec Ideal S1x1 .f32) (y : S1x1.Idx) :
    k0_pay12 (k0_pay6 x0 x3) (k0_pay7 x0 x3) (k0_pay9 x0 x3 x2) prev y
      = prev y + ∑ r : Fin 512, Loss.kDist (Loss.simW (fun d => x0 (ix2 r d)) (fun d k => x3 (ix2 d k))) (x2 (ix2 r 0)) := by
  unfold k0_pay12
  rw [shapeCast_self, addf_apply, colsum_apply]
  refine congrArg (prev y + ·) (Finset.sum_congr rfl fun r _ => ?_)
  rw [addf_apply, subf_apply, mulf_apply, mulf_apply, mulf_apply, broadcast_apply, broadcast_apply, Ideal.ofBits_def,
    Ideal.ofBits_def, col512_apply, rowdot1000, pay9_apply, pay7_apply]
  unfold Loss.kDist Loss.one Loss.two
  exact congrArg (fun s : EReal => _ + s * _) (Finset.sum_congr rfl fun k _ => by rw [pay6_apply])

/-- The discount sum grows by the block's rows' 1 − p_t. -/
theorem pay1_eq (x0 : Vec Ideal S512x768 .f32) (x3 : Vec Ideal S768x1000 .bf16) (x2 : Vec Ideal S512x1 .i32)
    (prev : Vec Ideal S1x1 .f32) (y : S1x1.Idx) :
    k0_pay1 (k0_pay10 x0 x3 x2) prev y
      = prev y + ∑ r : Fin 512, Loss.kDisc (Loss.simW (fun d => x0 (ix2 r d)) (fun d k => x3 (ix2 d k))) (x2 (ix2 r 0)) := by
  unfold k0_pay1
  rw [shapeCast_self, addf_apply]
  unfold k0_pay10
  rw [colsum_apply]
  refine congrArg (prev y + ·) (Finset.sum_congr rfl fun r _ => ?_)
  rw [subf_apply, broadcast_apply, Ideal.ofBits_def, pay9_apply]
  rfl

/-- The output block: every lane holds ce/N + dist/(N·C) + (disc/N)·u of the three sums. -/
theorem pay2_eq (a b d u : Vec Ideal S1x1 .f32) (y : S1x1x128.Idx) :
    k0_pay2 a b d u y
      = (Ideal.div (a (ix2 0 0)) Loss.cN + Ideal.div (b (ix2 0 0)) Loss.cNC) + Ideal.div (d (ix2 0 0)) Loss.cN * u (ix2 0 0) := by
  unfold k0_pay2
  rw [shapeCast_self, lanes_apply, addf_apply, addf_apply, mulf_apply, divf_apply, divf_apply, divf_apply,
    broadcast_apply, broadcast_apply, Ideal.ofBits_def, Ideal.ofBits_def]
  rfl

end Cert.KernelIdeal.Pay

end
-- ==== Proof.KAccum.lean ====
/-
  The three running sums, by induction on the grid point: after block i of half q each is the sum over blocks
  0 … i of the half of the block's 512 rows' contributions (a half's first block restarts from zero, every later one
  adds to what the block before left); so the output block written at the half's last block holds, on every lane,
  the half's share of the loss.
-/
import proofs.«429917_j84688165142889_2_alg».proof.Proof.KBlocks
import proofs.«429917_j84688165142889_2_alg».proof.Proof.KPieces
import proofs.«429917_j84688165142889_2_alg».proof.Proof.KPay
import Mathlib.Algebra.BigOperators.Fin

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Vals

variable (m : (ℓ : Loc nD τ sig) → Buf (Elt Ideal) ℓ)

/-! ### The five input blocks at a grid point, each at its literal type -/

abbrev xb0 (c : Dev nD) (t : Fin cfg0.N) : Vec Ideal S512x768 .f32 := iblk m c 0 t
abbrev xb1 (c : Dev nD) (t : Fin cfg0.N) : Vec Ideal S512x1000 .f32 := iblk m c 1 t
abbrev xb2 (c : Dev nD) (t : Fin cfg0.N) : Vec Ideal S512x1 .i32 := iblk m c 2 t
abbrev xb3 (c : Dev nD) (t : Fin cfg0.N) : Vec Ideal S768x1000 .bf16 := iblk m c 3 t
abbrev xb4 (c : Dev nD) (t : Fin cfg0.N) : Vec Ideal S1x1 .f32 := iblk m c 4 t

/-! ### A block's contribution to each sum, as a function of the block's number (zero past the last block) -/

/-- Block b's 512 rows' cross-entropy terms, added. -/
def ceBlk (c : Dev nD) (b : ℕ) : EReal :=
  if h : b < 32 then ∑ r : Fin 512, Loss.kCe (Lgt m c (Loss.rowIx ⟨b, h⟩ r)) (Tgt m c (Loss.rowIx ⟨b, h⟩ r)) else 0

/-- Block b's 512 rows' squared distances, added. -/
def distBlk (c : Dev nD) (b : ℕ) : EReal :=
  if h : b < 32 then ∑ r : Fin 512, Loss.kDist (Loss.rowSim (Emb m c) (Cen m c) (Loss.rowIx ⟨b, h⟩ r)) (Tgt m c (Loss.rowIx ⟨b, h⟩ r)) else 0

/-- Block b's 512 rows' discounts, added. -/
def discBlk (c : Dev nD) (b : ℕ) : EReal :=
  if h : b < 32 then ∑ r : Fin 512, Loss.kDisc (Loss.rowSim (Emb m c) (Cen m c) (Loss.rowIx ⟨b, h⟩ r)) (Tgt m c (Loss.rowIx ⟨b, h⟩ r)) else 0

theorem pt_lt (t : Fin cfg0.N) : t.val < 32 := lt_of_lt_of_eq t.isLt (show cfg0.N = 32 from N_0)

theorem pt_eq (t : Fin cfg0.N) : pt t = ⟨t.val, pt_lt t⟩ := Fin.ext rfl

/-- Row r of the block at point t, as a row of similarities: the block's embedding row against the block's table. -/
theorem sim_row (c : Dev nD) (t : Fin cfg0.N) (r : Fin 512) :
    Loss.simW (fun d => xb0 m c t (ix2 r d)) (fun d k => xb3 m c t (ix2 d k))
      = Loss.rowSim (Emb m c) (Cen m c) (Loss.rowIx ⟨t.val, pt_lt t⟩ r) := by
  unfold Loss.rowSim
  have e0 : (fun d => xb0 m c t (ix2 r d)) = Emb m c (Loss.rowIx ⟨t.val, pt_lt t⟩ r) := by
    funext d
    show (iblk m c 0 t : Vec Ideal S512x768 .f32) (ix2 r d) = _
    rw [iblk0_apply, pt_eq]
  have e3 : (fun d k => xb3 m c t (ix2 d k)) = (fun d k => Loss.unit (Cen m c k) d) := by
    funext d k
    show (iblk m c 3 t : Vec Ideal S768x1000 .bf16) (ix2 d k) = _
    rw [iblk3_apply]
  rw [e0, e3]

theorem ce_block (c : Dev nD) (t : Fin cfg0.N) :
    (∑ r : Fin 512, Loss.kCe (fun k => xb1 m c t (ix2 r k)) (xb2 m c t (ix2 r 0))) = ceBlk m c t.val := by
  unfold ceBlk
  rw [dif_pos (pt_lt t)]
  refine Finset.sum_congr rfl fun r _ => ?_
  have e1 : (fun k => xb1 m c t (ix2 r k)) = Lgt m c (Loss.rowIx ⟨t.val, pt_lt t⟩ r) := by
    funext k
    show (iblk m c 1 t : Vec Ideal S512x1000 .f32) (ix2 r k) = _
    rw [iblk1_apply, pt_eq]
  have e2 : xb2 m c t (ix2 r 0) = Tgt m c (Loss.rowIx ⟨t.val, pt_lt t⟩ r) := by
    show (iblk m c 2 t : Vec Ideal S512x1 .i32) (ix2 r 0) = _
    rw [iblk2_apply, pt_eq]
  rw [e1, e2]

theorem dist_block (c : Dev nD) (t : Fin cfg0.N) :
    (∑ r : Fin 512, Loss.kDist (Loss.simW (fun d => xb0 m c t (ix2 r d)) (fun d k => xb3 m c t (ix2 d k))) (xb2 m c t (ix2 r 0)))
      = distBlk m c t.val := by
  unfold distBlk
  rw [dif_pos (pt_lt t)]
  refine Finset.sum_congr rfl fun r _ => ?_
  have e2 : xb2 m c t (ix2 r 0) = Tgt m c (Loss.rowIx ⟨t.val, pt_lt t⟩ r) := by
    show (iblk m c 2 t : Vec Ideal S512x1 .i32) (ix2 r 0) = _
    rw [iblk2_apply, pt_eq]
  rw [sim_row, e2]

theorem disc_block (c : Dev nD) (t : Fin cfg0.N) :
    (∑ r : Fin 512, Loss.kDisc (Loss.simW (fun d => xb0 m c t (ix2 r d)) (fun d k => xb3 m c t (ix2 d k))) (xb2 m c t (ix2 r 0)))
      = discBlk m c t.val := by
  unfold discBlk
  rw [dif_pos (pt_lt t)]
  refine Finset.sum_congr rfl fun r _ => ?_
  have e2 : xb2 m c t (ix2 r 0) = Tgt m c (Loss.rowIx ⟨t.val, pt_lt t⟩ r) := by
    show (iblk m c 2 t : Vec Ideal S512x1 .i32) (ix2 r 0) = _
    rw [iblk2_apply, pt_eq]
  rw [sim_row, e2]

/-! ### The body's three updates at point t: previous sum plus the block's contribution -/

theorem pay_ce (c : Dev nD) (t : Fin cfg0.N) (prev : Vec Ideal S1x1 .f32) (y : S1x1.Idx) :
    k0_pay11 (k0_pay8 (xb2 m c t)) (xb1 m c t) prev y = prev y + ceBlk m c t.val :=
  (Pay.pay11_eq (xb1 m c t) (xb2 m c t) prev y).trans (congrArg (fun s => prev y + s) (ce_block m c t))

theorem pay_dist (c : Dev nD) (t : Fin cfg0.N) (prev : Vec Ideal S1x1 .f32) (y : S1x1.Idx) :
    k0_pay12 (k0_pay6 (xb0 m c t) (xb3 m c t)) (k0_pay7 (xb0 m c t) (xb3 m c t)) (k0_pay9 (xb0 m c t) (xb3 m c t) (xb2 m c t)) prev y
      = prev y + distBlk m c t.val :=
  (Pay.pay12_eq (xb0 m c t) (xb3 m c t) (xb2 m c t) prev y).trans (congrArg (fun s => prev y + s) (dist_block m c t))

theorem pay_disc (c : Dev nD) (t : Fin cfg0.N) (prev : Vec Ideal S1x1 .f32) (y : S1x1.Idx) :
    k0_pay1 (k0_pay10 (xb0 m c t) (xb3 m c t) (xb2 m c t)) prev y = prev y + discBlk m c t.val :=
  (Pay.pay1_eq (xb0 m c t) (xb3 m c t) (xb2 m c t) prev y).trans (congrArg (fun s => prev y + s) (disc_block m c t))

/-! ### What each control case leaves in the three sums -/

theorem prev_lt (t : Fin cfg0.N) (p : ℕ) (hp : p + 1 = t.val) : p < cfg0.N := by have := t.isLt; omega

/-- A half's first block: the cross-entropy sum is the block's contribution alone. -/
theorem stepA0 (c : Dev nD) (t : Fin cfg0.N) (h0 : t.val % 16 = 0) (h1 : ¬t.val % 16 = 15) (y : S1x1.Idx) :
    (outsAt0 m c t.val t.isLt).2.1 y = ceBlk m c t.val := by
  rw [outsAt0_A m c t h0 h1]
  dsimp only
  refine (congrFun (Pieces.sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xb0 m c t) (xb1 m c t) (xb2 m c t) (xb3 m c t) (xb4 m c t)) y).trans ?_
  refine (pay_ce m c t _ y).trans ?_
  rw [Pay.pay3_eq, zero_add]

/-- A middle block: the cross-entropy sum is what the block before left plus the block's contribution. -/
theorem stepB0 (c : Dev nD) (t : Fin cfg0.N) (p : ℕ) (hp : p + 1 = t.val) (h0 : ¬t.val % 16 = 0) (h1 : ¬t.val % 16 = 15) (y : S1x1.Idx) :
    (outsAt0 m c t.val t.isLt).2.1 y = (outsAt0 m c p (prev_lt t p hp)).2.1 y + ceBlk m c t.val := by
  obtain rfl : p = t.val - 1 := by omega
  rw [outsAt0_B m c t h0 h1]
  dsimp only
  refine (congrFun (Pieces.sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xb0 m c t) (xb1 m c t) (xb2 m c t) (xb3 m c t) (xb4 m c t) (outsAt0 m c (t.val - 1) (prev_lt t (t.val - 1) hp)).2.1 (outsAt0 m c (t.val - 1) (prev_lt t (t.val - 1) hp)).2.2.1 (outsAt0 m c (t.val - 1) (prev_lt t (t.val - 1) hp)).2.2.2) y).trans ?_
  exact pay_ce m c t _ y

/-- A half's last block: the same. -/
theorem stepC0 (c : Dev nD) (t : Fin cfg0.N) (p : ℕ) (hp : p + 1 = t.val) (h0 : ¬t.val % 16 = 0) (h1 : t.val % 16 = 15) (y : S1x1.Idx) :
    (outsAt0 m c t.val t.isLt).2.1 y = (outsAt0 m c p (prev_lt t p hp)).2.1 y + ceBlk m c t.val := by
  obtain rfl : p = t.val - 1 := by omega
  rw [outsAt0_C m c t h0 h1]
  dsimp only
  refine (congrFun (Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xb0 m c t) (xb1 m c t) (xb2 m c t) (xb3 m c t) (xb4 m c t) (outsAt0 m c (t.val - 1) (prev_lt t (t.val - 1) hp)).2.1 (outsAt0 m c (t.val - 1) (prev_lt t (t.val - 1) hp)).2.2.1 (outsAt0 m c (t.val - 1) (prev_lt t (t.val - 1) hp)).2.2.2) y).trans ?_
  exact pay_ce m c t _ y

/-- A half's first block: the squared-distance sum is the block's contribution alone. -/
theorem stepA1 (c : Dev nD) (t : Fin cfg0.N) (h0 : t.val % 16 = 0) (h1 : ¬t.val % 16 = 15) (y : S1x1.Idx) :
    (outsAt0 m c t.val t.isLt).2.2.1 y = distBlk m c t.val := by
  rw [outsAt0_A m c t h0 h1]
  dsimp only
  refine (congrFun (Pieces.sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xb0 m c t) (xb1 m c t) (xb2 m c t) (xb3 m c t) (xb4 m c t)) y).trans ?_
  refine (pay_dist m c t _ y).trans ?_
  rw [Pay.pay4_eq, zero_add]

/-- A middle block: the squared-distance sum is what the block before left plus the block's contribution. -/
theorem stepB1 (c : Dev nD) (t : Fin cfg0.N) (p : ℕ) (hp : p + 1 = t.val) (h0 : ¬t.val % 16 = 0) (h1 : ¬t.val % 16 = 15) (y : S1x1.Idx) :
    (outsAt0 m c t.val t.isLt).2.2.1 y = (outsAt0 m c p (prev_lt t p hp)).2.2.1 y + distBlk m c t.val := by
  obtain rfl : p = t.val - 1 := by omega
  rw [outsAt0_B m c t h0 h1]
  dsimp only
  refine (congrFun (Pieces.sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xb0 m c t) (xb1 m c t) (xb2 m c t) (xb3 m c t) (xb4 m c t) (outsAt0 m c (t.val - 1) (prev_lt t (t.val - 1) hp)).2.1 (outsAt0 m c (t.val - 1) (prev_lt t (t.val - 1) hp)).2.2.1 (outsAt0 m c (t.val - 1) (prev_lt t (t.val - 1) hp)).2.2.2) y).trans ?_
  exact pay_dist m c t _ y

/-- A half's last block: the same. -/
theorem stepC1 (c : Dev nD) (t : Fin cfg0.N) (p : ℕ) (hp : p + 1 = t.val) (h0 : ¬t.val % 16 = 0) (h1 : t.val % 16 = 15) (y : S1x1.Idx) :
    (outsAt0 m c t.val t.isLt).2.2.1 y = (outsAt0 m c p (prev_lt t p hp)).2.2.1 y + distBlk m c t.val := by
  obtain rfl : p = t.val - 1 := by omega
  rw [outsAt0_C m c t h0 h1]
  dsimp only
  refine (congrFun (Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xb0 m c t) (xb1 m c t) (xb2 m c t) (xb3 m c t) (xb4 m c t) (outsAt0 m c (t.val - 1) (prev_lt t (t.val - 1) hp)).2.1 (outsAt0 m c (t.val - 1) (prev_lt t (t.val - 1) hp)).2.2.1 (outsAt0 m c (t.val - 1) (prev_lt t (t.val - 1) hp)).2.2.2) y).trans ?_
  exact pay_dist m c t _ y

/-- A half's first block: the discount sum is the block's contribution alone. -/
theorem stepA2 (c : Dev nD) (t : Fin cfg0.N) (h0 : t.val % 16 = 0) (h1 : ¬t.val % 16 = 15) (y : S1x1.Idx) :
    (outsAt0 m c t.val t.isLt).2.2.2 y = discBlk m c t.val := by
  rw [outsAt0_A m c t h0 h1]
  dsimp only
  refine (congrFun (Pieces.sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xb0 m c t) (xb1 m c t) (xb2 m c t) (xb3 m c t) (xb4 m c t)) y).trans ?_
  refine (pay_disc m c t _ y).trans ?_
  rw [Pay.pay5_eq, zero_add]

/-- A middle block: the discount sum is what the block before left plus the block's contribution. -/
theorem stepB2 (c : Dev nD) (t : Fin cfg0.N) (p : ℕ) (hp : p + 1 = t.val) (h0 : ¬t.val % 16 = 0) (h1 : ¬t.val % 16 = 15) (y : S1x1.Idx) :
    (outsAt0 m c t.val t.isLt).2.2.2 y = (outsAt0 m c p (prev_lt t p hp)).2.2.2 y + discBlk m c t.val := by
  obtain rfl : p = t.val - 1 := by omega
  rw [outsAt0_B m c t h0 h1]
  dsimp only
  refine (congrFun (Pieces.sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xb0 m c t) (xb1 m c t) (xb2 m c t) (xb3 m c t) (xb4 m c t) (outsAt0 m c (t.val - 1) (prev_lt t (t.val - 1) hp)).2.1 (outsAt0 m c (t.val - 1) (prev_lt t (t.val - 1) hp)).2.2.1 (outsAt0 m c (t.val - 1) (prev_lt t (t.val - 1) hp)).2.2.2) y).trans ?_
  exact pay_disc m c t _ y

/-- A half's last block: the same. -/
theorem stepC2 (c : Dev nD) (t : Fin cfg0.N) (p : ℕ) (hp : p + 1 = t.val) (h0 : ¬t.val % 16 = 0) (h1 : t.val % 16 = 15) (y : S1x1.Idx) :
    (outsAt0 m c t.val t.isLt).2.2.2 y = (outsAt0 m c p (prev_lt t p hp)).2.2.2 y + discBlk m c t.val := by
  obtain rfl : p = t.val - 1 := by omega
  rw [outsAt0_C m c t h0 h1]
  dsimp only
  refine (congrFun (Pieces.sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xb0 m c t) (xb1 m c t) (xb2 m c t) (xb3 m c t) (xb4 m c t) (outsAt0 m c (t.val - 1) (prev_lt t (t.val - 1) hp)).2.1 (outsAt0 m c (t.val - 1) (prev_lt t (t.val - 1) hp)).2.2.1 (outsAt0 m c (t.val - 1) (prev_lt t (t.val - 1) hp)).2.2.2) y).trans ?_
  exact pay_disc m c t _ y

/-- A half's last block writes the output block from the three sums it has just updated: on every lane the three,
    each divided by its count, combined with u. -/
theorem outC (c : Dev nD) (t : Fin cfg0.N) (p : ℕ) (hp : p + 1 = t.val) (h0 : ¬t.val % 16 = 0) (h1 : t.val % 16 = 15) (y : S1x1x128.Idx) :
    (outsAt0 m c t.val t.isLt).1 y
      = (Ideal.div ((outsAt0 m c p (prev_lt t p hp)).2.1 (ix2 0 0) + ceBlk m c t.val) Loss.cN
          + Ideal.div ((outsAt0 m c p (prev_lt t p hp)).2.2.1 (ix2 0 0) + distBlk m c t.val) Loss.cNC)
        + Ideal.div ((outsAt0 m c p (prev_lt t p hp)).2.2.2 (ix2 0 0) + discBlk m c t.val) Loss.cN * Uu m c := by
  obtain rfl : p = t.val - 1 := by omega
  rw [outsAt0_C m c t h0 h1]
  dsimp only
  refine (congrFun (Pieces.oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xb0 m c t) (xb1 m c t) (xb2 m c t) (xb3 m c t) (xb4 m c t) (outsAt0 m c (t.val - 1) (prev_lt t (t.val - 1) hp)).2.1 (outsAt0 m c (t.val - 1) (prev_lt t (t.val - 1) hp)).2.2.1 (outsAt0 m c (t.val - 1) (prev_lt t (t.val - 1) hp)).2.2.2) y).trans ?_
  refine (Pay.pay2_eq _ _ _ (xb4 m c t) y).trans ?_
  rw [pay_ce, pay_dist, pay_disc]
  have e4 : xb4 m c t (ix2 0 0) = Uu m c := by
    show (iblk m c 4 t : Vec Ideal S1x1 .f32) (ix2 0 0) = _
    rw [iblk4_apply]
  rw [e4]

/-! ### The sums after block i of half q, by induction on i -/

/-- After block i of half q the cross-entropy sum is the sum of the contributions of blocks 0 … i of the half. -/
theorem inv0 (c : Dev nD) (q : ℕ) (y : S1x1.Idx) : ∀ (i : ℕ) (hi : i < 16) (h : 16 * q + i < cfg0.N),
    (outsAt0 m c (16 * q + i) h).2.1 y = ∑ j ∈ Finset.range (i + 1), ceBlk m c (16 * q + j)
  | 0, hi, h => by
    rw [Finset.sum_range_one]
    exact stepA0 m c ⟨16 * q + 0, h⟩ (by dsimp only; omega) (by dsimp only; omega) y
  | i + 1, hi, h => by
    rw [Finset.sum_range_succ, ← inv0 c q y i (by omega) (by omega)]
    by_cases h1 : (16 * q + (i + 1)) % 16 = 15
    · exact stepC0 m c ⟨16 * q + (i + 1), h⟩ (16 * q + i) rfl (by dsimp only; omega) h1 y
    · exact stepB0 m c ⟨16 * q + (i + 1), h⟩ (16 * q + i) rfl (by dsimp only; omega) h1 y

/-- After the last block of half q the cross-entropy sum is the half's sum over its 16 × 512 rows. -/
theorem last0 (c : Dev nD) (q : Fin 2) (h : 16 * q.val + 15 < cfg0.N) (y : S1x1.Idx) :
    (outsAt0 m c (16 * q.val + 15) h).2.1 y = Loss.coreSum (fun n => Loss.kCe (Lgt m c n) (Tgt m c n)) q := by
  rw [inv0 m c q.val y 15 (by omega) h, Finset.sum_range]
  unfold Loss.coreSum
  refine Finset.sum_congr rfl fun i _ => ?_
  unfold ceBlk
  rw [dif_pos (show 16 * q.val + i.val < 32 by omega)]
  rfl

/-- After block i of half q the squared-distance sum is the sum of the contributions of blocks 0 … i of the half. -/
theorem inv1 (c : Dev nD) (q : ℕ) (y : S1x1.Idx) : ∀ (i : ℕ) (hi : i < 16) (h : 16 * q + i < cfg0.N),
    (outsAt0 m c (16 * q + i) h).2.2.1 y = ∑ j ∈ Finset.range (i + 1), distBlk m c (16 * q + j)
  | 0, hi, h => by
    rw [Finset.sum_range_one]
    exact stepA1 m c ⟨16 * q + 0, h⟩ (by dsimp only; omega) (by dsimp only; omega) y
  | i + 1, hi, h => by
    rw [Finset.sum_range_succ, ← inv1 c q y i (by omega) (by omega)]
    by_cases h1 : (16 * q + (i + 1)) % 16 = 15
    · exact stepC1 m c ⟨16 * q + (i + 1), h⟩ (16 * q + i) rfl (by dsimp only; omega) h1 y
    · exact stepB1 m c ⟨16 * q + (i + 1), h⟩ (16 * q + i) rfl (by dsimp only; omega) h1 y

/-- After the last block of half q the squared-distance sum is the half's sum over its 16 × 512 rows. -/
theorem last1 (c : Dev nD) (q : Fin 2) (h : 16 * q.val + 15 < cfg0.N) (y : S1x1.Idx) :
    (outsAt0 m c (16 * q.val + 15) h).2.2.1 y = Loss.coreSum (fun n => Loss.kDist (Loss.rowSim (Emb m c) (Cen m c) n) (Tgt m c n)) q := by
  rw [inv1 m c q.val y 15 (by omega) h, Finset.sum_range]
  unfold Loss.coreSum
  refine Finset.sum_congr rfl fun i _ => ?_
  unfold distBlk
  rw [dif_pos (show 16 * q.val + i.val < 32 by omega)]
  rfl

/-- After block i of half q the discount sum is the sum of the contributions of blocks 0 … i of the half. -/
theorem inv2 (c : Dev nD) (q : ℕ) (y : S1x1.Idx) : ∀ (i : ℕ) (hi : i < 16) (h : 16 * q + i < cfg0.N),
    (outsAt0 m c (16 * q + i) h).2.2.2 y = ∑ j ∈ Finset.range (i + 1), discBlk m c (16 * q + j)
  | 0, hi, h => by
    rw [Finset.sum_range_one]
    exact stepA2 m c ⟨16 * q + 0, h⟩ (by dsimp only; omega) (by dsimp only; omega) y
  | i + 1, hi, h => by
    rw [Finset.sum_range_succ, ← inv2 c q y i (by omega) (by omega)]
    by_cases h1 : (16 * q + (i + 1)) % 16 = 15
    · exact stepC2 m c ⟨16 * q + (i + 1), h⟩ (16 * q + i) rfl (by dsimp only; omega) h1 y
    · exact stepB2 m c ⟨16 * q + (i + 1), h⟩ (16 * q + i) rfl (by dsimp only; omega) h1 y

/-- After the last block of half q the discount sum is the half's sum over its 16 × 512 rows. -/
theorem last2 (c : Dev nD) (q : Fin 2) (h : 16 * q.val + 15 < cfg0.N) (y : S1x1.Idx) :
    (outsAt0 m c (16 * q.val + 15) h).2.2.2 y = Loss.coreSum (fun n => Loss.kDisc (Loss.rowSim (Emb m c) (Cen m c) n) (Tgt m c n)) q := by
  rw [inv2 m c q.val y 15 (by omega) h, Finset.sum_range]
  unfold Loss.coreSum
  refine Finset.sum_congr rfl fun i _ => ?_
  unfold discBlk
  rw [dif_pos (show 16 * q.val + i.val < 32 by omega)]
  rfl

/-- What the output's staging buffer holds after the last block of half q: the half's share, on every lane. -/
theorem out_last (c : Dev nD) (q : Fin 2) (h : 16 * q.val + 15 < cfg0.N) (y : S1x1x128.Idx) :
    (outsAt0 m c (16 * q.val + 15) h).1 y = Loss.corePart (Emb m c) (Lgt m c) (Tgt m c) (Cen m c) (Uu m c) q := by
  have h0 : ¬(16 * q.val + 15) % 16 = 0 := by omega
  have h1 : (16 * q.val + 15) % 16 = 15 := by omega
  refine (outC m c ⟨16 * q.val + 15, h⟩ (16 * q.val + 14) rfl h0 h1 y).trans ?_
  rw [← stepC0 m c ⟨16 * q.val + 15, h⟩ (16 * q.val + 14) rfl h0 h1 (ix2 0 0),
    ← stepC1 m c ⟨16 * q.val + 15, h⟩ (16 * q.val + 14) rfl h0 h1 (ix2 0 0),
    ← stepC2 m c ⟨16 * q.val + 15, h⟩ (16 * q.val + 14) rfl h0 h1 (ix2 0 0)]
  dsimp only
  rw [last0 m c q h, last1 m c q h, last2 m c q h]
  rfl

end Cert.KernelIdeal.Accum

end
-- ==== Proof.KFinal.lean ====
/-
  The kernel's [2, 1, 128] result array after the run: the output window is written back only after the last block
  of each half, block q of the array from half q, and the two blocks are disjoint and cover the array; so lane l of
  block q holds half q's share of the loss.
-/
import proofs.«429917_j84688165142889_2_alg».proof.Proof.KAccum

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Vals

variable (m : (ℓ : Loc nD τ sig) → Buf (Elt Ideal) ℓ)

/-- Half q's share of the loss, as a function of the half. -/
abbrev share (c : Dev nD) (q : Fin 2) : EReal :=
  Loss.corePart (Emb m c) (Lgt m c) (Tgt m c) (Cen m c) (Uu m c) q

/-- The whole result array: every lane of row q holds half q's share. -/
def G (c : Dev nD) : Vec Ideal S2x1x128 .f32 := fun i => share m c ⟨(i 0).val, (i 0).isLt⟩

/-- The output window's block index at grid point t is (t / 16, 0, 0). -/
theorem index5 : ∀ t : Fin cfg0.N, win0_5.index t (0 : Fin 3) = t.val / 16
    ∧ win0_5.index t (1 : Fin 3) = 0 ∧ win0_5.index t (2 : Fin 3) = 0 :=
  (by decide +kernel : ∀ t : Fin grid0.N, _)

/-- What the staging buffer holds after point n, when n is the last point 16·q + 15 of half q. -/
theorem out_at (c : Dev nD) (q : Fin 2) (n : ℕ) (hn : n < cfg0.N) (e : n = 16 * q.val + 15) (y : S1x1x128.Idx) :
    (outsAt0 m c n hn).1 y = share m c q := by
  subst e
  exact Accum.out_last m c q hn y

/-- What a writing-back point writes is its block of G: the point is 16·q + 15 for q = t / 16, and its block
    is row q. -/
theorem flushed_eq (c : Dev nD) (t : Fin cfg0.N) (hf : (cfg0.win 5).flush t = true) :
    (dats m 0 c).flushed 5 t = ((cfg0.win 5).blk t).view.read (Elt Ideal) (G m c) := by
  have hN : cfg0.N = 32 := N_0
  have h15 : t.val % 16 = 15 := (flush0_5 t).mp hf
  have ht : t.val < 32 := hN ▸ t.isLt
  obtain ⟨e0, e1, e2⟩ := index5 t
  show (cfg0.win 5).cut (grid0.coords t) ((dats m 0 c).after 5 t) = _
  rw [after0_5]
  funext y
  rw [View.read_apply]
  have hy : (y 0).val < 1 := (y 0).isLt
  refine (out_at m c ⟨t.val / 16, by omega⟩ t.val t.isLt (by show t.val = 16 * (t.val / 16) + 15; omega) _).trans ?_
  show share m c _ = share m c _
  congr 1
  apply Fin.ext
  show t.val / 16 = win0_5.index t (0 : Fin 3) * 1 + 1 * (y 0).val
  omega

/-- An index of the array is in point t's block iff each coordinate is in the block's range on its axis. -/
theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v12).slice (win0_5.rect t)).set ↔ _
  rw [View.set_slice_whole, Rect.mem_set_unit]
  exact Iff.rfl

/-- Row q of the array is the block of the last point of half q. -/
theorem cover (c : Dev nD) (i : S2x1x128.Idx) :
    ∃ t : Fin cfg0.N, (cfg0.win 5).flush t = true ∧ i ∈ ((cfg0.win 5).blk t).view.set := by
  have hN : cfg0.N = 32 := N_0
  have h0 : (i 0).val < 2 := (i 0).isLt
  have h1 : (i 1).val < 1 := (i 1).isLt
  have h2 : (i 2).val < 128 := (i 2).isLt
  let t : Fin cfg0.N := ⟨16 * (i 0).val + 15, by omega⟩
  have htv : t.val = 16 * (i 0).val + 15 := rfl
  obtain ⟨e0, e1, e2⟩ := index5 t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 128 ≤ (i 2).val ∧ (i 2).val < win0_5.index t (2 : Fin 3) * 128 + 128; omega

/-- The result array after the run is G. -/
theorem final_arr (c : Dev nD) : (dats m 0 c).arrAt 5 cfg0.N = G m c :=
  (dats m 0 c).arrAt_eq_of_cover 5 (G m c) (flushed_eq m c) (cover c)

theorem final5 (c : Dev nD) (q : Fin 2) (l : Fin 128) :
    ((dats m 0 c).arrAt 5 cfg0.N : Vec Ideal S2x1x128 .f32) (ix3 q 0 l) = Loss.corePart (Emb m c) (Lgt m c) (Tgt m c) (Cen m c) (Uu m c) q := by
  rw [final_arr m c]
  rfl

end Cert.KernelIdeal.Final

end
-- ==== Proof.KRun.lean ====
/-
  The idealized kernel's run, read: the program's one result is the sum of the two halves' shares (lane 0 of each
  block of the kernel's result array, sliced out and added by the host operations after the region), and the five
  arguments end unchanged.
-/
import proofs.«429917_j84688165142889_2_alg».proof.Proof.KFinal
import Idealize.ShloMosaic.Lib.StableHlo.Run

noncomputable section

namespace Cert.KernelIdeal.RunV

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Vals

variable (m : (ℓ : Loc nD τ sig) → Buf (Elt Ideal) ℓ) (ρ : Dev nD → PrngReg)

/-- A cast between two one-element shapes reads the operand's one element. -/
theorem shapeCast_one {s t : Shape} {α : Type} (hs : s.numel = 1) (ht : t.numel = 1) (x : s.Idx → α)
    (h : s.ShapeCasts t) (j : t.Idx) (k : s.Idx) : shapeCast t x h j = x k :=
  shapeCast_apply x h j k (by have h1 := (s.rowMajor k).isLt; have h2 := (t.rowMajor j).isLt; omega)

/-- The two slices, the casts and the sum, applied to a [2, 1, 128] array: lane 0 of block 0 plus lane 0 of block 1. -/
theorem tail_term (A : Vec Ideal S2x1x128 .f32) (i : S1.Idx) :
    shapeCast S1 (addf (F := Ideal) (s := S_) (φ := .f32)
        (shapeCast S_ (extractStridedSlice S1x1x1 ![0, 0, 0] A slices_S2x1x128_S1x1x1_0_0_0) shapeCasts_S1x1x1_S_)
        (shapeCast S_ (extractStridedSlice S1x1x1 ![1, 0, 0] A slices_S2x1x128_S1x1x1_1_0_0) shapeCasts_S1x1x1_S_))
      shapeCasts_S_S1 i = A (ix3 0 0 0) + A (ix3 1 0 0) := by
  refine (shapeCast_one rfl rfl _ _ i ix0).trans ?_
  show shapeCast S_ (extractStridedSlice S1x1x1 ![0, 0, 0] A slices_S2x1x128_S1x1x1_0_0_0) shapeCasts_S1x1x1_S_ ix0
      + shapeCast S_ (extractStridedSlice S1x1x1 ![1, 0, 0] A slices_S2x1x128_S1x1x1_1_0_0) shapeCasts_S1x1x1_S_ ix0 = _
  rw [shapeCast_one rfl rfl _ _ ix0 (ix3 (0 : Fin 1) (0 : Fin 1) (0 : Fin 1)),
    shapeCast_one rfl rfl _ _ ix0 (ix3 (0 : Fin 1) (0 : Fin 1) (0 : Fin 1))]
  rw [extractStridedSlice_apply _ A slices_S2x1x128_S1x1x1_0_0_0 (ix3 (0 : Fin 1) (0 : Fin 1) (0 : Fin 1)) (ix3 (0 : Fin 2) (0 : Fin 1) (0 : Fin 128))
      (fun a => by match a with | ⟨0, _⟩ => rfl | ⟨1, _⟩ => rfl | ⟨2, _⟩ => rfl),
    extractStridedSlice_apply _ A slices_S2x1x128_S1x1x1_1_0_0 (ix3 (0 : Fin 1) (0 : Fin 1) (0 : Fin 1)) (ix3 (1 : Fin 2) (0 : Fin 1) (0 : Fin 128))
      (fun a => by match a with | ⟨0, _⟩ => rfl | ⟨1, _⟩ => rfl | ⟨2, _⟩ => rfl)]

/-- The program's result after the host operations that follow the region: the two halves' shares added. -/
theorem tail_v18 (c : Dev nD) :
    Pipeline.afterTail₀ cfgs (dats m) 0 (V0 m) [hostOps1] c main_v18
      = (fun _ => Loss.kernelTotal (Emb m c) (Lgt m c) (Tgt m c) (Cen m c) (Uu m c)) := by
  unfold Pipeline.afterTail₀
  show StableHlo.after hostOps1 _ (Proc.devRef .tc main_v18) = _
  after_results
  have hA : Pipeline.withArrays (cfgs 0).spec c (V0 m c) (fun w => (dats m 0 c).arrAt w (cfgs 0).N) (Proc.devRef .tc main_v12)
      = (dats m 0 c).arrAt 5 cfg0.N :=
    Pipeline.withArrays_arr spec0 launch0.win.arr_inj c _ _ 5
  rw [hA]
  funext i
  refine (tail_term ((dats m 0 c).arrAt 5 cfg0.N : Vec Ideal S2x1x128 .f32) i).trans ?_
  rw [Final.final5 m c 0 0, Final.final5 m c 1 0]
  rfl

theorem run : θ_run defs (onTc (τ := τ) (main (F := Ideal))) ⟨m, fun _ => 0, ρ⟩ (fun r => ∀ c : Dev nD,
      r.2.mem ((c.tc : Thread nD τ).loc main_v18) = (fun _ => Loss.kernelTotal (Emb m c) (Lgt m c) (Tgt m c) (Cen m c) (Uu m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans (tail_v18 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.RunV

end
-- ==== Proof.RefStages.lean ====
/-
  The reference program's 105 host operations, evaluated: from any contents V of the buffers, the result buffer ends
  at the composition of the operations' stages applied to the five arguments, and no operation writes an argument.

  The list of operations is cut into eight consecutive stretches. For each stretch, from ARBITRARY contents W of the
  buffers: the one buffer a later stretch (or the result) reads is the matching stage of the stretch's inputs, and
  every buffer the stretch does not write keeps its contents. The eight facts are then composed from the last stretch
  backwards, the contents of the buffers still to be read being carried as hypotheses about W.
-/
import proofs.«429917_j84688165142889_2_alg».proof.Proof.RefReadP
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

variable {x0 : (⟨S16384x768, .f32⟩ : BufTy).Contents (Elt F)} {x1 : (⟨S16384x1000, .f32⟩ : BufTy).Contents (Elt F)} {x2 : (⟨S16384, .i32⟩ : BufTy).Contents (Elt F)} {x3 : (⟨S1000x768, .f32⟩ : BufTy).Contents (Elt F)} {x4 : (⟨S1, .f32⟩ : BufTy).Contents (Elt F)}

/-- A transport along an equation of types and back is the identity. -/
theorem cast_cast_cancel {α β : Sort _} (h : β = α) (h' : α = β) (a : α) : cast h (cast h' a) = a := by
  subst h'; rfl

/-! ## The typed references of the called functions at the stretches' seams

A called function's operation reads and writes through a reference that carries its tensor type; at a literal buffer the
transport between the carried type and the buffer's own type is the identity. These are the buffers a called function's
operation writes and an operation of the main function reads (or the stretch's result). -/

theorem toBuf_main_v0 (v : (⟨S16384x1000, .f32⟩ : BufTy).Contents (Elt F)) : (TRef.of (T := ⟨S16384x1000, .f32⟩) (sig := sig) main_v0).toBuf (Val := Elt F) v = v := rfl
theorem toBuf_main_v2 (v : (⟨S16384x1, .f32⟩ : BufTy).Contents (Elt F)) : (TRef.of (T := ⟨S16384x1, .f32⟩) (sig := sig) main_v2).toBuf (Val := Elt F) v = v := rfl
theorem toBuf_main_v6 (v : (⟨S16384x1, .f32⟩ : BufTy).Contents (Elt F)) : (TRef.of (T := ⟨S16384x1, .f32⟩) (sig := sig) main_v6).toBuf (Val := Elt F) v = v := rfl
theorem toBuf_main_v11 (v : (⟨S1000x1, .f32⟩ : BufTy).Contents (Elt F)) : (TRef.of (T := ⟨S1000x1, .f32⟩) (sig := sig) main_v11).toBuf (Val := Elt F) v = v := rfl
theorem toBuf_main_v28 (v : (⟨S16384x1000, .f32⟩ : BufTy).Contents (Elt F)) : (TRef.of (T := ⟨S16384x1000, .f32⟩) (sig := sig) main_v28).toBuf (Val := Elt F) v = v := rfl

/-! ## The eight stretches, and the buffers each writes -/

/-- Stretch 1. log_softmax of the logits: the row maximum, the shifted row, the sum of its exponentials, the logarithm; its result is main_v0. -/
def s1 : List (HloOp τ sig (Elt F)) :=
  [ TRef.nullary (TRef.of (T := ⟨S_, .f32⟩) main_call0_cst) (constant S_ .f32 0xFF800000#32),
    TRef.binary (TRef.of (T := ⟨S16384x1000, .f32⟩) main_arg1) (TRef.of (T := ⟨S_, .f32⟩) main_call0_cst) (TRef.of (T := ⟨S16384, .f32⟩) main_call0_v0) (fun x v => Host.reduce FloatOps.maximumf x v reducesTo_S16384x1000_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x1000, .f32⟩) main_call0_v4) (broadcastInDim S16384x1000 ![0, 1] bcast_S16384x1_S16384x1000_0_1),
    TRef.binary (TRef.of (T := ⟨S16384x1000, .f32⟩) main_arg1) (TRef.of (T := ⟨S16384x1000, .f32⟩) main_call0_v4) (TRef.of (T := ⟨S16384x1000, .f32⟩) main_call0_v5) subf,
    TRef.unary (TRef.of (T := ⟨S16384x1000, .f32⟩) main_call0_v5) (TRef.of (T := ⟨S16384x1000, .f32⟩) main_call0_v6) Host.exp,
    TRef.nullary (TRef.of (T := ⟨S_, .f32⟩) main_call0_cst_1) (constant S_ .f32 0x00000000#32),
    TRef.binary (TRef.of (T := ⟨S16384x1000, .f32⟩) main_call0_v6) (TRef.of (T := ⟨S_, .f32⟩) main_call0_cst_1) (TRef.of (T := ⟨S16384, .f32⟩) main_call0_v7) (fun x v => Host.reduceAdd x v reducesTo_S16384x1000_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x1000, .f32⟩) main_call0_v10) (broadcastInDim S16384x1000 ![0, 1] bcast_S16384x1_S16384x1000_0_1),
    TRef.binary (TRef.of (T := ⟨S16384x1000, .f32⟩) main_call0_v5) (TRef.of (T := ⟨S16384x1000, .f32⟩) main_call0_v10) (TRef.of (T := ⟨S16384x1000, .f32⟩) main_v0) subf ]
/-- The buffers stretch 1 writes. -/
def w1 : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0]

/-- Stretch 2. The label column, take_along_axis (the wrapped and range-checked index, the gather, the select), the mean and its negation; its result is main_v5. -/
def s2 : List (HloOp τ sig (Elt F)) :=
  [ unary main_arg2 main_v1 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v1) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v1) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v1) (TRef.of (T := ⟨S16384x1, .i32⟩) main_call1_v4) select,
    TRef.reshape (TRef.of (T := ⟨S16384x1, .i32⟩) main_call1_v4) (TRef.of (T := ⟨S16384x1x1, .i32⟩) main_call1_v5) rfl shapeCasts_S16384x1_S16384x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x1000, .f32⟩) main_v0) (TRef.of (T := ⟨S16384x1x1, .i32⟩) main_call1_v5) (TRef.of (T := ⟨S16384x1, .f32⟩) main_call1_v13) (fun x i => Host.gather gather_S16384x1000_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v2) select,
    nullary main_cst (constant S_ .f32 0x00000000#32),
    binary main_v2 main_cst main_v3 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_0 (constant S_ .f32 0x46800000#32),
    binary main_v3 main_cst_0 main_v4 (Host.divf : (⟨S_, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)) ]
/-- The buffers stretch 2 writes. -/
def w2 : List (Ref sig .tc) := [main_v1, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v2, main_cst, main_v3, main_cst_0, main_v4, main_v5]

/-- Stretch 3. The embedding rows, each divided by the larger of its norm and ε; its result is main_v10. -/
def s3 : List (HloOp τ sig (Elt F)) :=
  [ TRef.binary (TRef.of (T := ⟨S16384x768, .f32⟩) main_arg0) (TRef.of (T := ⟨S16384x768, .f32⟩) main_arg0) (TRef.of (T := ⟨S16384x768, .f32⟩) main_call2_v0) mulf,
    TRef.nullary (TRef.of (T := ⟨S_, .f32⟩) main_call2_cst) (constant S_ .f32 0x00000000#32),
    TRef.binary (TRef.of (T := ⟨S16384x768, .f32⟩) main_call2_v0) (TRef.of (T := ⟨S_, .f32⟩) main_call2_cst) (TRef.of (T := ⟨S16384, .f32⟩) main_call2_v1) (fun x v => Host.reduceAdd x v reducesTo_S16384x768_S16384_d1 h_S_),
    TRef.unary (TRef.of (T := ⟨S16384, .f32⟩) main_call2_v1) (TRef.of (T := ⟨S16384x1, .f32⟩) main_call2_v2) (broadcastInDim S16384x1 ![0] bcast_S16384_S16384x1_0),
    TRef.unary (TRef.of (T := ⟨S16384x1, .f32⟩) main_call2_v2) (TRef.of (T := ⟨S16384x1, .f32⟩) main_v6) Host.sqrt,
    nullary main_cst_1 (constant S_ .f32 0x322BCC77#32),
    unary main_cst_1 main_v7 (broadcastInDim S16384x1 ![] bcast_S_S16384x1 : (⟨S_, .f32⟩ : BufTy).Contents (Elt F) → (⟨S16384x1, .f32⟩ : BufTy).Contents (Elt F)),
    binary main_v6 main_v7 main_v8 (maximumf : (⟨S16384x1, .f32⟩ : BufTy).Contents (Elt F) → (⟨S16384x1, .f32⟩ : BufTy).Contents (Elt F) → (⟨S16384x1, .f32⟩ : BufTy).Contents (Elt F)),
    unary main_v8 main_v9 (broadcastInDim S16384x768 ![0, 1] bcast_S16384x1_S16384x768_0_1 : (⟨S16384x1, .f32⟩ : BufTy).Contents (Elt F) → (⟨S16384x768, .f32⟩ : BufTy).Contents (Elt F)),
    binary main_arg0 main_v9 main_v10 (Host.divf : (⟨S16384x768, .f32⟩ : BufTy).Contents (Elt F) → (⟨S16384x768, .f32⟩ : BufTy).Contents (Elt F) → (⟨S16384x768, .f32⟩ : BufTy).Contents (Elt F)) ]
/-- The buffers stretch 3 writes. -/
def w3 : List (Ref sig .tc) := [main_call2_v0, main_call2_cst, main_call2_v1, main_call2_v2, main_v6, main_cst_1, main_v7, main_v8, main_v9, main_v10]

/-- Stretch 4. The centroid rows, each divided by the larger of its norm and ε; its result is main_v15. -/
def s4 : List (HloOp τ sig (Elt F)) :=
  [ TRef.binary (TRef.of (T := ⟨S1000x768, .f32⟩) main_arg3) (TRef.of (T := ⟨S1000x768, .f32⟩) main_arg3) (TRef.of (T := ⟨S1000x768, .f32⟩) main_call3_v0) mulf,
    TRef.nullary (TRef.of (T := ⟨S_, .f32⟩) main_call3_cst) (constant S_ .f32 0x00000000#32),
    TRef.binary (TRef.of (T := ⟨S1000x768, .f32⟩) main_call3_v0) (TRef.of (T := ⟨S_, .f32⟩) main_call3_cst) (TRef.of (T := ⟨S1000, .f32⟩) main_call3_v1) (fun x v => Host.reduceAdd x v reducesTo_S1000x768_S1000_d1 h_S_),
    TRef.unary (TRef.of (T := ⟨S1000, .f32⟩) main_call3_v1) (TRef.of (T := ⟨S1000x1, .f32⟩) main_call3_v2) (broadcastInDim S1000x1 ![0] bcast_S1000_S1000x1_0),
    TRef.unary (TRef.of (T := ⟨S1000x1, .f32⟩) main_call3_v2) (TRef.of (T := ⟨S1000x1, .f32⟩) main_v11) Host.sqrt,
    nullary main_cst_2 (constant S_ .f32 0x322BCC77#32),
    unary main_cst_2 main_v12 (broadcastInDim S1000x1 ![] bcast_S_S1000x1 : (⟨S_, .f32⟩ : BufTy).Contents (Elt F) → (⟨S1000x1, .f32⟩ : BufTy).Contents (Elt F)),
    binary main_v11 main_v12 main_v13 (maximumf : (⟨S1000x1, .f32⟩ : BufTy).Contents (Elt F) → (⟨S1000x1, .f32⟩ : BufTy).Contents (Elt F) → (⟨S1000x1, .f32⟩ : BufTy).Contents (Elt F)),
    unary main_v13 main_v14 (broadcastInDim S1000x768 ![0, 1] bcast_S1000x1_S1000x768_0_1 : (⟨S1000x1, .f32⟩ : BufTy).Contents (Elt F) → (⟨S1000x768, .f32⟩ : BufTy).Contents (Elt F)),
    binary main_arg3 main_v14 main_v15 (Host.divf : (⟨S1000x768, .f32⟩ : BufTy).Contents (Elt F) → (⟨S1000x768, .f32⟩ : BufTy).Contents (Elt F) → (⟨S1000x768, .f32⟩ : BufTy).Contents (Elt F)) ]
/-- The buffers stretch 4 writes. -/
def w4 : List (Ref sig .tc) := [main_call3_v0, main_call3_cst, main_call3_v1, main_call3_v2, main_v11, main_cst_2, main_v12, main_v13, main_v14, main_v15]

/-- Stretch 5. The similarities (dot_general), the row maximum, the exponentials, their sum, the quotient; its result is main_v27. -/
def s5 : List (HloOp τ sig (Elt F)) :=
  [ binary main_v10 main_v15 main_v16 ((fun l r => Host.dotGeneral dot_S16384x768_S1000x768_S16384x1000_1_1_0_0_n_n none l r) : (⟨S16384x768, .f32⟩ : BufTy).Contents (Elt F) → (⟨S1000x768, .f32⟩ : BufTy).Contents (Elt F) → (⟨S16384x1000, .f32⟩ : BufTy).Contents (Elt F)),
    nullary main_cst_3 (constant S_ .f32 0xFF800000#32),
    binary main_v16 main_cst_3 main_v17 ((fun x v => Host.reduce FloatOps.maximumf x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_4 (constant S_ .f32 0xFF800000#32),
    unary main_cst_4 main_v18 (broadcastInDim S16384 ![] bcast_S_S16384 : (⟨S_, .f32⟩ : BufTy).Contents (Elt F) → (⟨S16384, .f32⟩ : BufTy).Contents (Elt F)),
    binary main_v18 main_v17 main_v19 (maximumf : (⟨S16384, .f32⟩ : BufTy).Contents (Elt F) → (⟨S16384, .f32⟩ : BufTy).Contents (Elt F) → (⟨S16384, .f32⟩ : BufTy).Contents (Elt F)),
    unary main_v19 main_v20 (broadcastInDim S16384x1 ![0] bcast_S16384_S16384x1_0 : (⟨S16384, .f32⟩ : BufTy).Contents (Elt F) → (⟨S16384x1, .f32⟩ : BufTy).Contents (Elt F)),
    unary main_v20 main_v21 (broadcastInDim S16384x1000 ![0, 1] bcast_S16384x1_S16384x1000_0_1 : (⟨S16384x1, .f32⟩ : BufTy).Contents (Elt F) → (⟨S16384x1000, .f32⟩ : BufTy).Contents (Elt F)),
    binary main_v16 main_v21 main_v22 (subf : (⟨S16384x1000, .f32⟩ : BufTy).Contents (Elt F) → (⟨S16384x1000, .f32⟩ : BufTy).Contents (Elt F) → (⟨S16384x1000, .f32⟩ : BufTy).Contents (Elt F)),
    unary main_v22 main_v23 (Host.exp : (⟨S16384x1000, .f32⟩ : BufTy).Contents (Elt F) → (⟨S16384x1000, .f32⟩ : BufTy).Contents (Elt F)),
    nullary main_cst_5 (constant S_ .f32 0x00000000#32),
    binary main_v23 main_cst_5 main_v24 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    unary main_v24 main_v25 (broadcastInDim S16384x1 ![0] bcast_S16384_S16384x1_0 : (⟨S16384, .f32⟩ : BufTy).Contents (Elt F) → (⟨S16384x1, .f32⟩ : BufTy).Contents (Elt F)),
    unary main_v25 main_v26 (broadcastInDim S16384x1000 ![0, 1] bcast_S16384x1_S16384x1000_0_1 : (⟨S16384x1, .f32⟩ : BufTy).Contents (Elt F) → (⟨S16384x1000, .f32⟩ : BufTy).Contents (Elt F)),
    binary main_v23 main_v26 main_v27 (Host.divf : (⟨S16384x1000, .f32⟩ : BufTy).Contents (Elt F) → (⟨S16384x1000, .f32⟩ : BufTy).Contents (Elt F) → (⟨S16384x1000, .f32⟩ : BufTy).Contents (Elt F)) ]
/-- The buffers stretch 5 writes. -/
def w5 : List (Ref sig .tc) := [main_v16, main_cst_3, main_v17, main_cst_4, main_v18, main_v19, main_v20, main_v21, main_v22, main_v23, main_cst_5, main_v24, main_v25, main_v26, main_v27]

/-- Stretch 6. The one-hot rows of the labels; its result is main_v28. -/
def s6 : List (HloOp τ sig (Elt F)) :=
  [ TRef.unary (TRef.of (T := ⟨S16384, .i32⟩) main_arg2) (TRef.of (T := ⟨S16384x1, .i32⟩) main_call4_v0) (broadcastInDim S16384x1 ![0] bcast_S16384_S16384x1_0),
    TRef.nullary (TRef.of (T := ⟨S1x1000, .i32⟩) main_call4_v1) (iotaInDim S1x1000 32 1),
    TRef.unary (TRef.of (T := ⟨S16384x1, .i32⟩) main_call4_v0) (TRef.of (T := ⟨S16384x1000, .i32⟩) main_call4_v2) (broadcastInDim S16384x1000 ![0, 1] bcast_S16384x1_S16384x1000_0_1),
    TRef.unary (TRef.of (T := ⟨S1x1000, .i32⟩) main_call4_v1) (TRef.of (T := ⟨S16384x1000, .i32⟩) main_call4_v3) (broadcastInDim S16384x1000 ![0, 1] bcast_S1x1000_S16384x1000_0_1),
    TRef.binary (TRef.of (T := ⟨S16384x1000, .i32⟩) main_call4_v2) (TRef.of (T := ⟨S16384x1000, .i32⟩) main_call4_v3) (TRef.of (T := ⟨S16384x1000, .i1⟩) main_call4_v4) (cmpi .eq),
    TRef.unary (TRef.of (T := ⟨S16384x1000, .i1⟩) main_call4_v4) (TRef.of (T := ⟨S16384x1000, .f32⟩) main_v28) (uitofp .f32) ]
/-- The buffers stretch 6 writes. -/
def w6 : List (Ref sig .tc) := [main_call4_v0, main_call4_v1, main_call4_v2, main_call4_v3, main_call4_v4, main_v28]

/-- Stretch 7. The labelled class's weight per row, one minus it, the mean, times the last argument; its result is main_v36. -/
def s7 : List (HloOp τ sig (Elt F)) :=
  [ binary main_v27 main_v28 main_v29 (mulf : (⟨S16384x1000, .f32⟩ : BufTy).Contents (Elt F) → (⟨S16384x1000, .f32⟩ : BufTy).Contents (Elt F) → (⟨S16384x1000, .f32⟩ : BufTy).Contents (Elt F)),
    nullary main_cst_6 (constant S_ .f32 0x00000000#32),
    binary main_v29 main_cst_6 main_v30 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_7 (constant S_ .f32 0x3F800000#32),
    unary main_cst_7 main_v31 (broadcastInDim S16384 ![] bcast_S_S16384 : (⟨S_, .f32⟩ : BufTy).Contents (Elt F) → (⟨S16384, .f32⟩ : BufTy).Contents (Elt F)),
    binary main_v31 main_v30 main_v32 (subf : (⟨S16384, .f32⟩ : BufTy).Contents (Elt F) → (⟨S16384, .f32⟩ : BufTy).Contents (Elt F) → (⟨S16384, .f32⟩ : BufTy).Contents (Elt F)),
    nullary main_cst_8 (constant S_ .f32 0x00000000#32),
    binary main_v32 main_cst_8 main_v33 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_9 (constant S_ .f32 0x46800000#32),
    binary main_v33 main_cst_9 main_v34 (Host.divf : (⟨S_, .f32⟩ : BufTy).Contents (Elt F) → (⟨S_, .f32⟩ : BufTy).Contents (Elt F) → (⟨S_, .f32⟩ : BufTy).Contents (Elt F)),
    unary main_v34 main_v35 (broadcastInDim S1 ![] bcast_S_S1 : (⟨S_, .f32⟩ : BufTy).Contents (Elt F) → (⟨S1, .f32⟩ : BufTy).Contents (Elt F)),
    binary main_v35 main_arg4 main_v36 (mulf : (⟨S1, .f32⟩ : BufTy).Contents (Elt F) → (⟨S1, .f32⟩ : BufTy).Contents (Elt F) → (⟨S1, .f32⟩ : BufTy).Contents (Elt F)) ]
/-- The buffers stretch 7 writes. -/
def w7 : List (Ref sig .tc) := [main_v29, main_cst_6, main_v30, main_cst_7, main_v31, main_v32, main_cst_8, main_v33, main_cst_9, main_v34, main_v35, main_v36]

/-- Stretch 8. The squared distance from the one-hot rows, its mean, the three terms added; its result is main_v43. -/
def s8 : List (HloOp τ sig (Elt F)) :=
  [ binary main_v28 main_v27 main_v37 (subf : (⟨S16384x1000, .f32⟩ : BufTy).Contents (Elt F) → (⟨S16384x1000, .f32⟩ : BufTy).Contents (Elt F) → (⟨S16384x1000, .f32⟩ : BufTy).Contents (Elt F)),
    binary main_v37 main_v37 main_v38 (mulf : (⟨S16384x1000, .f32⟩ : BufTy).Contents (Elt F) → (⟨S16384x1000, .f32⟩ : BufTy).Contents (Elt F) → (⟨S16384x1000, .f32⟩ : BufTy).Contents (Elt F)),
    nullary main_cst_10 (constant S_ .f32 0x00000000#32),
    binary main_v38 main_cst_10 main_v39 ((fun x v => Host.reduceAdd x v reducesTo_S16384x1000_S_d0_1 h_S_) : (⟨S16384x1000, .f32⟩ : BufTy).Contents (Elt F) → (⟨S_, .f32⟩ : BufTy).Contents (Elt F) → (⟨S_, .f32⟩ : BufTy).Contents (Elt F)),
    nullary main_cst_11 (constant S_ .f32 0x4B7A0000#32),
    binary main_v39 main_cst_11 main_v40 (Host.divf : (⟨S_, .f32⟩ : BufTy).Contents (Elt F) → (⟨S_, .f32⟩ : BufTy).Contents (Elt F) → (⟨S_, .f32⟩ : BufTy).Contents (Elt F)),
    binary main_v5 main_v40 main_v41 (addf : (⟨S_, .f32⟩ : BufTy).Contents (Elt F) → (⟨S_, .f32⟩ : BufTy).Contents (Elt F) → (⟨S_, .f32⟩ : BufTy).Contents (Elt F)),
    unary main_v41 main_v42 (broadcastInDim S1 ![] bcast_S_S1 : (⟨S_, .f32⟩ : BufTy).Contents (Elt F) → (⟨S1, .f32⟩ : BufTy).Contents (Elt F)),
    binary main_v42 main_v36 main_v43 (addf : (⟨S1, .f32⟩ : BufTy).Contents (Elt F) → (⟨S1, .f32⟩ : BufTy).Contents (Elt F) → (⟨S1, .f32⟩ : BufTy).Contents (Elt F)) ]
/-- The buffers stretch 8 writes. -/
def w8 : List (Ref sig .tc) := [main_v37, main_v38, main_cst_10, main_v39, main_cst_11, main_v40, main_v41, main_v42, main_v43]

set_option maxRecDepth 8192 in
set_option maxHeartbeats 1000000 in
/-- The operations are the eight stretches in a row. -/
theorem ops_eq : ValueP.ops (F := F) = s1 ++ (s2 ++ (s3 ++ (s4 ++ (s5 ++ (s6 ++ (s7 ++ s8)))))) := rfl

/-! ## What each stretch leaves unchanged -/

theorem s1_writes : (s1 : List (HloOp τ sig (Elt F))).Forall fun op => op.writes ⊆ (w1.map (Proc.devRef (τ := τ) .tc)).toFinset := by
  unfold s1
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr1 (W : Valuation τ sig (Elt F)) {r : Ref sig .tc} (hr : r ∉ w1) :
    after (s1 (F := F)) W (Proc.devRef .tc r) = W (Proc.devRef .tc r) :=
  after_of_writes_sub s1 W s1_writes hr

theorem s2_writes : (s2 : List (HloOp τ sig (Elt F))).Forall fun op => op.writes ⊆ (w2.map (Proc.devRef (τ := τ) .tc)).toFinset := by
  unfold s2
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr2 (W : Valuation τ sig (Elt F)) {r : Ref sig .tc} (hr : r ∉ w2) :
    after (s2 (F := F)) W (Proc.devRef .tc r) = W (Proc.devRef .tc r) :=
  after_of_writes_sub s2 W s2_writes hr

theorem s3_writes : (s3 : List (HloOp τ sig (Elt F))).Forall fun op => op.writes ⊆ (w3.map (Proc.devRef (τ := τ) .tc)).toFinset := by
  unfold s3
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr3 (W : Valuation τ sig (Elt F)) {r : Ref sig .tc} (hr : r ∉ w3) :
    after (s3 (F := F)) W (Proc.devRef .tc r) = W (Proc.devRef .tc r) :=
  after_of_writes_sub s3 W s3_writes hr

theorem s4_writes : (s4 : List (HloOp τ sig (Elt F))).Forall fun op => op.writes ⊆ (w4.map (Proc.devRef (τ := τ) .tc)).toFinset := by
  unfold s4
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr4 (W : Valuation τ sig (Elt F)) {r : Ref sig .tc} (hr : r ∉ w4) :
    after (s4 (F := F)) W (Proc.devRef .tc r) = W (Proc.devRef .tc r) :=
  after_of_writes_sub s4 W s4_writes hr

theorem s5_writes : (s5 : List (HloOp τ sig (Elt F))).Forall fun op => op.writes ⊆ (w5.map (Proc.devRef (τ := τ) .tc)).toFinset := by
  unfold s5
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr5 (W : Valuation τ sig (Elt F)) {r : Ref sig .tc} (hr : r ∉ w5) :
    after (s5 (F := F)) W (Proc.devRef .tc r) = W (Proc.devRef .tc r) :=
  after_of_writes_sub s5 W s5_writes hr

theorem s6_writes : (s6 : List (HloOp τ sig (Elt F))).Forall fun op => op.writes ⊆ (w6.map (Proc.devRef (τ := τ) .tc)).toFinset := by
  unfold s6
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr6 (W : Valuation τ sig (Elt F)) {r : Ref sig .tc} (hr : r ∉ w6) :
    after (s6 (F := F)) W (Proc.devRef .tc r) = W (Proc.devRef .tc r) :=
  after_of_writes_sub s6 W s6_writes hr

theorem s7_writes : (s7 : List (HloOp τ sig (Elt F))).Forall fun op => op.writes ⊆ (w7.map (Proc.devRef (τ := τ) .tc)).toFinset := by
  unfold s7
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr7 (W : Valuation τ sig (Elt F)) {r : Ref sig .tc} (hr : r ∉ w7) :
    after (s7 (F := F)) W (Proc.devRef .tc r) = W (Proc.devRef .tc r) :=
  after_of_writes_sub s7 W s7_writes hr

theorem s8_writes : (s8 : List (HloOp τ sig (Elt F))).Forall fun op => op.writes ⊆ (w8.map (Proc.devRef (τ := τ) .tc)).toFinset := by
  unfold s8
  simp only [List.Forall, StableHlo.nullary_writes, StableHlo.unary_writes, StableHlo.binary_writes, StableHlo.ternary_writes, StableHlo.reshape_writes, Finset.singleton_subset_iff, List.mem_toFinset]
  repeat' constructor
  all_goals exact List.mem_map_of_mem (by decide)

theorem fr8 (W : Valuation τ sig (Elt F)) {r : Ref sig .tc} (hr : r ∉ w8) :
    after (s8 (F := F)) W (Proc.devRef .tc r) = W (Proc.devRef .tc r) :=
  after_of_writes_sub s8 W s8_writes hr

/-! ## What each stretch computes

Each from arbitrary contents W, the contents of the buffers it reads named by hypotheses. The composed term of the
stretch's operations is compared with the stage only after the transports of the typed references are gone: a
transport left around an operation would make the comparison open that operation element by element. -/

set_option maxRecDepth 8192 in
theorem st1 (W : Valuation τ sig (Elt F)) (ha1 : W (Proc.devRef .tc main_arg1) = x1) :
    after (s1 (F := F)) W (Proc.devRef .tc main_v0) = ReadP.val_main_v0 (F := F) x1 := by
  unfold s1
  after_results_simp
  refine (toBuf_main_v0 _).trans ?_
  rw [ha1]
  simp only [TRef.ofBuf, TRef.toBuf]
  simp only [cast_cast_cancel]
  rfl

set_option maxRecDepth 8192 in
theorem st2 (W : Valuation τ sig (Elt F)) (hv0 : W (Proc.devRef .tc main_v0) = ReadP.val_main_v0 (F := F) x1) (ha2 : W (Proc.devRef .tc main_arg2) = x2) :
    after (s2 (F := F)) W (Proc.devRef .tc main_v5) = ReadP.val_main_v5 (F := F) x1 x2 := by
  unfold s2
  after_results_simp
  rw [toBuf_main_v2]
  rw [hv0, ha2]
  simp only [TRef.ofBuf, TRef.toBuf]
  simp only [cast_cast_cancel]
  rfl

set_option maxRecDepth 8192 in
theorem st3 (W : Valuation τ sig (Elt F)) (ha0 : W (Proc.devRef .tc main_arg0) = x0) :
    after (s3 (F := F)) W (Proc.devRef .tc main_v10) = ReadP.val_main_v10 (F := F) x0 := by
  unfold s3
  after_results_simp
  rw [toBuf_main_v6]
  rw [ha0]
  simp only [TRef.ofBuf, TRef.toBuf]
  simp only [cast_cast_cancel]
  rfl

set_option maxRecDepth 8192 in
theorem st4 (W : Valuation τ sig (Elt F)) (ha3 : W (Proc.devRef .tc main_arg3) = x3) :
    after (s4 (F := F)) W (Proc.devRef .tc main_v15) = ReadP.val_main_v15 (F := F) x3 := by
  unfold s4
  after_results_simp
  rw [toBuf_main_v11]
  rw [ha3]
  simp only [TRef.ofBuf, TRef.toBuf]
  simp only [cast_cast_cancel]
  rfl

set_option maxRecDepth 8192 in
theorem st5 (W : Valuation τ sig (Elt F)) (hv10 : W (Proc.devRef .tc main_v10) = ReadP.val_main_v10 (F := F) x0) (hv15 : W (Proc.devRef .tc main_v15) = ReadP.val_main_v15 (F := F) x3) :
    after (s5 (F := F)) W (Proc.devRef .tc main_v27) = ReadP.val_main_v27 (F := F) x0 x3 := by
  unfold s5
  after_results_simp
  rw [hv10, hv15]
  rfl

set_option maxRecDepth 8192 in
theorem st6 (W : Valuation τ sig (Elt F)) (ha2 : W (Proc.devRef .tc main_arg2) = x2) :
    after (s6 (F := F)) W (Proc.devRef .tc main_v28) = ReadP.val_main_v28 (F := F) x2 := by
  unfold s6
  after_results_simp
  refine (toBuf_main_v28 _).trans ?_
  rw [ha2]
  simp only [TRef.ofBuf, TRef.toBuf]
  simp only [cast_cast_cancel]
  rfl

set_option maxRecDepth 8192 in
theorem st7 (W : Valuation τ sig (Elt F)) (hv27 : W (Proc.devRef .tc main_v27) = ReadP.val_main_v27 (F := F) x0 x3) (hv28 : W (Proc.devRef .tc main_v28) = ReadP.val_main_v28 (F := F) x2) (ha4 : W (Proc.devRef .tc main_arg4) = x4) :
    after (s7 (F := F)) W (Proc.devRef .tc main_v36) = ReadP.val_main_v36 (F := F) x0 x2 x3 x4 := by
  unfold s7
  after_results_simp
  rw [hv27, hv28, ha4]
  rfl

set_option maxRecDepth 8192 in
theorem st8 (W : Valuation τ sig (Elt F)) (hv27 : W (Proc.devRef .tc main_v27) = ReadP.val_main_v27 (F := F) x0 x3) (hv28 : W (Proc.devRef .tc main_v28) = ReadP.val_main_v28 (F := F) x2) (hv5 : W (Proc.devRef .tc main_v5) = ReadP.val_main_v5 (F := F) x1 x2) (hv36 : W (Proc.devRef .tc main_v36) = ReadP.val_main_v36 (F := F) x0 x2 x3 x4) :
    after (s8 (F := F)) W (Proc.devRef .tc main_v43) = ReadP.val_main_v43 (F := F) x0 x1 x2 x3 x4 := by
  unfold s8
  after_results_simp
  rw [hv27, hv28, hv5, hv36]
  rfl

/-! ## The stretches composed, from the last backwards -/

theorem tail7 (W : Valuation τ sig (Elt F)) (hv27 : W (Proc.devRef .tc main_v27) = ReadP.val_main_v27 (F := F) x0 x3) (hv28 : W (Proc.devRef .tc main_v28) = ReadP.val_main_v28 (F := F) x2) (hv5 : W (Proc.devRef .tc main_v5) = ReadP.val_main_v5 (F := F) x1 x2) (ha4 : W (Proc.devRef .tc main_arg4) = x4) :
    after s8 (after s7 W) (Proc.devRef .tc main_v43) = ReadP.val_main_v43 (F := F) x0 x1 x2 x3 x4 :=
  st8 (after s7 W) ((fr7 W (by decide)).trans hv27) ((fr7 W (by decide)).trans hv28) ((fr7 W (by decide)).trans hv5) (st7 W hv27 hv28 ha4)

theorem tail6 (W : Valuation τ sig (Elt F)) (hv27 : W (Proc.devRef .tc main_v27) = ReadP.val_main_v27 (F := F) x0 x3) (hv5 : W (Proc.devRef .tc main_v5) = ReadP.val_main_v5 (F := F) x1 x2) (ha2 : W (Proc.devRef .tc main_arg2) = x2) (ha4 : W (Proc.devRef .tc main_arg4) = x4) :
    after s8 (after s7 (after s6 W)) (Proc.devRef .tc main_v43) = ReadP.val_main_v43 (F := F) x0 x1 x2 x3 x4 :=
  tail7 (after s6 W) ((fr6 W (by decide)).trans hv27) (st6 W ha2) ((fr6 W (by decide)).trans hv5) ((fr6 W (by decide)).trans ha4)

theorem tail5 (W : Valuation τ sig (Elt F)) (hv10 : W (Proc.devRef .tc main_v10) = ReadP.val_main_v10 (F := F) x0) (hv15 : W (Proc.devRef .tc main_v15) = ReadP.val_main_v15 (F := F) x3) (hv5 : W (Proc.devRef .tc main_v5) = ReadP.val_main_v5 (F := F) x1 x2) (ha2 : W (Proc.devRef .tc main_arg2) = x2) (ha4 : W (Proc.devRef .tc main_arg4) = x4) :
    after s8 (after s7 (after s6 (after s5 W))) (Proc.devRef .tc main_v43) = ReadP.val_main_v43 (F := F) x0 x1 x2 x3 x4 :=
  tail6 (after s5 W) (st5 W hv10 hv15) ((fr5 W (by decide)).trans hv5) ((fr5 W (by decide)).trans ha2) ((fr5 W (by decide)).trans ha4)

theorem tail4 (W : Valuation τ sig (Elt F)) (hv10 : W (Proc.devRef .tc main_v10) = ReadP.val_main_v10 (F := F) x0) (ha3 : W (Proc.devRef .tc main_arg3) = x3) (hv5 : W (Proc.devRef .tc main_v5) = ReadP.val_main_v5 (F := F) x1 x2) (ha2 : W (Proc.devRef .tc main_arg2) = x2) (ha4 : W (Proc.devRef .tc main_arg4) = x4) :
    after s8 (after s7 (after s6 (after s5 (after s4 W)))) (Proc.devRef .tc main_v43) = ReadP.val_main_v43 (F := F) x0 x1 x2 x3 x4 :=
  tail5 (after s4 W) ((fr4 W (by decide)).trans hv10) (st4 W ha3) ((fr4 W (by decide)).trans hv5) ((fr4 W (by decide)).trans ha2) ((fr4 W (by decide)).trans ha4)

theorem tail3 (W : Valuation τ sig (Elt F)) (ha0 : W (Proc.devRef .tc main_arg0) = x0) (ha3 : W (Proc.devRef .tc main_arg3) = x3) (hv5 : W (Proc.devRef .tc main_v5) = ReadP.val_main_v5 (F := F) x1 x2) (ha2 : W (Proc.devRef .tc main_arg2) = x2) (ha4 : W (Proc.devRef .tc main_arg4) = x4) :
    after s8 (after s7 (after s6 (after s5 (after s4 (after s3 W))))) (Proc.devRef .tc main_v43) = ReadP.val_main_v43 (F := F) x0 x1 x2 x3 x4 :=
  tail4 (after s3 W) (st3 W ha0) ((fr3 W (by decide)).trans ha3) ((fr3 W (by decide)).trans hv5) ((fr3 W (by decide)).trans ha2) ((fr3 W (by decide)).trans ha4)

theorem tail2 (W : Valuation τ sig (Elt F)) (ha0 : W (Proc.devRef .tc main_arg0) = x0) (hv0 : W (Proc.devRef .tc main_v0) = ReadP.val_main_v0 (F := F) x1) (ha2 : W (Proc.devRef .tc main_arg2) = x2) (ha3 : W (Proc.devRef .tc main_arg3) = x3) (ha4 : W (Proc.devRef .tc main_arg4) = x4) :
    after s8 (after s7 (after s6 (after s5 (after s4 (after s3 (after s2 W)))))) (Proc.devRef .tc main_v43) = ReadP.val_main_v43 (F := F) x0 x1 x2 x3 x4 :=
  tail3 (after s2 W) ((fr2 W (by decide)).trans ha0) ((fr2 W (by decide)).trans ha3) (st2 W hv0 ha2) ((fr2 W (by decide)).trans ha2) ((fr2 W (by decide)).trans ha4)

theorem tail1 (W : Valuation τ sig (Elt F)) (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) :
    after s8 (after s7 (after s6 (after s5 (after s4 (after s3 (after s2 (after s1 W))))))) (Proc.devRef .tc main_v43) = ReadP.val_main_v43 (F := F) x0 x1 x2 x3 x4 :=
  tail2 (after s1 W) ((fr1 W (by decide)).trans ha0) (st1 W ha1) ((fr1 W (by decide)).trans ha2) ((fr1 W (by decide)).trans ha3) ((fr1 W (by decide)).trans ha4)

/-! ## The run -/

theorem after_v43 (V : Valuation τ sig (Elt F)) :
    after (ValueP.ops (F := F)) V (Proc.devRef .tc main_v43)
      = ReadP.val_main_v43 (F := F) (V (Proc.devRef .tc main_arg0)) (V (Proc.devRef .tc main_arg1)) (V (Proc.devRef .tc main_arg2)) (V (Proc.devRef .tc main_arg3)) (V (Proc.devRef .tc main_arg4)) := by
  rw [ops_eq]
  simp only [after_append]
  exact tail1 V rfl rfl rfl rfl rfl

/-- A buffer none of the eight stretches writes keeps its contents. -/
theorem after_frame (V : Valuation τ sig (Elt F)) {r : Ref sig .tc} (h1 : r ∉ w1) (h2 : r ∉ w2) (h3 : r ∉ w3) (h4 : r ∉ w4)
    (h5 : r ∉ w5) (h6 : r ∉ w6) (h7 : r ∉ w7) (h8 : r ∉ w8) :
    after (ValueP.ops (F := F)) V (Proc.devRef .tc r) = V (Proc.devRef .tc r) := by
  rw [ops_eq]
  simp only [after_append]
  rw [fr8 _ h8, fr7 _ h7, fr6 _ h6, fr5 _ h5, fr4 _ h4, fr3 _ h3, fr2 _ h2, fr1 _ h1]

theorem after_arg0 (V : Valuation τ sig (Elt F)) : after (ValueP.ops (F := F)) V (Proc.devRef .tc main_arg0) = V (Proc.devRef .tc main_arg0) :=
  after_frame V (by decide) (by decide) (by decide) (by decide) (by decide) (by decide) (by decide) (by decide)
theorem after_arg1 (V : Valuation τ sig (Elt F)) : after (ValueP.ops (F := F)) V (Proc.devRef .tc main_arg1) = V (Proc.devRef .tc main_arg1) :=
  after_frame V (by decide) (by decide) (by decide) (by decide) (by decide) (by decide) (by decide) (by decide)
theorem after_arg2 (V : Valuation τ sig (Elt F)) : after (ValueP.ops (F := F)) V (Proc.devRef .tc main_arg2) = V (Proc.devRef .tc main_arg2) :=
  after_frame V (by decide) (by decide) (by decide) (by decide) (by decide) (by decide) (by decide) (by decide)
theorem after_arg3 (V : Valuation τ sig (Elt F)) : after (ValueP.ops (F := F)) V (Proc.devRef .tc main_arg3) = V (Proc.devRef .tc main_arg3) :=
  after_frame V (by decide) (by decide) (by decide) (by decide) (by decide) (by decide) (by decide) (by decide)
theorem after_arg4 (V : Valuation τ sig (Elt F)) : after (ValueP.ops (F := F)) V (Proc.devRef .tc main_arg4) = V (Proc.devRef .tc main_arg4) :=
  after_frame V (by decide) (by decide) (by decide) (by decide) (by decide) (by decide) (by decide) (by decide)

end Cert.ReferenceIdeal.Stages

end
-- ==== Proof.RefSim.lean ====
/-
  The reference's similarity and softmax stages read at (row n, class k): the softmax weight of the cosine
  similarities, and the one-hot row of the label.
-/
import proofs.«429917_j84688165142889_2_alg».proof.Proof.RefReadP
import proofs.«429917_j84688165142889_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefSim

open Cert.ReferenceIdeal Cert.ReferenceIdeal.Gen Idealize.ShloMosaic Idealize.ShloMosaic.TcCoe Idealize.SL.Sem Idealize.ShloMosaic.ValueIdx

/-! ### A row divided by the larger of its norm and ε -/

/-- Entry (n, d)'s norm is read at row n: through the two broadcasts, the summed axis runs over row n's coordinates. -/
theorem idx_embRow (n : Fin 16384) (d k : Fin 768) :
    ReadP.idx_main_call2_v1 (ReadP.idx_main_call2_v2 (ReadP.idx_main_v9 (ix2 n d))) k = ix2 n k :=
  funext fun a => Fin.ext (by match a with | ⟨0, _⟩ => rfl | ⟨1, _⟩ => rfl)

/-- The same for the centroid table: entry (c, d)'s norm is summed over row c's coordinates. -/
theorem idx_cenRow (c : Fin 1000) (d k : Fin 768) :
    ReadP.idx_main_call3_v1 (ReadP.idx_main_call3_v2 (ReadP.idx_main_v14 (ix2 c d))) k = ix2 c k :=
  funext fun a => Fin.ext (by match a with | ⟨0, _⟩ => rfl | ⟨1, _⟩ => rfl)

/-- The normalised embedding at (n, d): x / max(√Σ x², ε) over row n. -/
theorem v10_apply (x0 : (⟨S16384x768, .f32⟩ : BufTy).Contents (Elt Ideal)) (n : Fin 16384) (d : Fin 768) :
    ReadP.val_main_v10 (F := Ideal) x0 (ix2 n d) = Loss.unit (fun d => x0 (ix2 n d)) d := by
  rw [ReadP.val_main_v10_apply, ReadP.val_main_v9_apply, ReadP.val_main_v8_apply, ReadP.val_main_v6_apply,
    ReadP.val_main_v7_apply, ReadP.val_main_cst_1_apply, ReadP.val_main_call2_v2_apply, ReadP.val_main_call2_v1_apply,
    ReadP.val_main_call2_cst_apply]
  simp only [ReadP.val_main_call2_v0_apply, idx_embRow, Ideal.hostDivf_def, Ideal.hostUnary_sqrt_def,
    Ideal.maximumf_def, Ideal.mulf_def, Ideal.ofBits_def, Ideal.ofBits_zero_f32, zero_add]
  rfl

/-- The normalised centroid at (c, d). -/
theorem v15_apply (x3 : (⟨S1000x768, .f32⟩ : BufTy).Contents (Elt Ideal)) (c : Fin 1000) (d : Fin 768) :
    ReadP.val_main_v15 (F := Ideal) x3 (ix2 c d) = Loss.unit (fun d => x3 (ix2 c d)) d := by
  rw [ReadP.val_main_v15_apply, ReadP.val_main_v14_apply, ReadP.val_main_v13_apply, ReadP.val_main_v11_apply,
    ReadP.val_main_v12_apply, ReadP.val_main_cst_2_apply, ReadP.val_main_call3_v2_apply, ReadP.val_main_call3_v1_apply,
    ReadP.val_main_call3_cst_apply]
  simp only [ReadP.val_main_call3_v0_apply, idx_cenRow, Ideal.hostDivf_def, Ideal.hostUnary_sqrt_def,
    Ideal.maximumf_def, Ideal.mulf_def, Ideal.ofBits_def, Ideal.ofBits_zero_f32, zero_add]
  rfl

/-! ### The similarities of row n -/

/-- The contraction's left index at (n, k) runs over embedding row n. -/
theorem idx_simLeft (n : Fin 16384) (k : Fin 1000) (d : Fin 768) : ReadP.lidx_main_v16 (ix2 n k) d = ix2 n d :=
  funext fun a => Fin.ext (by match a with | ⟨0, _⟩ => rfl | ⟨1, _⟩ => rfl)

/-- The contraction's right index at (n, k) runs over centroid row k. -/
theorem idx_simRight (n : Fin 16384) (k : Fin 1000) (d : Fin 768) : ReadP.ridx_main_v16 (ix2 n k) d = ix2 k d :=
  funext fun a => Fin.ext (by match a with | ⟨0, _⟩ => rfl | ⟨1, _⟩ => rfl)

/-- Entry (n, k) of the product: the inner product of normalised row n with normalised centroid k. -/
theorem v16_apply (x0 : (⟨S16384x768, .f32⟩ : BufTy).Contents (Elt Ideal)) (x3 : (⟨S1000x768, .f32⟩ : BufTy).Contents (Elt Ideal))
    (n : Fin 16384) (k : Fin 1000) :
    ReadP.val_main_v16 (F := Ideal) x0 x3 (ix2 n k)
      = Loss.rowSim (fun n d => x0 (ix2 n d)) (fun k d => x3 (ix2 k d)) n k := by
  rw [ReadP.val_main_v16_apply]
  simp only [idx_simLeft, idx_simRight, v10_apply, v15_apply]
  rfl

/-! ### The row maximum -/

/-- −∞ is the bottom of the extended reals. -/
theorem negInf_eq_bot : Loss.negInf = ⊥ := by
  simp [Loss.negInf, Ideal.ofBits, Ideal.ieee]

/-- Row n with class k put back on the reduced axis is (n, k). -/
theorem lift_row (h : S16384x1000.Reduces [1] S16384) (n : Fin 16384) (k : Fin (S16384x1000.size 1)) :
    h.lift (ix1 n) k = ix2 n (⟨k.val, k.isLt⟩ : Fin 1000) :=
  funext fun c => Fin.ext (by match c with | ⟨0, _⟩ => rfl | ⟨1, _⟩ => rfl)

/-- The reduce with a maximum body over the classes, at row n, is the fold of max from −∞ over row n's similarities. -/
theorem v17_apply (x0 : (⟨S16384x768, .f32⟩ : BufTy).Contents (Elt Ideal)) (x3 : (⟨S1000x768, .f32⟩ : BufTy).Contents (Elt Ideal))
    (n : Fin 16384) :
    ReadP.val_main_v17 (F := Ideal) x0 x3 (ix1 n)
      = Loss.rowmax (Loss.rowSim (fun n d => x0 (ix2 n d)) (fun k d => x3 (ix2 k d)) n) := by
  have h : S16384x1000.Reduces [1] S16384 := by decide
  unfold ReadP.val_main_v17
  rw [Host.reduce_eq_fold_single FloatOps.maximumf _ _ reducesTo_S16384x1000_S16384_d1 h h_S_]
  have hf : (ReadP.val_main_v16 (F := Ideal) x0 x3 ∘ h.lift (ix1 n))
      = fun k : Fin 1000 => Loss.rowSim (fun n d => x0 (ix2 n d)) (fun k d => x3 (ix2 k d)) n k :=
    funext fun k => (congrArg (ReadP.val_main_v16 (F := Ideal) x0 x3) (lift_row h n k)).trans (v16_apply x0 x3 n k)
  exact congrArg (fun f => Finset.fold max Loss.negInf f (Finset.univ : Finset (Fin 1000))) hf

/-- Taking the larger of −∞ and the row maximum changes nothing. -/
theorem v19_apply (x0 : (⟨S16384x768, .f32⟩ : BufTy).Contents (Elt Ideal)) (x3 : (⟨S1000x768, .f32⟩ : BufTy).Contents (Elt Ideal))
    (n : Fin 16384) :
    ReadP.val_main_v19 (F := Ideal) x0 x3 (ix1 n)
      = Loss.rowmax (Loss.rowSim (fun n d => x0 (ix2 n d)) (fun k d => x3 (ix2 k d)) n) := by
  rw [ReadP.val_main_v19_apply, ReadP.val_main_v18_apply, ReadP.val_main_cst_4_apply, v17_apply]
  simp only [Ideal.maximumf_def, Ideal.ofBits_def]
  exact (congrArg (fun b => max b _) negInf_eq_bot).trans (max_bot_left _)

/-! ### The softmax weights -/

/-- Entry (n, k)'s row maximum is read at row n. -/
theorem idx_maxRow (n : Fin 16384) (k : Fin 1000) : ReadP.idx_main_v20 (ReadP.idx_main_v21 (ix2 n k)) = ix1 n :=
  funext fun a => Fin.ext (by match a with | ⟨0, _⟩ => rfl)

/-- exp of the similarity less the row maximum, at (n, k). -/
theorem v23_apply (x0 : (⟨S16384x768, .f32⟩ : BufTy).Contents (Elt Ideal)) (x3 : (⟨S1000x768, .f32⟩ : BufTy).Contents (Elt Ideal))
    (n : Fin 16384) (k : Fin 1000) :
    ReadP.val_main_v23 (F := Ideal) x0 x3 (ix2 n k)
      = Loss.ex (Loss.rowSim (fun n d => x0 (ix2 n d)) (fun k d => x3 (ix2 k d)) n) k := by
  rw [ReadP.val_main_v23_apply, ReadP.val_main_v22_apply, ReadP.val_main_v21_apply, ReadP.val_main_v20_apply, idx_maxRow,
    v19_apply, v16_apply]
  simp only [Ideal.hostUnary_exp_def, Ideal.subf_def]
  rfl

/-- Row n's summed axis runs over the classes. -/
theorem idx_sumRow (n : Fin 16384) (k : Fin 1000) : ReadP.idx_main_v24 (ix1 n) k = ix2 n k :=
  funext fun a => Fin.ext (by match a with | ⟨0, _⟩ => rfl | ⟨1, _⟩ => rfl)

/-- The normaliser of row n: the sum of its weights over the classes. -/
theorem v24_apply (x0 : (⟨S16384x768, .f32⟩ : BufTy).Contents (Elt Ideal)) (x3 : (⟨S1000x768, .f32⟩ : BufTy).Contents (Elt Ideal))
    (n : Fin 16384) :
    ReadP.val_main_v24 (F := Ideal) x0 x3 (ix1 n)
      = ∑ c : Fin 1000, Loss.ex (Loss.rowSim (fun n d => x0 (ix2 n d)) (fun k d => x3 (ix2 k d)) n) c := by
  rw [ReadP.val_main_v24_apply, ReadP.val_main_cst_5_apply]
  simp only [idx_sumRow, v23_apply, Ideal.ofBits_def, Ideal.ofBits_zero_f32, zero_add]

/-- Entry (n, k)'s normaliser is read at row n. -/
theorem idx_normRow (n : Fin 16384) (k : Fin 1000) : ReadP.idx_main_v25 (ReadP.idx_main_v26 (ix2 n k)) = ix1 n :=
  funext fun a => Fin.ext (by match a with | ⟨0, _⟩ => rfl)

/-- The softmax of row n's cosine similarities, at class k. -/
theorem v27_apply (x0 : (⟨S16384x768, .f32⟩ : BufTy).Contents (Elt Ideal)) (x3 : (⟨S1000x768, .f32⟩ : BufTy).Contents (Elt Ideal)) (n : Fin 16384) (k : Fin 1000) :
    ReadP.val_main_v27 (F := Ideal) x0 x3 (ix2 n k)
      = Loss.soft (Loss.rowSim (fun n d => x0 (ix2 n d)) (fun k d => x3 (ix2 k d)) n) k := by
  rw [ReadP.val_main_v27_apply, ReadP.val_main_v26_apply, ReadP.val_main_v25_apply, idx_normRow, v24_apply, v23_apply]
  simp only [Ideal.hostDivf_def]
  rfl

/-! ### The one-hot row -/

/-- Entry (n, k)'s label is read at row n. -/
theorem idx_labelRow (n : Fin 16384) (k : Fin 1000) : ReadP.idx_main_call4_v0 (ReadP.idx_main_call4_v2 (ix2 n k)) = ix1 n :=
  funext fun a => Fin.ext (by match a with | ⟨0, _⟩ => rfl)

/-- An equality test's one-bit word, read as an unsigned number, is 1 when the words agree and 0 otherwise. -/
theorem uitofp_cmpi_eq (a b : BitVec 32) :
    FloatOps.uitofp (F := Ideal) .f32 (IntOp.cmpi .eq a b) = if a = b then 1 else 0 := by
  by_cases hab : a = b
  · rw [if_pos hab, StableHlo.Predicate.cmpi_eq_iff.2 hab]
    show (((1#1 : BitVec 1).toNat : ℝ) : EReal) = 1
    simp
  · rw [if_neg hab, eq_zero_of_ne_one (fun h => hab (StableHlo.Predicate.cmpi_eq_iff.1 h))]
    show (((0#1 : BitVec 1).toNat : ℝ) : EReal) = 0
    simp

/-- The one-hot row of label n, at class k. -/
theorem v28_apply (x2 : (⟨S16384, .i32⟩ : BufTy).Contents (Elt Ideal)) (n : Fin 16384) (k : Fin 1000) :
    ReadP.val_main_v28 (F := Ideal) x2 (ix2 n k) = Loss.hot (x2 (ix1 n)) k := by
  rw [ReadP.val_main_v28_apply, ReadP.val_main_call4_v4_apply, ReadP.val_main_call4_v2_apply, ReadP.val_main_call4_v0_apply,
    idx_labelRow, ReadP.val_main_call4_v3_apply, ReadP.val_main_call4_v1_apply]
  exact uitofp_cmpi_eq _ _

end Cert.ReferenceIdeal.RefSim

end
-- ==== Proof.RefCe.lean ====
/-
  The reference's cross-entropy stage read at row n: the row's log-softmax gathered at its label — for a label
  that is the number of a class the gather reads inside the row and the out-of-range fill is not taken.
-/
import proofs.«429917_j84688165142889_2_alg».proof.Proof.RefReadP
import proofs.«429917_j84688165142889_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefCe

open Cert.ReferenceIdeal Cert.ReferenceIdeal.Gen Idealize.ShloMosaic Idealize.ShloMosaic.TcCoe Idealize.SL.Sem Idealize.ShloMosaic.ValueIdx

/-- Row n's index with class k put back on the dropped axis is (n, k). -/
theorem lift_row (h : S16384x1000.Reduces [1] S16384) (n : Fin 16384) (k : Fin (S16384x1000.size 1)) :
    h.lift (ix1 n) k = ix2 n (⟨k.val, k.isLt⟩ : Fin 1000) := by
  funext c; apply Fin.ext
  match c with
  | ⟨0, _⟩ => rfl
  | ⟨1, _⟩ => rfl

/-- The maximum of logit row n, as the fold of max from −∞ over the classes. -/
theorem rowmax_apply (x1 : (⟨S16384x1000, .f32⟩ : BufTy).Contents (Elt Ideal)) (n : Fin 16384) :
    ReadP.val_main_call0_v0 (F := Ideal) x1 (ix1 n) = Loss.rowmax (fun k => x1 (ix2 n k)) := by
  unfold ReadP.val_main_call0_v0
  have h : S16384x1000.Reduces [1] S16384 := by decide
  refine (Host.reduce_eq_fold_single (α := Ideal .f32) (s := S16384x1000) (t := S16384) (a := 1)
    FloatOps.maximumf x1 _ reducesTo_S16384x1000_S16384_d1 h h_S_ (ix1 n)).trans ?_
  have hf : (x1 ∘ h.lift (ix1 n)) = fun k : Fin 1000 => x1 (ix2 n k) :=
    funext fun k => congrArg x1 (lift_row h n k)
  unfold Loss.rowmax Loss.negInf
  exact congrArg (fun f => Finset.fold max (Ideal.ofBits .f32 0xFF800000#32) f (Finset.univ : Finset (Fin 1000))) hf

/-- −∞ is below everything: the larger of −∞ and y is y. -/
theorem max_negInf (y : EReal) : max (Ideal.ofBits .f32 0xFF800000#32) y = y := by
  simp [Ideal.ofBits, Ideal.ieee]

/-- The reference takes the larger of −∞ and the row's maximum: the row's maximum again. -/
theorem v2c_apply (x1 : (⟨S16384x1000, .f32⟩ : BufTy).Contents (Elt Ideal)) (n : Fin 16384) :
    ReadP.val_main_call0_v2 (F := Ideal) x1 (ix1 n) = Loss.rowmax (fun k => x1 (ix2 n k)) := by
  rw [ReadP.val_main_call0_v2_apply, ReadP.val_main_call0_v1_apply, ReadP.val_main_call0_cst_0_apply, rowmax_apply]
  exact max_negInf _

theorem idx_v3_v4 (n : Fin 16384) (k : Fin 1000) :
    ReadP.idx_main_call0_v3 (ReadP.idx_main_call0_v4 (ix2 n k)) = ix1 n :=
  funext fun a => Fin.ext (by match a with | ⟨0, _⟩ => rfl)

/-- The shifted logit: entry (n, k) less row n's maximum. -/
theorem v5c_apply (x1 : (⟨S16384x1000, .f32⟩ : BufTy).Contents (Elt Ideal)) (n : Fin 16384) (k : Fin 1000) :
    ReadP.val_main_call0_v5 (F := Ideal) x1 (ix2 n k) = x1 (ix2 n k) - Loss.rowmax (fun k => x1 (ix2 n k)) := by
  rw [ReadP.val_main_call0_v5_apply, ReadP.val_main_call0_v4_apply, ReadP.val_main_call0_v3_apply, idx_v3_v4, v2c_apply]
  rfl

theorem idx_v7 (n : Fin 16384) (k : Fin 1000) : ReadP.idx_main_call0_v7 (ix1 n) k = ix2 n k :=
  funext fun a => Fin.ext (by match a with | ⟨0, _⟩ => rfl | ⟨1, _⟩ => rfl)

/-- The normaliser of row n: the sum over the classes of exp (logit − row maximum). -/
theorem v7c_apply (x1 : (⟨S16384x1000, .f32⟩ : BufTy).Contents (Elt Ideal)) (n : Fin 16384) :
    ReadP.val_main_call0_v7 (F := Ideal) x1 (ix1 n) = ∑ k : Fin 1000, Loss.ex (fun k => x1 (ix2 n k)) k := by
  rw [ReadP.val_main_call0_v7_apply, ReadP.val_main_call0_cst_1_apply]
  simp only [Ideal.ofBits_def, Ideal.ofBits_zero_f32, zero_add]
  refine Finset.sum_congr rfl fun k _ => ?_
  rw [ReadP.val_main_call0_v6_apply, idx_v7, v5c_apply]
  rfl

theorem idx_v8_v10 (n : Fin 16384) (k : Fin 1000) :
    ReadP.idx_main_call0_v8 (ReadP.idx_main_call0_v10 (ix2 n k)) = ix1 n :=
  funext fun a => Fin.ext (by match a with | ⟨0, _⟩ => rfl)

/-- The log-softmax of logit row n, at class k. -/
theorem v0_apply (x1 : (⟨S16384x1000, .f32⟩ : BufTy).Contents (Elt Ideal)) (n : Fin 16384) (k : Fin 1000) :
    ReadP.val_main_v0 (F := Ideal) x1 (ix2 n k) = Loss.logp (fun k => x1 (ix2 n k)) k := by
  rw [ReadP.val_main_v0_apply, ReadP.val_main_call0_v10_apply, ReadP.val_main_call0_v9_apply,
    ReadP.val_main_call0_v8_apply, idx_v8_v10, v7c_apply, v5c_apply]
  rfl

/-- The gather's dimension numbers: batch axis 0 of the operand paired with axis 0 of the indices, operand axis 1
    collapsed and start-indexed, the index vector on the indices' axis 2. -/
abbrev gd := gather_S16384x1000_S16384x1x1_S16384x1_n_1_0_0_1_2_11

/-- The gather at (n, 0): the operand's row n at the index word idx[n, 0, 0] read signed and clamped into [0, 999]. -/
theorem gather_row {α : Type} (x : S16384x1000.Idx → α) (idx : IVec S16384x1x1 32) (n : Fin 16384) :
    Host.gather gd x idx (ix2 n (0 : Fin 1))
      = x (ix2 n (⟨min (idx (ix3 n (0 : Fin 1) (0 : Fin 1))).toInt.toNat 999, by omega⟩ : Fin 1000)) := by
  unfold Host.gather
  refine congrArg x ?_
  funext a
  refine Fin.ext ?_
  have hb0 : (0 : Fin 2) ∈ gd.operandBatchingDims := List.mem_singleton.mpr rfl
  have hb1 : (1 : Fin 2) ∉ gd.operandBatchingDims := fun h => absurd (List.mem_singleton.1 h) (by decide)
  have hc1 : (1 : Fin 2) ∈ gd.collapsedSliceDims := List.mem_singleton.mpr rfl
  have hm1 : (1 : Fin 2) ∈ gd.startIndexMap := List.mem_singleton.mpr rfl
  match a with
  | ⟨0, _⟩ =>
    show gd.start (ix2 n (0 : Fin 1)) idx 0 + gd.batchCoord (ix2 n (0 : Fin 1)) 0 + gd.offCoord (ix2 n (0 : Fin 1)) 0 = n.val
    rw [gd.start_batching _ _ _ hb0, gd.offCoord_eq_zero _ _ (fun h => ((gd.mem_sKept _).1 h).2 hb0), Nat.zero_add, Nat.add_zero]
    unfold GatherDims.batchCoord
    rw [dif_pos hb0]
    rfl
  | ⟨1, _⟩ =>
    show gd.start (ix2 n (0 : Fin 1)) idx 1 + gd.batchCoord (ix2 n (0 : Fin 1)) 1 + gd.offCoord (ix2 n (0 : Fin 1)) 1 = min (idx (ix3 n (0 : Fin 1) (0 : Fin 1))).toInt.toNat 999
    rw [gd.batchCoord_eq_zero _ _ hb1, gd.offCoord_eq_zero _ _ (fun h => ((gd.mem_sKept _).1 h).1 hc1), Nat.add_zero]
    unfold GatherDims.start
    rw [dif_pos hm1]
    have hsi : gd.siIdx (ix2 n (0 : Fin 1)) ⟨List.idxOf (1 : Fin 2) gd.startIndexMap, List.idxOf_lt_length_iff.2 hm1⟩
        = ix3 n (0 : Fin 1) (0 : Fin 1) := by
      funext b; refine Fin.ext ?_
      match b with
      | ⟨0, _⟩ => rfl
      | ⟨1, _⟩ => rfl
      | ⟨2, _⟩ => rfl
    rw [hsi]
    rfl

/-! ### The label word of a class: non-negative, at most 999 -/

theorem lt_zero_false (k : Fin 1000) : IntOp.cmpi .slt (BitVec.ofNat 32 k.val) 0#32 = 0#1 := by
  refine eq_zero_of_ne_one fun h => ?_
  have hk := k.isLt
  have := (StableHlo.Predicate.slt_iff_toNat (a := BitVec.ofNat 32 k.val) (b := 0#32)
    (by simp only [BitVec.toNat_ofNat]; omega) (by decide)).1 h
  simp only [BitVec.toNat_ofNat] at this
  omega

theorem ge_zero_true (k : Fin 1000) : IntOp.cmpi .sge (BitVec.ofNat 32 k.val) 0#32 = 1#1 := by
  have hk := k.isLt
  refine (StableHlo.Predicate.sge_iff_toNat (a := BitVec.ofNat 32 k.val) (b := 0#32)
    (by simp only [BitVec.toNat_ofNat]; omega) (by decide)).2 ?_
  simp only [BitVec.toNat_ofNat]
  omega

theorem le_999_true (k : Fin 1000) : IntOp.cmpi .sle (BitVec.ofNat 32 k.val) 999#32 = 1#1 := by
  have hk := k.isLt
  refine (StableHlo.Predicate.sle_iff_toNat (a := BitVec.ofNat 32 k.val) (b := 999#32)
    (by simp only [BitVec.toNat_ofNat]; omega) (by decide)).2 ?_
  simp only [BitVec.toNat_ofNat]
  omega

/-! ### The index the gather reads -/

theorem idx_v1 (n : Fin 16384) : ReadP.idx_main_v1 (ix2 n (0 : Fin 1)) = ix1 n :=
  funext fun a => Fin.ext (by match a with | ⟨0, _⟩ => rfl)

theorem idx_v5 (n : Fin 16384) : ReadP.idx_main_call1_v5 (ix3 n (0 : Fin 1) (0 : Fin 1)) = ix2 n (0 : Fin 1) :=
  funext fun a => Fin.ext (by
    match a with
    | ⟨0, _⟩ => show ((n.val * 1 + 0) * 1 + 0) / 1 = n.val; omega
    | ⟨1, _⟩ => rfl)

/-- The label of row n, wrapped when negative: for the number of a class it is the label itself. -/
theorem v4c_apply (x2 : (⟨S16384, .i32⟩ : BufTy).Contents (Elt Ideal)) (n : Fin 16384)
    (ht : Loss.InRange (x2 (ix1 n))) :
    ReadP.val_main_call1_v4 (F := Ideal) x2 (ix2 n (0 : Fin 1)) = x2 (ix1 n) := by
  obtain ⟨k, hk⟩ := ht
  rw [ReadP.val_main_call1_v4_apply, ReadP.val_main_call1_v1_apply, ReadP.val_main_v1_apply, idx_v1,
    ReadP.val_main_call1_v0_apply, ReadP.val_main_call1_c_apply, hk, lt_zero_false, select_zero]

/-- The start index of row n, as the gather receives it. -/
theorem v5i_apply (x2 : (⟨S16384, .i32⟩ : BufTy).Contents (Elt Ideal)) (n : Fin 16384)
    (ht : Loss.InRange (x2 (ix1 n))) :
    ReadP.val_main_call1_v5 (F := Ideal) x2 (ix3 n (0 : Fin 1) (0 : Fin 1)) = x2 (ix1 n) := by
  rw [ReadP.val_main_call1_v5_apply, idx_v5, v4c_apply x2 n ht]

/-! ### The in-bounds flag -/

theorem idx_v8_v9 (n : Fin 16384) :
    ReadP.idx_main_call1_v8 (ReadP.idx_main_call1_v9 (ix3 n (0 : Fin 1) (0 : Fin 1))) = ix1 (0 : Fin 1) :=
  funext fun a => Fin.ext (by match a with | ⟨0, _⟩ => rfl)

/-- 0 ≤ index ≤ 999 at row n: both hold for the number of a class. -/
theorem v11c_apply (x2 : (⟨S16384, .i32⟩ : BufTy).Contents (Elt Ideal)) (n : Fin 16384)
    (ht : Loss.InRange (x2 (ix1 n))) :
    ReadP.val_main_call1_v11 (F := Ideal) x2 (ix3 n (0 : Fin 1) (0 : Fin 1)) = 1#1 := by
  rw [ReadP.val_main_call1_v11_apply, ReadP.val_main_call1_v7_apply, ReadP.val_main_call1_v10_apply,
    v5i_apply x2 n ht, ReadP.val_main_call1_v6_apply, ReadP.val_main_call1_c_2_apply,
    ReadP.val_main_call1_v9_apply, ReadP.val_main_call1_v8_apply, ReadP.val_main_call1_c_1_apply]
  obtain ⟨k, hk⟩ := ht
  rw [hk, ge_zero_true, le_999_true]
  rfl

/-- The flag's one index on the dropped axis put back: (n, 0, 0). -/
theorem lift_flag (h : S16384x1x1.Reduces [2] S16384x1) (n : Fin 16384) (k : Fin (S16384x1x1.size 2)) :
    h.lift (ix2 n (0 : Fin 1)) k = ix3 n (0 : Fin 1) (0 : Fin 1) := by
  funext c; apply Fin.ext
  have hk : k.val = 0 := by have hlt : k.val < 1 := k.isLt; omega
  match c with
  | ⟨0, _⟩ => rfl
  | ⟨1, _⟩ => rfl
  | ⟨2, _⟩ => exact hk

/-- The conjunction over the one-element axis: the one element, and-ed with the initial 1. -/
theorem v12c_apply (x2 : (⟨S16384, .i32⟩ : BufTy).Contents (Elt Ideal)) (n : Fin 16384)
    (ht : Loss.InRange (x2 (ix1 n))) :
    ReadP.val_main_call1_v12 (F := Ideal) x2 (ix2 n (0 : Fin 1)) = 1#1 := by
  unfold ReadP.val_main_call1_v12
  have h : S16384x1x1.Reduces [2] S16384x1 := by decide
  refine (Host.reduce_eq_fold_single (α := BitVec 1) (s := S16384x1x1) (t := S16384x1) (a := 2)
    IntOp.andi (ReadP.val_main_call1_v11 (F := Ideal) x2) _ reducesTo_S16384x1x1_S16384x1_d2 h h_S_ (ix2 n (0 : Fin 1))).trans ?_
  have hf : (ReadP.val_main_call1_v11 (F := Ideal) x2 ∘ h.lift (ix2 n (0 : Fin 1))) = fun _ : Fin 1 => (1#1 : BitVec 1) :=
    funext fun k => (congrArg (ReadP.val_main_call1_v11 (F := Ideal) x2) (lift_flag h n k)).trans (v11c_apply x2 n ht)
  refine (congrArg (fun f => Finset.fold IntOp.andi (ReadP.val_main_call1_c_3 (F := Ideal) (Shape.Idx.first h_S_)) f
    (Finset.univ : Finset (Fin 1))) hf).trans ?_
  rw [Finset.univ_unique, Finset.fold_singleton]
  rfl

/-- Row n's log-softmax at its label. -/
theorem v2_apply (x1 : (⟨S16384x1000, .f32⟩ : BufTy).Contents (Elt Ideal)) (x2 : (⟨S16384, .i32⟩ : BufTy).Contents (Elt Ideal)) (n : Fin 16384)
    (ht : Loss.InRange (x2 (ix1 n))) :
    ReadP.val_main_v2 (F := Ideal) x1 x2 (ix2 n 0) = Loss.logp (fun k => x1 (ix2 n k)) (Loss.tgtIx (x2 (ix1 n))) := by
  rw [ReadP.val_main_v2_apply, v12c_apply x2 n ht, select_one]
  unfold ReadP.val_main_call1_v13
  refine (gather_row _ _ n).trans ?_
  rw [v0_apply]
  refine congrArg (Loss.logp fun k => x1 (ix2 n k)) (Fin.ext ?_)
  show min (ReadP.val_main_call1_v5 (F := Ideal) x2 (ix3 n (0 : Fin 1) (0 : Fin 1))).toInt.toNat 999
    = min (x2 (ix1 n)).toInt.toNat 999
  rw [v5i_apply x2 n ht]

end Cert.ReferenceIdeal.RefCe

end
-- ==== Proof.RefValue.lean ====
/-
  The reference's result, index by index, is the specification's whole-batch total of the five argument arrays —
  when every label is the number of one of the 1000 classes, so that the gather of a row's log-softmax at its label
  reads inside the row.

  The three means are read one at a time. Each is a float sum from the zero word over a whole index set, divided by a
  printed count; the sum over a [16384, 1] index set is the sum over its rows, the sum over a [16384, 1000] index set
  the double sum over rows and classes, and a sum over a rank-1 index set the sum over its coordinate.
-/
import proofs.«429917_j84688165142889_2_alg».proof.Proof.RefReadP
import proofs.«429917_j84688165142889_2_alg».proof.Proof.RefSim
import proofs.«429917_j84688165142889_2_alg».proof.Proof.RefCe
import proofs.«429917_j84688165142889_2_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ### Sums over a whole index set -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over an [n, 1] index set is the sum over its rows. -/
theorem sum_idx_col {M : Type*} [AddCommMonoid M] {n : Nat} (f : (⟨2, ![n, 1]⟩ : Shape).Idx → M) :
    ∑ i, f i = ∑ a : Fin n, f (ix2 a 0) := by
  rw [sum_idx2]
  exact Finset.sum_congr rfl fun a _ => Fin.sum_univ_one fun b => f (ix2 a b)

/-! ### The cross-entropy mean: %5 = −(%3 / 16384) -/

/-- %3: the rows' log-softmax at their labels, added up. -/
theorem v3_eq (x1 : (⟨S16384x1000, .f32⟩ : BufTy).Contents (Elt Ideal)) (x2 : (⟨S16384, .i32⟩ : BufTy).Contents (Elt Ideal))
    (ht : ∀ n : Fin 16384, Loss.InRange (x2 (ix1 n))) (i : S_.Idx) :
    ReadP.val_main_v3 (F := Ideal) x1 x2 i
      = ∑ n : Fin 16384, Loss.logp (fun k => x1 (ix2 n k)) (Loss.tgtIx (x2 (ix1 n))) := by
  rw [ReadP.val_main_v3_apply, ReadP.val_main_cst_apply, Ideal.ofBits_def, Ideal.ofBits_zero_f32, zero_add]
  refine (sum_idx_col _).trans ?_
  exact Finset.sum_congr rfl fun n _ => RefCe.v2_apply x1 x2 n (ht n)

/-- %5: minus their mean. -/
theorem v5_eq (x1 : (⟨S16384x1000, .f32⟩ : BufTy).Contents (Elt Ideal)) (x2 : (⟨S16384, .i32⟩ : BufTy).Contents (Elt Ideal))
    (ht : ∀ n : Fin 16384, Loss.InRange (x2 (ix1 n))) (i : S_.Idx) :
    ReadP.val_main_v5 (F := Ideal) x1 x2 i
      = -(Ideal.div (∑ n : Fin 16384, Loss.logp (fun k => x1 (ix2 n k)) (Loss.tgtIx (x2 (ix1 n)))) Loss.cN) := by
  rw [ReadP.val_main_v5_apply, ReadP.val_main_v4_apply, v3_eq x1 x2 ht, ReadP.val_main_cst_0_apply]
  simp only [Ideal.hostNegf_def, Ideal.negf_def, Ideal.hostDivf_def, Ideal.ofBits_def, Loss.cN]

/-! ### The squared-distance mean: %40 = %39 / 16384000 -/

/-- %38 at (row n, class k): the square of one-hot minus softmax. -/
theorem v38_eq (x0 : (⟨S16384x768, .f32⟩ : BufTy).Contents (Elt Ideal)) (x2 : (⟨S16384, .i32⟩ : BufTy).Contents (Elt Ideal))
    (x3 : (⟨S1000x768, .f32⟩ : BufTy).Contents (Elt Ideal)) (n : Fin 16384) (k : Fin 1000) :
    ReadP.val_main_v38 (F := Ideal) x0 x2 x3 (ix2 n k)
      = Loss.rSq (Loss.rowSim (fun n d => x0 (ix2 n d)) (fun k d => x3 (ix2 k d)) n) (x2 (ix1 n)) k := by
  rw [ReadP.val_main_v38_apply, ReadP.val_main_v37_apply, RefSim.v27_apply, RefSim.v28_apply]
  simp only [Ideal.mulf_def, Ideal.subf_def, Loss.rSq]

/-- %39: the squares added up over every row and class. -/
theorem v39_eq (x0 : (⟨S16384x768, .f32⟩ : BufTy).Contents (Elt Ideal)) (x2 : (⟨S16384, .i32⟩ : BufTy).Contents (Elt Ideal))
    (x3 : (⟨S1000x768, .f32⟩ : BufTy).Contents (Elt Ideal)) (i : S_.Idx) :
    ReadP.val_main_v39 (F := Ideal) x0 x2 x3 i
      = ∑ n : Fin 16384, ∑ k : Fin 1000,
          Loss.rSq (Loss.rowSim (fun n d => x0 (ix2 n d)) (fun k d => x3 (ix2 k d)) n) (x2 (ix1 n)) k := by
  rw [ReadP.val_main_v39_apply, ReadP.val_main_cst_10_apply, Ideal.ofBits_def, Ideal.ofBits_zero_f32, zero_add]
  refine (sum_idx2 _).trans ?_
  exact Finset.sum_congr rfl fun n _ => Finset.sum_congr rfl fun k _ => v38_eq x0 x2 x3 n k

/-- %40: their mean. -/
theorem v40_eq (x0 : (⟨S16384x768, .f32⟩ : BufTy).Contents (Elt Ideal)) (x2 : (⟨S16384, .i32⟩ : BufTy).Contents (Elt Ideal))
    (x3 : (⟨S1000x768, .f32⟩ : BufTy).Contents (Elt Ideal)) (i : S_.Idx) :
    ReadP.val_main_v40 (F := Ideal) x0 x2 x3 i
      = Ideal.div (∑ n : Fin 16384, ∑ k : Fin 1000,
          Loss.rSq (Loss.rowSim (fun n d => x0 (ix2 n d)) (fun k d => x3 (ix2 k d)) n) (x2 (ix1 n)) k) Loss.cNC := by
  rw [ReadP.val_main_v40_apply, v39_eq, ReadP.val_main_cst_11_apply]
  simp only [Ideal.hostDivf_def, Ideal.ofBits_def, Loss.cNC]

/-! ### The discriminative mean: %34 = %33 / 16384 -/

/-- %30 at row n: the softmax weights against the one-hot row, added over the classes. -/
theorem v30_eq (x0 : (⟨S16384x768, .f32⟩ : BufTy).Contents (Elt Ideal)) (x2 : (⟨S16384, .i32⟩ : BufTy).Contents (Elt Ideal))
    (x3 : (⟨S1000x768, .f32⟩ : BufTy).Contents (Elt Ideal)) (n : Fin 16384) :
    ReadP.val_main_v30 (F := Ideal) x0 x2 x3 (ix1 n)
      = ∑ k : Fin 1000, Loss.soft (Loss.rowSim (fun n d => x0 (ix2 n d)) (fun k d => x3 (ix2 k d)) n) k
          * Loss.hot (x2 (ix1 n)) k := by
  rw [ReadP.val_main_v30_apply, ReadP.val_main_cst_6_apply, Ideal.ofBits_def, Ideal.ofBits_zero_f32, zero_add]
  refine Finset.sum_congr rfl fun k _ => ?_
  have hk : ReadP.idx_main_v30 (ix1 n) k = ix2 n k := by
    funext a; match a with | ⟨0, _⟩ => rfl | ⟨1, _⟩ => rfl
  rw [hk, ReadP.val_main_v29_apply, RefSim.v27_apply, RefSim.v28_apply, Ideal.mulf_def]

/-- %32 at row n: one minus that sum. -/
theorem v32_eq (x0 : (⟨S16384x768, .f32⟩ : BufTy).Contents (Elt Ideal)) (x2 : (⟨S16384, .i32⟩ : BufTy).Contents (Elt Ideal))
    (x3 : (⟨S1000x768, .f32⟩ : BufTy).Contents (Elt Ideal)) (n : Fin 16384) :
    ReadP.val_main_v32 (F := Ideal) x0 x2 x3 (ix1 n)
      = Loss.rDisc (Loss.rowSim (fun n d => x0 (ix2 n d)) (fun k d => x3 (ix2 k d)) n) (x2 (ix1 n)) := by
  rw [ReadP.val_main_v32_apply, ReadP.val_main_v31_apply, ReadP.val_main_cst_7_apply, v30_eq]
  simp only [Ideal.subf_def, Ideal.ofBits_def, Loss.rDisc, Loss.one]

/-- %33: added up over the rows. -/
theorem v33_eq (x0 : (⟨S16384x768, .f32⟩ : BufTy).Contents (Elt Ideal)) (x2 : (⟨S16384, .i32⟩ : BufTy).Contents (Elt Ideal))
    (x3 : (⟨S1000x768, .f32⟩ : BufTy).Contents (Elt Ideal)) (i : S_.Idx) :
    ReadP.val_main_v33 (F := Ideal) x0 x2 x3 i
      = ∑ n : Fin 16384, Loss.rDisc (Loss.rowSim (fun n d => x0 (ix2 n d)) (fun k d => x3 (ix2 k d)) n) (x2 (ix1 n)) := by
  rw [ReadP.val_main_v33_apply, ReadP.val_main_cst_8_apply, Ideal.ofBits_def, Ideal.ofBits_zero_f32, zero_add]
  refine (sum_idx1 _).trans ?_
  exact Finset.sum_congr rfl fun n _ => v32_eq x0 x2 x3 n

/-- %34: their mean. -/
theorem v34_eq (x0 : (⟨S16384x768, .f32⟩ : BufTy).Contents (Elt Ideal)) (x2 : (⟨S16384, .i32⟩ : BufTy).Contents (Elt Ideal))
    (x3 : (⟨S1000x768, .f32⟩ : BufTy).Contents (Elt Ideal)) (i : S_.Idx) :
    ReadP.val_main_v34 (F := Ideal) x0 x2 x3 i
      = Ideal.div (∑ n : Fin 16384,
          Loss.rDisc (Loss.rowSim (fun n d => x0 (ix2 n d)) (fun k d => x3 (ix2 k d)) n) (x2 (ix1 n))) Loss.cN := by
  rw [ReadP.val_main_v34_apply, v33_eq, ReadP.val_main_cst_9_apply]
  simp only [Ideal.hostDivf_def, Ideal.ofBits_def, Loss.cN]

/-! ### The total: %43 = (%5 + %40) + %34 · arg4 -/

theorem val_eq_refTotal (x0 : (⟨S16384x768, .f32⟩ : BufTy).Contents (Elt Ideal)) (x1 : (⟨S16384x1000, .f32⟩ : BufTy).Contents (Elt Ideal))
    (x2 : (⟨S16384, .i32⟩ : BufTy).Contents (Elt Ideal)) (x3 : (⟨S1000x768, .f32⟩ : BufTy).Contents (Elt Ideal))
    (x4 : (⟨S1, .f32⟩ : BufTy).Contents (Elt Ideal)) (ht : ∀ n : Fin 16384, Loss.InRange (x2 (ix1 n))) (i : S1.Idx) :
    ReadP.val_main_v43 (F := Ideal) x0 x1 x2 x3 x4 i
      = Loss.refTotal (fun n d => x0 (ix2 n d)) (fun n k => x1 (ix2 n k)) (fun n => x2 (ix1 n)) (fun k d => x3 (ix2 k d)) (x4 (ix1 0)) := by
  have hi : i = ix1 0 :=
    funext fun a => match a with | ⟨0, _⟩ => Fin.ext (Nat.lt_one_iff.mp (i 0).isLt)
  subst hi
  rw [ReadP.val_main_v43_apply, ReadP.val_main_v42_apply, ReadP.val_main_v41_apply, v5_eq x1 x2 ht, v40_eq,
    ReadP.val_main_v36_apply, ReadP.val_main_v35_apply, v34_eq]
  simp only [Ideal.addf_def, Ideal.mulf_def, Loss.refTotal]

end Cert.ReferenceIdeal.RefValue

end
-- ==== Proof.LossMath.lean ====
/-
  The two spellings of the loss agree when every input is a real number.

  With real inputs every intermediate quantity is a real number: a normalised row x / max(‖x‖, ε) (ε > 0), a
  similarity (a finite sum of products), a row maximum (of 1000 ≥ 1 reals), the weights exp (f c − max f) > 0,
  their sum s > 0 and log s. So each row's contribution can be computed in ℝ, where

    (Σ_c e_c · h_c) · (1/s) = Σ_c (e_c · (1/s)) · h_c,
    1 − 2 · p + (Σ_c e_c²) · (1/s)² = Σ_c (h_c − e_c · (1/s))²      (h one-hot, so Σ_c h_c² = 1),
    0 − (Σ_c g_c · h_c − (max g + log s)) = −((g_k − max g) − log s)   (h the one-hot row of k),

  and the batch sum over 16384 rows regroups as 2 halves × 16 blocks × 512 rows; the division by the batch size
  distributes over the two halves because every term is real.
-/
import proofs.«429917_j84688165142889_2_alg».proof.Proof.Spec
import Mathlib.Data.EReal.Operations
import Mathlib.Data.EReal.Inv
import Mathlib.Data.Finset.Fold
import Mathlib.Algebra.BigOperators.Fin
import Mathlib.Logic.Equiv.Fin.Basic

noncomputable section

namespace Cert.Loss

open Idealize.ShloMosaic

/-! ### Coercions and the constants -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem cN_eq : cN = ((16384 : ℝ) : EReal) := by
  simp [cN, Ideal.ofBits, Ideal.ieee, -EReal.coe_mul]; norm_num

theorem cNC_eq : cNC = ((16384000 : ℝ) : EReal) := by
  simp [cNC, Ideal.ofBits, Ideal.ieee, -EReal.coe_mul]

theorem negInf_eq : negInf = ⊥ := by
  simp [negInf, Ideal.ofBits, Ideal.ieee]

/-- The norm floor is a positive real. -/
theorem eps_eq : ∃ e : ℝ, 0 < e ∧ eps = (e : EReal) := by
  simp [eps, Ideal.ofBits, Ideal.ieee, -EReal.coe_mul]

/-! ### Real numbers are closed under the operations used -/

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem isReal_sum {ι : Type*} (s : Finset ι) (f : ι → EReal) (h : ∀ i, IsReal (f i)) :
    IsReal (∑ i ∈ s, f i) := by
  choose g hg using h
  exact ⟨∑ i ∈ s, g i, by rw [coe_sum]; exact Finset.sum_congr rfl fun i _ => hg i⟩

/-- A real row divided by max(its norm, ε) is a real row: the divisor is a positive real. -/
theorem isReal_unit (x : Fin 768 → EReal) (hx : ∀ d, IsReal (x d)) (d : Fin 768) : IsReal (unit x d) := by
  choose xr hxr using hx
  obtain rfl : x = fun k => (xr k : EReal) := funext hxr
  obtain ⟨e, he, hε⟩ := eps_eq
  have hq : (∑ k, (xr k : EReal) * (xr k : EReal)) = ((∑ k, xr k * xr k : ℝ) : EReal) := by
    rw [coe_sum]; simp only [EReal.coe_mul]
  have hq0 : ¬ (∑ k, xr k * xr k) < 0 := not_lt.mpr (Finset.sum_nonneg fun k _ => mul_self_nonneg _)
  have hmax : max (Ideal.sqrt (∑ k, (xr k : EReal) * (xr k : EReal))) eps
      = ((max (Real.sqrt (∑ k, xr k * xr k)) e : ℝ) : EReal) := by
    rw [hq, Ideal.sqrt_coe, if_neg hq0, hε]
    exact (EReal.coe_strictMono.monotone.map_max).symm
  have hpos : max (Real.sqrt (∑ k, xr k * xr k)) e ≠ 0 := ne_of_gt (lt_max_of_lt_right he)
  refine ⟨xr d * (1 / max (Real.sqrt (∑ k, xr k * xr k)) e), ?_⟩
  simp only [unit]
  rw [hmax, Ideal.div_coe hpos, EReal.coe_mul]

/-- Every cosine similarity of real rows is a real number. -/
theorem isReal_rowSim (E : Fin 16384 → Fin 768 → EReal) (Cn : Fin 1000 → Fin 768 → EReal)
    (hE : ∀ n d, IsReal (E n d)) (hC : ∀ k d, IsReal (Cn k d)) (n : Fin 16384) (c : Fin 1000) :
    IsReal (rowSim E Cn n c) := by
  simp only [rowSim, simW]
  exact isReal_sum _ _ fun d => (isReal_unit _ (hE n) d).mul (isReal_unit _ (hC c) d)

/-! ### A real row: its maximum, its weights, its one-hot row -/

/-- The maximum of 1000 reals, folded from −∞, is a real. -/
theorem rowmax_coe (f : Fin 1000 → ℝ) : ∃ m : ℝ, rowmax (fun c => (f c : EReal)) = (m : EReal) := by
  have h1 : rowmax (fun c => (f c : EReal)) ≠ ⊤ := by
    apply ne_of_lt
    rw [rowmax, Finset.fold_max_lt]
    exact ⟨by rw [negInf_eq]; exact bot_lt_top, fun c _ => EReal.coe_lt_top _⟩
  have h2 : rowmax (fun c => (f c : EReal)) ≠ ⊥ := by
    apply ne_of_gt
    rw [rowmax, Finset.lt_fold_max]
    exact Or.inr ⟨0, Finset.mem_univ _, EReal.bot_lt_coe _⟩
  exact ⟨_, (EReal.coe_toReal h1 h2).symm⟩

/-- A real row's maximum, as a real. -/
def mR (f : Fin 1000 → ℝ) : ℝ := (rowmax (fun c => (f c : EReal))).toReal
/-- A real row's weights exp (f c − max f), as reals. -/
def eR (f : Fin 1000 → ℝ) (c : Fin 1000) : ℝ := Real.exp (f c - mR f)
/-- The sum of a real row's weights. -/
def sR (f : Fin 1000 → ℝ) : ℝ := ∑ c, eR f c

theorem rowmax_eq (f : Fin 1000 → ℝ) : rowmax (fun c => (f c : EReal)) = (mR f : EReal) := by
  obtain ⟨m, hm⟩ := rowmax_coe f
  rw [mR, hm, EReal.toReal_coe]

theorem ex_coe (f : Fin 1000 → ℝ) (c : Fin 1000) : ex (fun c => (f c : EReal)) c = (eR f c : EReal) := by
  simp only [ex]
  rw [rowmax_eq, ← EReal.coe_sub, Ideal.exp_coe, eR]

theorem sR_pos (f : Fin 1000 → ℝ) : 0 < sR f :=
  Finset.sum_pos (fun c _ => Real.exp_pos _) ⟨0, Finset.mem_univ _⟩

theorem sumex_coe (f : Fin 1000 → ℝ) : (∑ c, ex (fun c => (f c : EReal)) c) = (sR f : EReal) := by
  rw [sR, coe_sum]; exact Finset.sum_congr rfl fun c _ => ex_coe f c

/-- 1/s is the real 1/s. -/
theorem kInv_coe (f : Fin 1000 → ℝ) : kInv (fun c => (f c : EReal)) = ((1 / sR f : ℝ) : EReal) := by
  rw [kInv, sumex_coe, one_eq, Ideal.div_coe (sR_pos f).ne', ← EReal.coe_mul, one_mul]

theorem soft_coe (f : Fin 1000 → ℝ) (c : Fin 1000) :
    soft (fun c => (f c : EReal)) c = ((eR f c * (1 / sR f) : ℝ) : EReal) := by
  rw [soft, sumex_coe, ex_coe, Ideal.div_coe (sR_pos f).ne', ← EReal.coe_mul]

theorem logsum_coe (f : Fin 1000 → ℝ) :
    Ideal.log (∑ c, ex (fun c => (f c : EReal)) c) = ((Real.log (sR f) : ℝ) : EReal) := by
  rw [sumex_coe, Ideal.log_coe, if_neg (not_le.mpr (sR_pos f))]

theorem ofNat_inj (k c : Fin 1000) : BitVec.ofNat 32 k.val = BitVec.ofNat 32 c.val ↔ k = c := by
  constructor
  · intro h
    have := congrArg BitVec.toNat h
    simp [BitVec.toNat_ofNat] at this
    exact Fin.ext (by omega)
  · rintro rfl; rfl

/-- Read as an index, the word of class k selects class k. -/
theorem tgtIx_ofNat (k : Fin 1000) : tgtIx (BitVec.ofNat 32 k.val) = k := by
  apply Fin.ext
  have h : (BitVec.ofNat 32 k.val).toInt = (k.val : Int) := by
    rw [BitVec.toInt_eq_toNat_of_lt (by simp [BitVec.toNat_ofNat]; omega)]
    simp [BitVec.toNat_ofNat]; omega
  simp only [tgtIx, h]
  simp
  omega

/-- The one-hot row of class k's word. -/
theorem hot_coe (k c : Fin 1000) :
    hot (BitVec.ofNat 32 k.val) c = ((if k = c then (1 : ℝ) else 0 : ℝ) : EReal) := by
  simp only [hot, ofNat_inj]
  split <;> simp

/-! ### The row identities in ℝ -/

section RealIds

variable {ι : Type*} [Fintype ι] [DecidableEq ι]

theorem real_hot_sum (g : ι → ℝ) (k : ι) : ∑ c, g c * (if k = c then (1 : ℝ) else 0) = g k := by
  simp [Finset.sum_ite_eq, mul_ite]

/-- (Σ_c e_c h_c) · r = Σ_c (e_c · r) h_c. -/
theorem real_stt (e : ι → ℝ) (k : ι) (r : ℝ) :
    (∑ c, e c * (if k = c then (1 : ℝ) else 0)) * r = ∑ c, (e c * r) * (if k = c then (1 : ℝ) else 0) := by
  rw [real_hot_sum, real_hot_sum]

/-- 1 − 2 (Σ_c e_c h_c) r + (Σ_c e_c²) r² = Σ_c (h_c − e_c r)², for a one-hot row h. -/
theorem real_dist (e : ι → ℝ) (k : ι) (r : ℝ) :
    (1 - 2 * ((∑ c, e c * (if k = c then (1 : ℝ) else 0)) * r)) + (∑ c, e c * e c) * (r * r)
      = ∑ c, ((if k = c then (1 : ℝ) else 0) - e c * r) * ((if k = c then (1 : ℝ) else 0) - e c * r) := by
  have h : ∀ c, ((if k = c then (1 : ℝ) else 0) - e c * r) * ((if k = c then (1 : ℝ) else 0) - e c * r)
      = ((if k = c then (1 : ℝ) else 0) - 2 * r * (e c * (if k = c then (1 : ℝ) else 0))) + (e c * e c) * (r * r) := by
    intro c; split <;> ring
  simp only [h, Finset.sum_add_distrib, Finset.sum_sub_distrib, ← Finset.mul_sum, ← Finset.sum_mul, real_hot_sum]
  simp only [Finset.sum_ite_eq, Finset.mem_univ, if_true]
  ring

end RealIds

/-! ### A row's contributions: both spellings give the same real -/

/-- 1 − p_t, either way. -/
theorem row_disc (f : Fin 1000 → ℝ) (t : BitVec 32) (ht : InRange t) :
    ∃ D : ℝ, kDisc (fun c => (f c : EReal)) t = (D : EReal) ∧ rDisc (fun c => (f c : EReal)) t = (D : EReal) := by
  obtain ⟨k, rfl⟩ := ht
  refine ⟨1 - (∑ c, eR f c * (if k = c then (1 : ℝ) else 0)) * (1 / sR f), ?_, ?_⟩
  · simp only [kDisc, kStt, ex_coe, hot_coe, kInv_coe, one_eq, ← EReal.coe_mul, ← coe_sum, ← EReal.coe_sub]
  · simp only [rDisc, soft_coe, hot_coe, one_eq, ← EReal.coe_mul, ← coe_sum, ← EReal.coe_sub]
    rw [real_stt]

/-- The squared distance of the softmax row from the one-hot row, either way. -/
theorem row_dist (f : Fin 1000 → ℝ) (t : BitVec 32) (ht : InRange t) :
    ∃ B : ℝ, kDist (fun c => (f c : EReal)) t = (B : EReal)
      ∧ (∑ c, rSq (fun c => (f c : EReal)) t c) = (B : EReal) := by
  obtain ⟨k, rfl⟩ := ht
  refine ⟨(1 - 2 * ((∑ c, eR f c * (if k = c then (1 : ℝ) else 0)) * (1 / sR f)))
      + (∑ c, eR f c * eR f c) * ((1 / sR f) * (1 / sR f)), ?_, ?_⟩
  · simp only [kDist, kStt, ex_coe, hot_coe, kInv_coe, one_eq, two_eq, ← EReal.coe_mul, ← coe_sum,
      ← EReal.coe_sub, ← EReal.coe_add]
  · simp only [rSq, soft_coe, hot_coe, ← EReal.coe_sub, ← EReal.coe_mul, ← coe_sum]
    rw [real_dist]

/-- −log softmax(g)[t], either way. -/
theorem row_ce (g : Fin 1000 → ℝ) (t : BitVec 32) (ht : InRange t) :
    ∃ P : ℝ, kCe (fun c => (g c : EReal)) t = ((-P : ℝ) : EReal)
      ∧ logp (fun c => (g c : EReal)) (tgtIx t) = (P : EReal) := by
  obtain ⟨k, rfl⟩ := ht
  refine ⟨(g k - mR g) - Real.log (sR g), ?_, ?_⟩
  · simp only [kCe, logsum_coe, rowmax_eq, hot_coe, ← EReal.coe_mul, ← coe_sum, ← EReal.coe_add,
      ← EReal.coe_sub, real_hot_sum]
    rw [← EReal.coe_zero, ← EReal.coe_sub]
    congr 1; ring
  · rw [tgtIx_ofNat]
    simp only [logp, logsum_coe, rowmax_eq, ← EReal.coe_sub]

/-! ### The batch sum, regrouped -/

/-- The real sum over the 16 × 512 rows of half c. -/
def csR (x : Fin 16384 → ℝ) (c : Fin 2) : ℝ := ∑ i : Fin 16, ∑ j : Fin 512, x (rowIx (ptIx c i) j)

theorem coreSum_coe (x : Fin 16384 → ℝ) (c : Fin 2) :
    coreSum (fun n => (x n : EReal)) c = ((csR x c : ℝ) : EReal) := by
  simp only [coreSum, csR, coe_sum]

theorem csR_neg (x : Fin 16384 → ℝ) (c : Fin 2) : csR (fun n => -(x n)) c = -(csR x c) := by
  simp only [csR, Finset.sum_neg_distrib]

/-- 16384 rows are 32 blocks of 512, and 32 blocks are 2 halves of 16. -/
theorem sum_rows (x : Fin 16384 → ℝ) : ∑ n, x n = csR x 0 + csR x 1 := by
  have h1 : ∑ n : Fin 16384, x n = ∑ p : Fin 32 × Fin 512, x (rowIx p.1 p.2) := by
    refine (Fintype.sum_equiv (finProdFinEquiv : Fin 32 × Fin 512 ≃ Fin 16384) _ _
      fun p => congrArg x (Fin.ext ?_)).symm
    show 512 * p.1.val + p.2.val = p.2.val + 512 * p.1.val
    omega
  have h2 : ∀ g : Fin 32 → ℝ, ∑ t, g t = ∑ q : Fin 2 × Fin 16, g (ptIx q.1 q.2) := by
    intro g
    refine (Fintype.sum_equiv (finProdFinEquiv : Fin 2 × Fin 16 ≃ Fin 32) _ _
      fun q => congrArg g (Fin.ext ?_)).symm
    show 16 * q.1.val + q.2.val = q.2.val + 16 * q.1.val
    omega
  rw [h1, Fintype.sum_prod_type, h2, Fintype.sum_prod_type, Fin.sum_univ_two]
  rfl

/-! ### The totals -/

/-- With every row's three contributions real, the two halves' shares add up to the whole batch's loss. -/
theorem assemble (P B D : Fin 16384 → ℝ) (ur : ℝ) :
    ((Ideal.div (coreSum (fun n => ((-(P n) : ℝ) : EReal)) 0) cN
          + Ideal.div (coreSum (fun n => (B n : EReal)) 0) cNC)
        + Ideal.div (coreSum (fun n => (D n : EReal)) 0) cN * (ur : EReal))
      + ((Ideal.div (coreSum (fun n => ((-(P n) : ℝ) : EReal)) 1) cN
          + Ideal.div (coreSum (fun n => (B n : EReal)) 1) cNC)
        + Ideal.div (coreSum (fun n => (D n : EReal)) 1) cN * (ur : EReal))
    = (-(Ideal.div (∑ n, (P n : EReal)) cN) + Ideal.div (∑ n, (B n : EReal)) cNC)
        + Ideal.div (∑ n, (D n : EReal)) cN * (ur : EReal) := by
  have hN : (16384 : ℝ) ≠ 0 := by norm_num
  have hNC : (16384000 : ℝ) ≠ 0 := by norm_num
  simp only [coreSum_coe, ← coe_sum, cN_eq, cNC_eq, Ideal.div_coe hN, Ideal.div_coe hNC, ← EReal.coe_mul,
    ← EReal.coe_add, ← EReal.coe_neg]
  congr 1
  rw [sum_rows P, sum_rows B, sum_rows D, csR_neg, csR_neg]
  ring

theorem kernelTotal_eq_refTotal (E : Fin 16384 → Fin 768 → EReal) (Lg : Fin 16384 → Fin 1000 → EReal)
    (tg : Fin 16384 → BitVec 32) (Cn : Fin 1000 → Fin 768 → EReal) (u : EReal)
    (hE : ∀ n d, IsReal (E n d)) (hL : ∀ n k, IsReal (Lg n k)) (hC : ∀ k d, IsReal (Cn k d)) (hu : IsReal u)
    (ht : ∀ n, InRange (tg n)) :
    kernelTotal E Lg tg Cn u = refTotal E Lg tg Cn u := by
  obtain ⟨ur, rfl⟩ := hu
  choose F hF using fun n c => isReal_rowSim E Cn hE hC n c
  choose G hG using hL
  have hFn : ∀ n, rowSim E Cn n = fun c => (F n c : EReal) := fun n => funext (hF n)
  have hGn : ∀ n, Lg n = fun c => (G n c : EReal) := fun n => funext (hG n)
  choose P hP1 hP2 using fun n => row_ce (G n) (tg n) (ht n)
  choose B hB1 hB2 using fun n => row_dist (F n) (tg n) (ht n)
  choose D hD1 hD2 using fun n => row_disc (F n) (tg n) (ht n)
  simp only [kernelTotal, corePart, refTotal, hFn, hGn, hP1, hP2, hB1, hB2, hD1, hD2]
  exact assemble P B D ur

end Cert.Loss

end
-- ==== Proof.PreDecode.lean ====
/-
  The precondition, read back: "every float input is finite and every label lies in [0, 1000)" printed as one i1
  word says that every entry of the four float arrays is a real number and every label word is the number of a class.

  The word is an `and` of five `all`s; each `all` is a reduction by `and` from 1 into the one scalar index, so it is 1
  only if every element is 1. For a float entry x the element is the comparison |x| < +∞, which fails at both
  infinities (|±∞| = +∞) and so leaves x real. For a label word w the element is (0 ≤ w) ∧ (w < 1000) as signed
  words, so w is the word of its own value, a natural number below 1000.
-/
import proofs.«429917_j84688165142889_2_alg».proof.Proof.Gen.Pre_finite_inputs
import proofs.«429917_j84688165142889_2_alg».proof.Proof.Spec
import Idealize.ShloMosaic.Lib.ReduceAll
import Idealize.ShloMosaic.Lib.ValueIdx
import Idealize.ShloMosaic.Lib.StableHlo.Predicate
import Idealize.ShloMosaic.PureOps.Ideal.Laws

noncomputable section

namespace Cert.Pre_finite_inputs.Decode

open Idealize.ShloMosaic Idealize.ShloMosaic.ValueIdx Cert.Pre_finite_inputs

/-- The scalar result type has exactly one index. -/
local instance : Subsingleton S_.Idx := ⟨fun a b => funext fun d => d.elim0⟩

/-- The f32 word 0x7F800000 is +∞. -/
private theorem top_f32 : Ideal.ofBits .f32 0x7F800000#32 = ⊤ := by simp [Ideal.ofBits, Ideal.ieee]

/-- |x| < +∞ over the extended reals: x is neither infinity, so it is a real number. -/
private theorem isReal_of_abs_lt (x : EReal)
    (h : FloatOps.cmpf (F := Ideal) (φ := .f32) .olt (FloatOps.absf (F := Ideal) (φ := .f32) x) (FloatOps.ofBits (F := Ideal) .f32 0x7F800000#32) = 1#1) :
    Loss.IsReal x := by
  rw [Ideal.cmpf_def, Ideal.absf_def, Ideal.ofBits_def, top_f32] at h
  induction x using EReal.rec with
  | bot => simp [Ideal.cmp] at h
  | top => simp [Ideal.cmp] at h
  | coe r => exact ⟨r, rfl⟩

/-- An elementwise `and` of i1 words that is 1 at an index has both operands 1 there. -/
private theorem andi_one {s : Shape} {x y : IVec s 1} {j : s.Idx} (h : andi x y j = 1#1) : x j = 1#1 ∧ y j = 1#1 :=
  IntOp.andi_eq_one.1 h

/-- 0 ≤ w and w < 1000 as signed 32-bit words: w is the word of a natural number below 1000. -/
private theorem inRange_of (w : BitVec 32) (h1 : IntOp.cmpi .sge w 0#32 = 1#1) (h2 : IntOp.cmpi .slt w 1000#32 = 1#1) :
    Loss.InRange w := by
  simp only [IntOp.cmpi, StableHlo.Predicate.ofBool_eq_one_iff, BitVec.sle, BitVec.slt, decide_eq_true_eq] at h1 h2
  have z : (0#32 : BitVec 32).toInt = 0 := by decide
  have k : (1000#32 : BitVec 32).toInt = 1000 := by decide
  rw [z] at h1
  rw [k] at h2
  rw [BitVec.toInt_eq_toNat_cond] at h1 h2
  have hw := w.isLt
  have hlt : w.toNat < 1000 := by split_ifs at h1 h2 <;> omega
  exact ⟨⟨w.toNat, hlt⟩, by simp⟩

variable [Cert.Pre_finite_inputs.Facts]

variable (a0 : FVec Ideal S16384x768 .f32) (a1 : FVec Ideal S16384x1000 .f32) (a2 : IVec S16384 32)
  (a3 : FVec Ideal S1000x768 .f32) (a4 : FVec Ideal S1 .f32)

theorem real0 (h : fn (F := Ideal) a0 a1 a2 a3 a4 = fun _ => 1#1) (i : S16384x768.Idx) : Loss.IsReal (a0 i) := by
  have h0 := congrFun h ix0
  dsimp only [fn, fn_part1] at h0
  obtain ⟨h18, h24⟩ := andi_one h0
  obtain ⟨h13, h17⟩ := andi_one h18
  obtain ⟨h8, h12⟩ := andi_one h13
  obtain ⟨h3, h7⟩ := andi_one h8
  exact isReal_of_abs_lt _ (Host.reduce_andi_all _ _ _ _ _ h3 i)

theorem real1 (h : fn (F := Ideal) a0 a1 a2 a3 a4 = fun _ => 1#1) (i : S16384x1000.Idx) : Loss.IsReal (a1 i) := by
  have h0 := congrFun h ix0
  dsimp only [fn, fn_part1] at h0
  obtain ⟨h18, h24⟩ := andi_one h0
  obtain ⟨h13, h17⟩ := andi_one h18
  obtain ⟨h8, h12⟩ := andi_one h13
  obtain ⟨h3, h7⟩ := andi_one h8
  exact isReal_of_abs_lt _ (Host.reduce_andi_all _ _ _ _ _ h7 i)

theorem real3 (h : fn (F := Ideal) a0 a1 a2 a3 a4 = fun _ => 1#1) (i : S1000x768.Idx) : Loss.IsReal (a3 i) := by
  have h0 := congrFun h ix0
  dsimp only [fn, fn_part1] at h0
  obtain ⟨h18, h24⟩ := andi_one h0
  obtain ⟨h13, h17⟩ := andi_one h18
  obtain ⟨h8, h12⟩ := andi_one h13
  obtain ⟨h3, h7⟩ := andi_one h8
  exact isReal_of_abs_lt _ (Host.reduce_andi_all _ _ _ _ _ h12 i)

theorem real4 (h : fn (F := Ideal) a0 a1 a2 a3 a4 = fun _ => 1#1) (i : S1.Idx) : Loss.IsReal (a4 i) := by
  have h0 := congrFun h ix0
  dsimp only [fn, fn_part1] at h0
  obtain ⟨h18, h24⟩ := andi_one h0
  obtain ⟨h13, h17⟩ := andi_one h18
  obtain ⟨h8, h12⟩ := andi_one h13
  obtain ⟨h3, h7⟩ := andi_one h8
  exact isReal_of_abs_lt _ (Host.reduce_andi_all _ _ _ _ _ h17 i)

theorem range2 (h : fn (F := Ideal) a0 a1 a2 a3 a4 = fun _ => 1#1) (n : Fin 16384) : Loss.InRange (a2 (ix1 n)) := by
  have h0 := congrFun h ix0
  dsimp only [fn, fn_part1] at h0
  obtain ⟨h18, h24⟩ := andi_one h0
  obtain ⟨e1, e2⟩ := andi_one (Host.reduce_andi_all _ _ _ _ _ h24 (ix1 n))
  exact inRange_of _ e1 e2

end Cert.Pre_finite_inputs.Decode

end
-- ==== Proof.lean ====
/-
  The certificate of the cosine-similarity regularised cross-entropy loss kernel against its jnp reference, over the
  extended reals, for finite float inputs and class labels in [0, 1000).

  The kernel walks the batch in 2 halves × 16 blocks of 512 rows. For each row it needs only three numbers — the
  cross-entropy term −(g_t − logsumexp g), the squared distance of the softmax of the row's cosine similarities from
  the one-hot row of its label, written 1 − 2 p_t + Σ e²/s² (the one-hot row's squares sum to 1), and the discount
  1 − p_t with p_t = (Σ e·onehot)/s — and adds them into three running sums per half; after a half's last block it
  writes ce/N + dist/(N·C) + (disc/N)·u, and the two halves' values are added outside the kernel. The reference
  computes the same three means over the whole batch with every softmax weight divided by its normaliser first.
  With every input real the two are one real number: the row identities hold in ℝ because the normaliser is a
  positive real and the label selects exactly one class, the sums regroup freely, and division by the batch size
  distributes over the two halves.

  The kernel side reads the generated frame run's proof data (the carried sums by induction on the grid point, the
  two write-backs, the host operations after the region); the reference side evaluates its operation list a stretch at
  a time and reads the stages at an index; the precondition is read back into "real" and "in range".
-/
import proofs.«429917_j84688165142889_2_alg».proof.Defs
import proofs.«429917_j84688165142889_2_alg».proof.Proof.Gen.Kernel
import proofs.«429917_j84688165142889_2_alg».proof.Proof.Gen.Kernel.Frame
import proofs.«429917_j84688165142889_2_alg».proof.Proof.Gen.KernelIdeal
import proofs.«429917_j84688165142889_2_alg».proof.Proof.Gen.KernelIdeal.Frame
import proofs.«429917_j84688165142889_2_alg».proof.Proof.Gen.ReferenceIdeal
import proofs.«429917_j84688165142889_2_alg».proof.Proof.Gen.Pre_finite_inputs
import proofs.«429917_j84688165142889_2_alg».proof.Proof.KRun
import proofs.«429917_j84688165142889_2_alg».proof.Proof.RefRunP
import proofs.«429917_j84688165142889_2_alg».proof.Proof.RefStages
import proofs.«429917_j84688165142889_2_alg».proof.Proof.RefValue
import proofs.«429917_j84688165142889_2_alg».proof.Proof.LossMath
import proofs.«429917_j84688165142889_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs, and none of its operations writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Stages.after_arg0 _),
     (h c Cert.ReferenceIdeal.main_arg1).trans (Cert.ReferenceIdeal.Stages.after_arg1 _),
     (h c Cert.ReferenceIdeal.main_arg2).trans (Cert.ReferenceIdeal.Stages.after_arg2 _),
     (h c Cert.ReferenceIdeal.main_arg3).trans (Cert.ReferenceIdeal.Stages.after_arg3 _),
     (h c Cert.ReferenceIdeal.main_arg4).trans (Cert.ReferenceIdeal.Stages.after_arg4 _)⟩)
    (Cert.ReferenceIdeal.ValueP.run_after (F := Ideal) m ρ)

/-- The two idealized programs, from memories agreeing on the arguments, end with the same loss. -/
theorem algebraic : Cert.algebraic_KernelIdeal_ReferenceIdeal := by
  intro m ρ m' ρ' hpre hagree
  refine ⟨fun c => (fun _ => Cert.Loss.kernelTotal (Cert.KernelIdeal.Vals.Emb m c) (Cert.KernelIdeal.Vals.Lgt m c)
    (Cert.KernelIdeal.Vals.Tgt m c) (Cert.KernelIdeal.Vals.Cen m c) (Cert.KernelIdeal.Vals.Uu m c)),
    Cert.KernelIdeal.RunV.run m ρ, ?_⟩
  refine (θ_run Cert.ReferenceIdeal.defs _ _).mono (fun _ h c =>
    ⟨(h c Cert.ReferenceIdeal.main_v43).trans ((Cert.ReferenceIdeal.Stages.after_v43 _).trans (funext fun i => ?_)),
     (h c Cert.ReferenceIdeal.main_arg0).trans (Cert.ReferenceIdeal.Stages.after_arg0 _),
     (h c Cert.ReferenceIdeal.main_arg1).trans (Cert.ReferenceIdeal.Stages.after_arg1 _),
     (h c Cert.ReferenceIdeal.main_arg2).trans (Cert.ReferenceIdeal.Stages.after_arg2 _),
     (h c Cert.ReferenceIdeal.main_arg3).trans (Cert.ReferenceIdeal.Stages.after_arg3 _),
     (h c Cert.ReferenceIdeal.main_arg4).trans (Cert.ReferenceIdeal.Stages.after_arg4 _)⟩)
    (Cert.ReferenceIdeal.ValueP.run_after (F := Ideal) m' ρ')
  -- the reference's arguments are the kernel's
  obtain ⟨e0, e1, e2, e3, e4⟩ := hagree c
  have hp := hpre c
  show Cert.ReferenceIdeal.ReadP.val_main_v43 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) i = _
  rw [e0, e1, e2, e3, e4]
  rw [Cert.ReferenceIdeal.RefValue.val_eq_refTotal _ _ _ _ _
    (fun n => Cert.Pre_finite_inputs.Decode.range2 _ _ _ _ _ hp n) i]
  exact (Cert.Loss.kernelTotal_eq_refTotal _ _ _ _ _
    (fun n d => Cert.Pre_finite_inputs.Decode.real0 _ _ _ _ _ hp (ix2 n d))
    (fun n k => Cert.Pre_finite_inputs.Decode.real1 _ _ _ _ _ hp (ix2 n k))
    (fun k d => Cert.Pre_finite_inputs.Decode.real3 _ _ _ _ _ hp (ix2 k d))
    (Cert.Pre_finite_inputs.Decode.real4 _ _ _ _ _ hp (ix1 0))
    (fun n => Cert.Pre_finite_inputs.Decode.range2 _ _ _ _ _ hp n)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
